-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x64 : Shape := ⟨2, ![600000, 64]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part4 {F : FTy → Type} [FloatOps F] (main_arg1 : IVec S2x600000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x600000 32 := broadcastInDim S2x600000 ![] bcast_S_S2x600000 main_c_26
  let main_v70 : IVec S2x600000 1 := cmpi .sge main_arg1 main_v69
  let main_c_27 : IVec S_ 1 := constantI S_ 1 1#1
  let main_v71 : IVec S_ 1 := (fun x v => Host.reduce IntOp.andi x v reducesTo_S2x600000_S_d0_1 h_S_) main_v70 main_c_27
  let main_v72 : IVec S_ 1 := andi main_v68 main_v71
  let main_c_28 : IVec S_ 32 := constantI S_ 32 50000#32
  let main_v73 : IVec S2x600000 32 := broadcastInDim S2x600000 ![] bcast_S_S2x600000 main_c_28
  let main_v74 : IVec S2x600000 1 := cmpi .slt main_arg1 main_v73
  let main_c_29 : IVec S_ 1 := constantI S_ 1 1#1
  let main_v75 : IVec S_ 1 := (fun x v => Host.reduce IntOp.andi x v reducesTo_S2x600000_S_d0_1 h_S_) main_v74 main_c_29
  let main_v76 : IVec S_ 1 := andi main_v72 main_v75
  main_v76

def fn_part3 {F : FTy → Type} [FloatOps F] (main_arg1 : IVec S2x600000 32) (main_arg12 : FVec F S128 .f32) (main_arg13 : FVec F S128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_v63 main_v67

def fn_part2 {F : FTy → Type} [FloatOps F] (main_arg1 : IVec S2x600000 32) (main_arg8 : FVec F S128 .f32) (main_arg9 : FVec F S256x128 .f32) (main_arg10 : FVec F S128 .f32) (main_arg11 : FVec F S128x128 .f32) (main_arg12 : FVec F S128 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_v48 main_v49 main_v50

def fn_part1 {F : FTy → Type} [FloatOps F] (main_arg1 : IVec S2x600000 32) (main_arg5 : FVec F S128x128 .f32) (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x128 .f32) (main_arg1 : IVec S2x600000 32) (main_arg2 : FVec F S600000x64 .f32) (main_arg3 : FVec F S320x128 .f32) (main_arg4 : FVec F S128 .f32) (main_arg5 : FVec F S128x128 .f32) (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x64 .f32 := Host.absf main_arg2
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S320x128 .f32 := Host.absf main_arg3
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S600000x64 : Shape := ⟨2, ![600000, 64]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S64x128 : Shape := ⟨2, ![64, 128]⟩
abbrev S3000x128 : Shape := ⟨2, ![3000, 128]⟩
abbrev S3000x64 : Shape := ⟨2, ![3000, 64]⟩
abbrev S1x128 : Shape := ⟨2, ![1, 128]⟩
abbrev S50000x1 : Shape := ⟨2, ![50000, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 87
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S1, .i32⟩
  | .hbm, ⟨28, _⟩ => ⟨S_, .i32⟩
  | .hbm, ⟨29, _⟩ => ⟨S600000x1, .i32⟩
  | .hbm, ⟨30, _⟩ => ⟨S600000x1, .i1⟩
  | .hbm, ⟨31, _⟩ => ⟨S1x1, .i32⟩
  | .hbm, ⟨32, _⟩ => ⟨S600000x1, .i32⟩
  | .hbm, ⟨33, _⟩ => ⟨S600000x1, .i1⟩
  | .hbm, ⟨34, _⟩ => ⟨S600000x1, .i1⟩
  | .hbm, ⟨35, _⟩ => ⟨S_, .i1⟩
  | .hbm, ⟨36, _⟩ => ⟨S600000, .i1⟩
  | .hbm, ⟨37, _⟩ => ⟨S600000x128, .f32⟩
  | .hbm, ⟨38, _⟩ => ⟨S600000x128, .i1⟩
  | .hbm, ⟨39, _⟩ => ⟨S_, .f32⟩
  | .hbm, ⟨40, _⟩ => ⟨S600000x128, .f32⟩
  | .hbm, ⟨41, _⟩ => ⟨S600000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S1, .i32⟩
  | .hbm, ⟨51, _⟩ => ⟨S_, .i32⟩
  | .hbm, ⟨52, _⟩ => ⟨S600000x1, .i32⟩
  | .hbm, ⟨53, _⟩ => ⟨S600000x1, .i1⟩
  | .hbm, ⟨54, _⟩ => ⟨S1x1, .i32⟩
  | .hbm, ⟨55, _⟩ => ⟨S600000x1, .i32⟩
  | .hbm, ⟨56, _⟩ => ⟨S600000x1, .i1⟩
  | .hbm, ⟨57, _⟩ => ⟨S600000x1, .i1⟩
  | .hbm, ⟨58, _⟩ => ⟨S_, .i1⟩
  | .hbm, ⟨59, _⟩ => ⟨S600000, .i1⟩
  | .hbm, ⟨60, _⟩ => ⟨S600000x128, .f32⟩
  | .hbm, ⟨61, _⟩ => ⟨S600000x128, .i1⟩
  | .hbm, ⟨62, _⟩ => ⟨S_, .f32⟩
  | .hbm, ⟨63, _⟩ => ⟨S600000x128, .f32⟩
  | .hbm, ⟨64, _⟩ => ⟨S600000x128, .f32⟩
  | .hbm, ⟨65, _⟩ => ⟨S128x128, .f32⟩
  | .hbm, ⟨66, _⟩ => ⟨S128x128, .f32⟩
  | .hbm, ⟨67, _⟩ => ⟨S64x128, .f32⟩
  | .hbm, ⟨68, _⟩ => ⟨S600000x128, .f32⟩
  | .hbm, ⟨69, _⟩ => ⟨S_, .f32⟩
  | .hbm, ⟨70, _⟩ => ⟨S50000x128, .f32⟩
  | .hbm, ⟨71, _⟩ => ⟨S600000x1, .i32⟩
  | .hbm, ⟨72, _⟩ => ⟨S50000x128, .f32⟩
  | .hbm, ⟨73, _⟩ => ⟨S_, .f32⟩
  | .hbm, ⟨74, _⟩ => ⟨S600000x1, .f32⟩
  | .hbm, ⟨75, _⟩ => ⟨S_, .f32⟩
  | .hbm, ⟨76, _⟩ => ⟨S50000x1, .f32⟩
  | .hbm, ⟨77, _⟩ => ⟨S600000x1, .i32⟩
  | .hbm, ⟨78, _⟩ => ⟨S50000x1, .f32⟩
  | .hbm, ⟨79, _⟩ => ⟨S_, .f32⟩
  | .hbm, ⟨80, _⟩ => ⟨S50000x1, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S128x128, .f32⟩
  | .hbm, ⟨85, _⟩ => ⟨S128x128, .f32⟩
  | .hbm, ⟨86, _⟩ => ⟨S50000x128, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x64, .f32⟩
  | .local _ .vmem, ⟨5, _⟩ => ⟨S3000x64, .f32⟩
  | .local _ .vmem, ⟨6, _⟩ => ⟨S128x128, .f32⟩
  | .local _ .vmem, ⟨7, _⟩ => ⟨S128x128, .f32⟩
  | .local _ .vmem, ⟨8, _⟩ => ⟨S64x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S3000x128, .f32⟩
  | .local _ .vmem, ⟨15, _⟩ => ⟨S3000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S128x128, .f32⟩
  | .local _ .vmem, ⟨22, _⟩ => ⟨S128, .f32⟩
  | .local _ .vmem, ⟨23, _⟩ => ⟨S128x128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S2000x128, .f32⟩
  | .local _ .vmem, ⟨28, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_cst : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_cst_0 : Ref sig .tc := ⟨.hbm, 73, rfl⟩
abbrev main_v13 : Ref sig .tc := ⟨.hbm, 74, rfl⟩
abbrev main_cst_1 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_cst_2 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  slices_S320x128_S128x128_0_0 : S320x128.Slices ![0, 0] S128x128
  slices_S320x128_S128x128_128_0 : S320x128.Slices ![128, 0] S128x128
  slices_S320x128_S64x128_256_0 : S320x128.Slices ![256, 0] S64x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bitsLt_bf16_f32 : FTy.bits .bf16 < FTy.bits .f32
  inb_S3000x64_S3000x64_0_0 : ∀ a, (![0, 0] : Fin 2 → Nat) a + S3000x64.size a ≤ S3000x64.size a
  h_S3000x64 : 0 < S3000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S3000x128 : S1x128.Broadcasts S3000x128
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S600000x1_S600000x128_1_0_n_n_0_1_1128_wf : GatherDims.WF S50000x128 S600000x1 S600000x128 [1] [0] [] [0] [] 1 ![1, 128]
  dot_S3000x128_S128x128_S3000x128_1_0_0_1_n_n_wf : DotDims.WF S3000x128 S128x128 S3000x128 [1] [0] [0] [1] [] []
  dot_S3000x64_S64x128_S3000x128_1_0_0_1_n_n_wf : DotDims.WF S3000x64 S64x128 S3000x128 [1] [0] [0] [1] [] []
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S600000x128.size a
  hwx0_0 : ∀ i : grid0.Coords, EltTy.bits .f32 = 32 ∨ (Rect.block (s := S600000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S600000x128.size a
  hwx0_1 : ∀ i : grid0.Coords, EltTy.bits .f32 = 32 ∨ (Rect.block (s := S600000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S600000x64.size a
  hwx0_2 : ∀ i : grid0.Coords, EltTy.bits .f32 = 32 ∨ (Rect.block (s := S600000x64) S3000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3000x128.size a ≤ S600000x128.size a
  hwx0_11 : ∀ i : grid0.Coords, EltTy.bits .f32 = 32 ∨ (Rect.block (s := S600000x128) S3000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def dot_S3000x64_S64x128_S3000x128_1_0_0_1_n_n : DotDims S3000x64 S64x128 S3000x128 where
  lhsContracting := [1]
  rhsContracting := [0]
  lhsNonContracting := [0]
  rhsNonContracting := [1]
  lhsBatch := []
  rhsBatch := []
  wf := dot_S3000x64_S64x128_S3000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S3000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x64 : Shape := ⟨2, ![600000, 64]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x320 : Shape := ⟨2, ![600000, 320]⟩
abbrev S1x128 : Shape := ⟨2, ![1, 128]⟩
abbrev S50000x1 : Shape := ⟨2, ![50000, 1]⟩
abbrev S50000x256 : Shape := ⟨2, ![50000, 256]⟩
abbrev S50000 : Shape := ⟨1, ![50000]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S2x600000, .i32⟩
  | 2 => ⟨S600000x64, .f32⟩
  | 3 => ⟨S320x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S256x128, .f32⟩
  | 10 => ⟨S128, .f32⟩
  | 11 => ⟨S128x128, .f32⟩
  | 12 => ⟨S128, .f32⟩
  | 13 => ⟨S128, .f32⟩
  | 14 => ⟨S128, .f32⟩
  | 15 => ⟨S1x600000, .i32⟩
  | 16 => ⟨S600000, .i32⟩
  | 17 => ⟨S1x600000, .i32⟩
  | 18 => ⟨S600000, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S600000x320, .f32⟩
  | 38 => ⟨S600000x128, .f32⟩
  | 39 => ⟨S1x128, .f32⟩
  | 40 => ⟨S600000x128, .f32⟩
  | 41 => ⟨S600000x128, .f32⟩
  | 42 => ⟨S600000x128, .f32⟩
  | 43 => ⟨S600000x128, .f32⟩
  | 44 => ⟨S_, .f32⟩
  | 45 => ⟨S600000x128, .f32⟩
  | 46 => ⟨S600000x128, .f32⟩
  | 47 => ⟨S600000x128, .f32⟩
  | 48 => ⟨S_, .f32⟩
  | 49 => ⟨S600000x128, .f32⟩
  | 50 => ⟨S600000x128, .f32⟩
  | 51 => ⟨S600000x128, .f32⟩
  | 52 => ⟨S_, .f32⟩
  | 53 => ⟨S600000x128, .f32⟩
  | 54 => ⟨S600000x128, .f32⟩
  | 55 => ⟨S_, .f32⟩
  | 56 => ⟨S600000x128, .f32⟩
  | 57 => ⟨S600000x128, .f32⟩
  | 58 => ⟨S600000x128, .f32⟩
  | 59 => ⟨S600000x128, .f32⟩
  | 60 => ⟨S1x128, .f32⟩
  | 61 => ⟨S600000x128, .f32⟩
  | 62 => ⟨S600000x128, .f32⟩
  | 63 => ⟨S600000x128, .f32⟩
  | 64 => ⟨S600000x128, .f32⟩
  | 65 => ⟨S_, .f32⟩
  | 66 => ⟨S600000x128, .f32⟩
  | 67 => ⟨S600000x128, .f32⟩
  | 68 => ⟨S600000x128, .f32⟩
  | 69 => ⟨S_, .f32⟩
  | 70 => ⟨S600000x128, .f32⟩
  | 71 => ⟨S600000x128, .f32⟩
  | 72 => ⟨S600000x128, .f32⟩
  | 73 => ⟨S_, .f32⟩
  | 74 => ⟨S600000x128, .f32⟩
  | 75 => ⟨S600000x128, .f32⟩
  | 76 => ⟨S_, .f32⟩
  | 77 => ⟨S600000x128, .f32⟩
  | 78 => ⟨S600000x128, .f32⟩
  | 79 => ⟨S600000x128, .f32⟩
  | 80 => ⟨S600000x128, .f32⟩
  | 81 => ⟨S1x128, .f32⟩
  | 82 => ⟨S600000x128, .f32⟩
  | 83 => ⟨S600000x128, .f32⟩
  | 84 => ⟨S_, .f32⟩
  | 85 => ⟨S50000x128, .f32⟩
  | 86 => ⟨S600000x1, .i32⟩
  | 87 => ⟨S50000x128, .f32⟩
  | 88 => ⟨S_, .f32⟩
  | 89 => ⟨S600000x1, .f32⟩
  | 90 => ⟨S_, .f32⟩
  | 91 => ⟨S50000x1, .f32⟩
  | 92 => ⟨S600000x1, .i32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x256, .f32⟩
  | 100 => ⟨S50000x128, .f32⟩
  | 101 => ⟨S1x128, .f32⟩
  | 102 => ⟨S50000x128, .f32⟩
  | 103 => ⟨S50000x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S50000x128, .f32⟩
  | 126 => ⟨S_, .f32⟩
  | 127 => ⟨S50000, .f32⟩
  | _ => ⟨S50000x128, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S_, .i32⟩
  | 5 => ⟨S_, .f32⟩
  | 6 => ⟨S50000, .f32⟩
  | 7 => ⟨S50000x1, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S50000x128, .f32⟩
  | 14 => ⟨S_, .f32⟩
  | 15 => ⟨S_, .f32⟩
  | 16 => ⟨S_, .f32⟩
  | 17 => ⟨S_, .f32⟩
  | 18 => ⟨S50000, .f32⟩
  | 19 => ⟨S50000x1, .f32⟩
  | 20 => ⟨S50000x1, .f32⟩
  | 21 => ⟨S50000x1, .f32⟩
  | 22 => ⟨S_, .f32⟩
  | 23 => ⟨S_, .i1⟩
  | 24 => ⟨S_, .f32⟩
  | 25 => ⟨S_, .f32⟩
  | 26 => ⟨S50000x1, .f32⟩
  | 27 => ⟨S50000x1, .f32⟩
  | 28 => ⟨S50000x128, .f32⟩
  | 29 => ⟨S50000x128, .f32⟩
  | 30 => ⟨S_, .f32⟩
  | 31 => ⟨S50000x1, .f32⟩
  | 32 => ⟨S50000x1, .f32⟩
  | 33 => ⟨S50000x1, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_18 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_c_20 : Ref sig .tc := ⟨.hbm, 132, rfl⟩
abbrev main_call0_cst : Ref sig .tc := ⟨.hbm, 133, rfl⟩
abbrev main_call0_v0 : Ref sig .tc := ⟨.hbm, 134, rfl⟩
abbrev main_call0_v1 : Ref sig .tc := ⟨.hbm, 135, rfl⟩
abbrev main_call0_cst_0 : Ref sig .tc := ⟨.hbm, 136, rfl⟩
abbrev main_call0_v2 : Ref sig .tc := ⟨.hbm, 137, rfl⟩
abbrev main_call0_v3 : Ref sig .tc := ⟨.hbm, 138, rfl⟩
abbrev main_call0_v4 : Ref sig .tc := ⟨.hbm, 139, rfl⟩
abbrev main_call0_v5 : Ref sig .tc := ⟨.hbm, 140, rfl⟩
abbrev main_call0_v6 : Ref sig .tc := ⟨.hbm, 141, rfl⟩
abbrev main_call0_v7 : Ref sig .tc := ⟨.hbm, 142, rfl⟩
abbrev main_call0_cst_1 : Ref sig .tc := ⟨.hbm, 143, rfl⟩
abbrev main_call0_v8 : Ref sig .tc := ⟨.hbm, 144, rfl⟩
abbrev main_call0_cst_2 : Ref sig .tc := ⟨.hbm, 145, rfl⟩
abbrev main_call0_v9 : Ref sig .tc := ⟨.hbm, 146, rfl⟩
abbrev main_call0_v10 : Ref sig .tc := ⟨.hbm, 147, rfl⟩
abbrev main_call0_v11 : Ref sig .tc := ⟨.hbm, 148, rfl⟩
abbrev main_call0_v12 : Ref sig .tc := ⟨.hbm, 149, rfl⟩
abbrev main_call0_cst_3 : Ref sig .tc := ⟨.hbm, 150, rfl⟩
abbrev main_call0_v13 : Ref sig .tc := ⟨.hbm, 151, rfl⟩
abbrev main_call0_cst_4 : Ref sig .tc := ⟨.hbm, 152, rfl⟩
abbrev main_call0_call0_v0 : Ref sig .tc := ⟨.hbm, 153, rfl⟩
abbrev main_call0_call0_v1 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_21 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x64_S600000x320_d1 : Shape.Concatenates [S600000x128, S600000x128, S600000x64] S600000x320 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  gather_S50000x128_S600000x1_S600000x128_1_0_n_n_0_1_1128_wf : GatherDims.WF S50000x128 S600000x1 S600000x128 [1] [0] [] [0] [] 1 ![1, 128]
  dot_S600000x320_S320x128_S600000x128_1_0_0_1_n_n_wf : DotDims.WF S600000x320 S320x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x320_S320x128_S600000x128_1_0_0_1_n_n : DotDims S600000x320 S320x128 S600000x128 where
  lhsContracting := [1]
  rhsContracting := [0]
  lhsNonContracting := [0]
  rhsNonContracting := [1]
  lhsBatch := []
  rhsBatch := []
  wf := dot_S600000x320_S320x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RDefs.lean ====
/-
  The reference's host computation, stage by stage, as functions of arrays: the two rows of the edge list,
  a row of indices wrapped once for negatives and laid out as a column of start indices, the row gather, the
  message network on the concatenated rows, the mean aggregation over destination nodes (a sum scattered by
  destination divided by the count of edges plus 1e-8), and the update network with residual and layer
  normalisation.  Composed, they are the reference's result.
-/
import proofs.«409984_j14121852469802_1_alg».proof.Proof.Gen.ReferenceIdeal

noncomputable section

namespace Cert.ReferenceIdeal.HostR

open Cert.ReferenceIdeal Cert.ReferenceIdeal.Gen Idealize.ShloMosaic

variable {F : FTy → Type} [FloatOps F]

/-- The edge list's first row: every edge's source node. -/
def srcRow (ei : IVec S2x600000 32) : IVec S600000 32 :=
  shapeCast S600000 (extractStridedSlice S1x600000 ![0, 0] ei slices_S2x600000_S1x600000_0_0) shapeCasts_S1x600000_S600000
/-- The edge list's second row: every edge's destination node. -/
def dstRow (ei : IVec S2x600000 32) : IVec S600000 32 :=
  shapeCast S600000 (extractStridedSlice S1x600000 ![1, 0] ei slices_S2x600000_S1x600000_1_0) shapeCasts_S1x600000_S600000

/-- A row of node indices with a negative index moved up by the node count, as a column of start indices. -/
def wrapCol (r : IVec S600000 32) : IVec S600000x1 32 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

/-- One node row per edge. -/
def gath (h : FVec F S50000x128 .f32) (col : IVec S600000x1 32) : FVec F S600000x128 .f32 :=
  Host.gather gather_S50000x128_S600000x1_S600000x128_1_0_n_n_0_1_1128 h col

/-- A scalar literal over the edge array. -/
def litE (b : BitVec 32) : FVec F S600000x128 .f32 := broadcastInDim S600000x128 ![] bcast_S_S600000x128 (constant S_ .f32 b)
/-- A bias over the edge array's rows. -/
def biasE (b : FVec F S128 .f32) : FVec F S600000x128 .f32 :=
  broadcastInDim S600000x128 ![0, 1] bcast_S1x128_S600000x128_0_1 (broadcastInDim S1x128 ![1] bcast_S128_S1x128_1 b)
/-- The tanh form of GELU over the edge array. -/
def geluE (x : FVec F S600000x128 .f32) : FVec F S600000x128 .f32 :=
  mulf x (mulf (litE 0x3F000000#32) (addf (litE 0x3F800000#32) (Host.tanh (mulf (litE 0x3F4C422A#32)
    (addf x (mulf (litE 0x3D372713#32) (mulf (mulf x x) x)))))))

/-- The message network on the concatenated source row, destination row and edge attributes. -/
def refMsgs (hs hd : FVec F S600000x128 .f32) (ea : FVec F S600000x64 .f32) (W1 : FVec F S320x128 .f32) (b1 : FVec F S128 .f32)
    (W2 : FVec F S128x128 .f32) (b2 : FVec F S128 .f32) (W3 : FVec F S128x128 .f32) (b3 : FVec F S128 .f32) : FVec F S600000x128 .f32 :=
  addf (Host.dotGeneral dot_S600000x128_S128x128_S600000x128_1_0_0_1_n_n none
    (geluE (addf (Host.dotGeneral dot_S600000x128_S128x128_S600000x128_1_0_0_1_n_n none
      (geluE (addf (Host.dotGeneral dot_S600000x320_S320x128_S600000x128_1_0_0_1_n_n none
        (concatenate S600000x320 1 [⟨S600000x128, hs⟩, ⟨S600000x128, hd⟩, ⟨S600000x64, ea⟩] concatenates_S600000x128_S600000x128_S600000x64_S600000x320_d1) W1)
        (biasE b1))) W2) (biasE b2))) W3) (biasE b3)

/-- The mean of the messages arriving at each node: their sum by destination over the edge count plus 1e-8. -/
def aggR (msgs : FVec F S600000x128 .f32) (dst : IVec S600000 32) : FVec F S50000x128 .f32 :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst) msgs)
    (broadcastInDim S50000x128 ![0, 1] bcast_S50000x1_S50000x128_0_1
      (addf (Host.scatterAdd scatter_S50000x1_S600000x1_S600000x1_1_0_0_1
          (broadcastInDim S50000x1 ![] bcast_S_S50000x1 (constant S_ .f32 0x00000000#32))
          (broadcastInDim S600000x1 ![0] bcast_S600000_S600000x1_0 dst)
          (broadcastInDim S600000x1 ![] bcast_S_S600000x1 (constant S_ .f32 0x3F800000#32)))
        (broadcastInDim S50000x1 ![] bcast_S_S50000x1 (constant S_ .f32 0x322BCC77#32))))

/-- A scalar literal over the node array. -/
def litN (b : BitVec 32) : FVec F S50000x128 .f32 := broadcastInDim S50000x128 ![] bcast_S_S50000x128 (constant S_ .f32 b)
/-- A bias over the node array's rows. -/
def biasN (b : FVec F S128 .f32) : FVec F S50000x128 .f32 :=
  broadcastInDim S50000x128 ![0, 1] bcast_S1x128_S50000x128_0_1 (broadcastInDim S1x128 ![1] bcast_S128_S1x128_1 b)
/-- The tanh form of GELU over the node array. -/
def geluN (x : FVec F S50000x128 .f32) : FVec F S50000x128 .f32 :=
  mulf x (mulf (litN 0x3F000000#32) (addf (litN 0x3F800000#32) (Host.tanh (mulf (litN 0x3F4C422A#32)
    (addf x (mulf (litN 0x3D372713#32) (mulf (mulf x x) x)))))))

/-- The update network of (node row, aggregate) plus the node row. -/
def refY (h agg : FVec F S50000x128 .f32) (uW1 : FVec F S256x128 .f32) (ub1 : FVec F S128 .f32) (uW2 : FVec F S128x128 .f32)
    (ub2 : FVec F S128 .f32) : FVec F S50000x128 .f32 :=
  addf (addf (Host.dotGeneral dot_S50000x128_S128x128_S50000x128_1_0_0_1_n_n none
    (geluN (addf (Host.dotGeneral dot_S50000x256_S256x128_S50000x128_1_0_0_1_n_n none
      (concatenate S50000x256 1 [⟨S50000x128, h⟩, ⟨S50000x128, agg⟩] concatenates_S50000x128_S50000x128_S50000x256_d1) uW1) (biasN ub1)))
    uW2) (biasN ub2)) h

/-- Each row's mean, as a column. -/
def meanCol (y : FVec F S50000x128 .f32) : FVec F S50000x1 .f32 :=
  Host.divf (broadcastInDim S50000x1 ![0] bcast_S50000_S50000x1_0
      (Host.reduceAdd y (constant S_ .f32 0x00000000#32) reducesTo_S50000x128_S50000_d1 h_S_))
    (broadcastInDim S50000x1 ![] bcast_S_S50000x1 (constant S_ .f32 0x43000000#32))

/-- Each row's variance, as a column, the way jnp.var computes it: the mean of the squared deviations over
    128 minus the (zero) degrees of freedom, guarded by that divisor being greater than zero. -/
def varCol (y : FVec F S50000x128 .f32) : FVec F S50000x1 .f32 :=
  (fun (p : IVec S_ 1) (a b : FVec F S50000x1 .f32) => select (broadcastInDim S50000x1 ![] bcast_S_S50000x1 p) a b)
    (cmpf .ogt (subf (constant (F := F) S_ .f32 0x43000000#32) (sitofp .f32 (constantI S_ 32 0#32) : FVec F S_ .f32)) (constant S_ .f32 0x00000000#32))
    (Host.divf (broadcastInDim S50000x1 ![0] bcast_S50000_S50000x1_0
        (Host.reduceAdd
          (mulf (subf y (broadcastInDim S50000x128 ![0, 1] bcast_S50000x1_S50000x128_0_1 (meanCol y)))
                (subf y (broadcastInDim S50000x128 ![0, 1] bcast_S50000x1_S50000x128_0_1 (meanCol y))))
          (constant S_ .f32 0x00000000#32) reducesTo_S50000x128_S50000_d1 h_S_))
      (broadcastInDim S50000x1 ![] bcast_S_S50000x1
        (subf (constant (F := F) S_ .f32 0x43000000#32) (sitofp .f32 (constantI S_ 32 0#32) : FVec F S_ .f32))))
    (broadcastInDim S50000x1 ![] bcast_S_S50000x1 (id (constant S_ .f32 0x7FC00000#32)))

/-- Layer normalisation of every row, scaled by gamma and shifted by beta. -/
def refLN (y : FVec F S50000x128 .f32) (gamma beta : FVec F S128 .f32) : FVec F S50000x128 .f32 :=
  addf (mulf (Host.divf (subf y (broadcastInDim S50000x128 ![0, 1] bcast_S50000x1_S50000x128_0_1 (meanCol y)))
      (broadcastInDim S50000x128 ![0, 1] bcast_S50000x1_S50000x128_0_1
        (Host.sqrt (addf (varCol y) (broadcastInDim S50000x1 ![] bcast_S_S50000x1 (constant S_ .f32 0x3727C5AC#32))))))
    (biasN gamma)) (biasN beta)

/-- The reference's result as one function of its fifteen arguments. -/
def refAll (h : FVec F S50000x128 .f32) (ei : IVec S2x600000 32) (ea : FVec F S600000x64 .f32) (W1 : FVec F S320x128 .f32)
    (b1 : FVec F S128 .f32) (W2 : FVec F S128x128 .f32) (b2 : FVec F S128 .f32) (W3 : FVec F S128x128 .f32) (b3 : FVec F S128 .f32)
    (uW1 : FVec F S256x128 .f32) (ub1 : FVec F S128 .f32) (uW2 : FVec F S128x128 .f32) (ub2 gamma beta : FVec F S128 .f32) :
    FVec F S50000x128 .f32 :=
  refLN (refY h (aggR (refMsgs (gath h (wrapCol (srcRow ei))) (gath h (wrapCol (dstRow ei))) ea W1 b1 W2 b2 W3 b3) (dstRow ei))
    uW1 ub1 uW2 ub2) gamma beta

end Cert.ReferenceIdeal.HostR

end
-- ==== Proof.RRun.lean ====
/-
  The reference program's run read back: its @main is a straight line of host operations (the variance
  function inlined where it is called), so every weakly fair execution terminates with the result array at
  the operations' composed value of the argument arrays, and the arguments unchanged.
-/
import proofs.«409984_j14121852469802_1_alg».proof.Proof.Gen.ReferenceIdeal
import proofs.«409984_j14121852469802_1_alg».proof.Proof.RDefs
import Idealize.ShloMosaic.Lib.StableHlo.Run
import Idealize.ShloMosaic.PureOps.Ideal

noncomputable section

namespace Cert.ReferenceIdeal.HostR

open Cert.ReferenceIdeal Cert.ReferenceIdeal.Gen Idealize.ShloMosaic Idealize.ShloMosaic.TcCoe Idealize.SL.Sem Idealize.ShloMosaic.StableHlo

section Line

variable {F : FTy → Type} [FloatOps F]

/-! ## The operations, stage by stage

@main's 155 operations in program order, cut where the host stages meet: each list ends at the array the
next stage starts from. The variance function's twenty operations and the three of the guarded select it
calls stand where @main calls it, over that call's own arrays. -/

/-- The index stage: the edge list's two rows, each wrapped once for negatives and laid out as a column, and the node rows gathered by them (22 operations). -/
abbrev opsIdx : List (HloOp τ sig (Elt F)) :=
  [
    unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v11 (broadcastInDim S600000 ![] bcast_S_S600000 : (⟨S_, .i32⟩ : BufTy).Contents (Elt F) → (⟨S600000, .i32⟩ : BufTy).Contents (Elt F)),
    binary main_v3 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v13 (broadcastInDim S600000 ![] bcast_S_S600000 : (⟨S_, .i32⟩ : BufTy).Contents (Elt F) → (⟨S600000, .i32⟩ : BufTy).Contents (Elt F)),
    binary main_v3 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- The message network: the three operands concatenated, then three dense layers with the tanh form of GELU after the first two (47 operations). -/
abbrev opsMsg : List (HloOp τ sig (Elt F)) :=
  [
    nary ![main_v10, main_v17, main_arg2] main_v18 (fun u => concatenate S600000x320 1 [⟨S600000x128, u 0⟩, ⟨S600000x128, u 1⟩, ⟨S600000x64, u 2⟩] concatenates_S600000x128_S600000x128_S600000x64_S600000x320_d1),
    binary main_v18 main_arg3 main_v19 ((fun l r => Host.dotGeneral dot_S600000x320_S320x128_S600000x128_1_0_0_1_n_n none l r) : (⟨S600000x320, .f32⟩ : BufTy).Contents (Elt F) → (⟨S320x128, .f32⟩ : BufTy).Contents (Elt F) → (⟨S600000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S600000x128 ![0, 1] bcast_S1x128_S600000x128_0_1 : (⟨S1x128, .f32⟩ : BufTy).Contents (Elt F) → (⟨S600000x128, .f32⟩ : BufTy).Contents (Elt F)),
    binary main_v19 main_v21 main_v22 (addf : (⟨S600000x128, .f32⟩ : BufTy).Contents (Elt F) → (⟨S600000x128, .f32⟩ : BufTy).Contents (Elt F) → (⟨S600000x128, .f32⟩ : BufTy).Contents (Elt F)),
    binary main_v22 main_v22 main_v23 (mulf : (⟨S600000x128, .f32⟩ : BufTy).Contents (Elt F) → (⟨S600000x128, .f32⟩ : BufTy).Contents (Elt F) → (⟨S600000x128, .f32⟩ : BufTy).Contents (Elt F)),
    binary main_v23 main_v22 main_v24 (mulf : (⟨S600000x128, .f32⟩ : BufTy).Contents (Elt F) → (⟨S600000x128, .f32⟩ : BufTy).Contents (Elt F) → (⟨S600000x128, .f32⟩ : BufTy).Contents (Elt F)),
    nullary main_cst (constant S_ .f32 0x3D372713#32),
    unary main_cst main_v25 (broadcastInDim S600000x128 ![] bcast_S_S600000x128 : (⟨S_, .f32⟩ : BufTy).Contents (Elt F) → (⟨S600000x128, .f32⟩ : BufTy).Contents (Elt F)),
    binary main_v25 main_v24 main_v26 (mulf : (⟨S600000x128, .f32⟩ : BufTy).Contents (Elt F) → (⟨S600000x128, .f32⟩ : BufTy).Contents (Elt F) → (⟨S600000x128, .f32⟩ : BufTy).Contents (Elt F)),
    binary main_v22 main_v26 main_v27 (addf : (⟨S600000x128, .f32⟩ : BufTy).Contents (Elt F) → (⟨S600000x128, .f32⟩ : BufTy).Contents (Elt F) → (⟨S600000x128, .f32⟩ : BufTy).Contents (Elt F)),
    nullary main_cst_3 (constant S_ .f32 0x3F4C422A#32),
    unary main_cst_3 main_v28 (broadcastInDim S600000x128 ![] bcast_S_S600000x128 : (⟨S_, .f32⟩ : BufTy).Contents (Elt F) → (⟨S600000x128, .f32⟩ : BufTy).Contents (Elt F)),
    binary main_v28 main_v27 main_v29 (mulf : (⟨S600000x128, .f32⟩ : BufTy).Contents (Elt F) → (⟨S600000x128, .f32⟩ : BufTy).Contents (Elt F) → (⟨S600000x128, .f32⟩ : BufTy).Contents (Elt F)),
    unary main_v29 main_v30 (Host.tanh : (⟨S600000x128, .f32⟩ : BufTy).Contents (Elt F) → (⟨S600000x128, .f32⟩ : BufTy).Contents (Elt F)),
    nullary main_cst_4 (constant S_ .f32 0x3F800000#32),
    unary main_cst_4 main_v31 (broadcastInDim S600000x128 ![] bcast_S_S600000x128 : (⟨S_, .f32⟩ : BufTy).Contents (Elt F) → (⟨S600000x128, .f32⟩ : BufTy).Contents (Elt F)),
    binary main_v31 main_v30 main_v32 (addf : (⟨S600000x128, .f32⟩ : BufTy).Contents (Elt F) → (⟨S600000x128, .f32⟩ : BufTy).Contents (Elt F) → (⟨S600000x128, .f32⟩ : BufTy).Contents (Elt F)),
    nullary main_cst_5 (constant S_ .f32 0x3F000000#32),
    unary main_cst_5 main_v33 (broadcastInDim S600000x128 ![] bcast_S_S600000x128 : (⟨S_, .f32⟩ : BufTy).Contents (Elt F) → (⟨S600000x128, .f32⟩ : BufTy).Contents (Elt F)),
    binary main_v33 main_v32 main_v34 (mulf : (⟨S600000x128, .f32⟩ : BufTy).Contents (Elt F) → (⟨S600000x128, .f32⟩ : BufTy).Contents (Elt F) → (⟨S600000x128, .f32⟩ : BufTy).Contents (Elt F)),
    binary main_v22 main_v34 main_v35 (mulf : (⟨S600000x128, .f32⟩ : BufTy).Contents (Elt F) → (⟨S600000x128, .f32⟩ : BufTy).Contents (Elt F) → (⟨S600000x128, .f32⟩ : BufTy).Contents (Elt F)),
    binary main_v35 main_arg5 main_v36 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S600000x128 ![0, 1] bcast_S1x128_S600000x128_0_1 : (⟨S1x128, .f32⟩ : BufTy).Contents (Elt F) → (⟨S600000x128, .f32⟩ : BufTy).Contents (Elt F)),
    binary main_v36 main_v38 main_v39 (addf : (⟨S600000x128, .f32⟩ : BufTy).Contents (Elt F) → (⟨S600000x128, .f32⟩ : BufTy).Contents (Elt F) → (⟨S600000x128, .f32⟩ : BufTy).Contents (Elt F)),
    binary main_v39 main_v39 main_v40 (mulf : (⟨S600000x128, .f32⟩ : BufTy).Contents (Elt F) → (⟨S600000x128, .f32⟩ : BufTy).Contents (Elt F) → (⟨S600000x128, .f32⟩ : BufTy).Contents (Elt F)),
    binary main_v40 main_v39 main_v41 (mulf : (⟨S600000x128, .f32⟩ : BufTy).Contents (Elt F) → (⟨S600000x128, .f32⟩ : BufTy).Contents (Elt F) → (⟨S600000x128, .f32⟩ : BufTy).Contents (Elt F)),
    nullary main_cst_6 (constant S_ .f32 0x3D372713#32),
    unary main_cst_6 main_v42 (broadcastInDim S600000x128 ![] bcast_S_S600000x128 : (⟨S_, .f32⟩ : BufTy).Contents (Elt F) → (⟨S600000x128, .f32⟩ : BufTy).Contents (Elt F)),
    binary main_v42 main_v41 main_v43 (mulf : (⟨S600000x128, .f32⟩ : BufTy).Contents (Elt F) → (⟨S600000x128, .f32⟩ : BufTy).Contents (Elt F) → (⟨S600000x128, .f32⟩ : BufTy).Contents (Elt F)),
    binary main_v39 main_v43 main_v44 (addf : (⟨S600000x128, .f32⟩ : BufTy).Contents (Elt F) → (⟨S600000x128, .f32⟩ : BufTy).Contents (Elt F) → (⟨S600000x128, .f32⟩ : BufTy).Contents (Elt F)),
    nullary main_cst_7 (constant S_ .f32 0x3F4C422A#32),
    unary main_cst_7 main_v45 (broadcastInDim S600000x128 ![] bcast_S_S600000x128 : (⟨S_, .f32⟩ : BufTy).Contents (Elt F) → (⟨S600000x128, .f32⟩ : BufTy).Contents (Elt F)),
    binary main_v45 main_v44 main_v46 (mulf : (⟨S600000x128, .f32⟩ : BufTy).Contents (Elt F) → (⟨S600000x128, .f32⟩ : BufTy).Contents (Elt F) → (⟨S600000x128, .f32⟩ : BufTy).Contents (Elt F)),
    unary main_v46 main_v47 (Host.tanh : (⟨S600000x128, .f32⟩ : BufTy).Contents (Elt F) → (⟨S600000x128, .f32⟩ : BufTy).Contents (Elt F)),
    nullary main_cst_8 (constant S_ .f32 0x3F800000#32),
    unary main_cst_8 main_v48 (broadcastInDim S600000x128 ![] bcast_S_S600000x128 : (⟨S_, .f32⟩ : BufTy).Contents (Elt F) → (⟨S600000x128, .f32⟩ : BufTy).Contents (Elt F)),
    binary main_v48 main_v47 main_v49 (addf : (⟨S600000x128, .f32⟩ : BufTy).Contents (Elt F) → (⟨S600000x128, .f32⟩ : BufTy).Contents (Elt F) → (⟨S600000x128, .f32⟩ : BufTy).Contents (Elt F)),
    nullary main_cst_9 (constant S_ .f32 0x3F000000#32),
    unary main_cst_9 main_v50 (broadcastInDim S600000x128 ![] bcast_S_S600000x128 : (⟨S_, .f32⟩ : BufTy).Contents (Elt F) → (⟨S600000x128, .f32⟩ : BufTy).Contents (Elt F)),
    binary main_v50 main_v49 main_v51 (mulf : (⟨S600000x128, .f32⟩ : BufTy).Contents (Elt F) → (⟨S600000x128, .f32⟩ : BufTy).Contents (Elt F) → (⟨S600000x128, .f32⟩ : BufTy).Contents (Elt F)),
    binary main_v39 main_v51 main_v52 (mulf : (⟨S600000x128, .f32⟩ : BufTy).Contents (Elt F) → (⟨S600000x128, .f32⟩ : BufTy).Contents (Elt F) → (⟨S600000x128, .f32⟩ : BufTy).Contents (Elt F)),
    binary main_v52 main_arg7 main_v53 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg8 main_v54 (broadcastInDim S1x128 ![1] bcast_S128_S1x128_1 : (⟨S128, .f32⟩ : BufTy).Contents (Elt F) → (⟨S1x128, .f32⟩ : BufTy).Contents (Elt F)),
    unary main_v54 main_v55 (broadcastInDim S600000x128 ![0, 1] bcast_S1x128_S600000x128_0_1 : (⟨S1x128, .f32⟩ : BufTy).Contents (Elt F) → (⟨S600000x128, .f32⟩ : BufTy).Contents (Elt F)),
    binary main_v53 main_v55 main_v56 (addf : (⟨S600000x128, .f32⟩ : BufTy).Contents (Elt F) → (⟨S600000x128, .f32⟩ : BufTy).Contents (Elt F) → (⟨S600000x128, .f32⟩ : BufTy).Contents (Elt F)) ]

/-- The aggregation: the messages summed by destination node, the edges counted by destination node, and the quotient (15 operations). -/
abbrev opsAgg : List (HloOp τ sig (Elt F)) :=
  [
    nullary main_cst_10 (constant S_ .f32 0x00000000#32),
    unary main_cst_10 main_v57 (broadcastInDim S50000x128 ![] bcast_S_S50000x128 : (⟨S_, .f32⟩ : BufTy).Contents (Elt F) → (⟨S50000x128, .f32⟩ : BufTy).Contents (Elt F)),
    unary main_v3 main_v58 (broadcastInDim S600000x1 ![0] bcast_S600000_S600000x1_0 : (⟨S600000, .i32⟩ : BufTy).Contents (Elt F) → (⟨S600000x1, .i32⟩ : BufTy).Contents (Elt F)),
    ternary main_v57 main_v58 main_v56 main_v59 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_11 (constant S_ .f32 0x3F800000#32),
    unary main_cst_11 main_v60 (broadcastInDim S600000x1 ![] bcast_S_S600000x1 : (⟨S_, .f32⟩ : BufTy).Contents (Elt F) → (⟨S600000x1, .f32⟩ : BufTy).Contents (Elt F)),
    nullary main_cst_12 (constant S_ .f32 0x00000000#32),
    unary main_cst_12 main_v61 (broadcastInDim S50000x1 ![] bcast_S_S50000x1 : (⟨S_, .f32⟩ : BufTy).Contents (Elt F) → (⟨S50000x1, .f32⟩ : BufTy).Contents (Elt F)),
    unary main_v3 main_v62 (broadcastInDim S600000x1 ![0] bcast_S600000_S600000x1_0 : (⟨S600000, .i32⟩ : BufTy).Contents (Elt F) → (⟨S600000x1, .i32⟩ : BufTy).Contents (Elt F)),
    ternary main_v61 main_v62 main_v60 main_v63 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F)),
    nullary main_cst_13 (constant S_ .f32 0x322BCC77#32),
    unary main_cst_13 main_v64 (broadcastInDim S50000x1 ![] bcast_S_S50000x1 : (⟨S_, .f32⟩ : BufTy).Contents (Elt F) → (⟨S50000x1, .f32⟩ : BufTy).Contents (Elt F)),
    binary main_v63 main_v64 main_v65 (addf : (⟨S50000x1, .f32⟩ : BufTy).Contents (Elt F) → (⟨S50000x1, .f32⟩ : BufTy).Contents (Elt F) → (⟨S50000x1, .f32⟩ : BufTy).Contents (Elt F)),
    unary main_v65 main_v66 (broadcastInDim S50000x128 ![0, 1] bcast_S50000x1_S50000x128_0_1 : (⟨S50000x1, .f32⟩ : BufTy).Contents (Elt F) → (⟨S50000x128, .f32⟩ : BufTy).Contents (Elt F)),
    binary main_v59 main_v66 main_v67 (Host.divf : (⟨S50000x128, .f32⟩ : BufTy).Contents (Elt F) → (⟨S50000x128, .f32⟩ : BufTy).Contents (Elt F) → (⟨S50000x128, .f32⟩ : BufTy).Contents (Elt F)) ]

/-- The update network on the node rows beside their aggregates, and the residual sum (27 operations). -/
abbrev opsUpd : List (HloOp τ sig (Elt F)) :=
  [
    binary main_arg0 main_v67 main_v68 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v68 main_arg9 main_v69 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    binary main_v72 main_v72 main_v73 (mulf : (⟨S50000x128, .f32⟩ : BufTy).Contents (Elt F) → (⟨S50000x128, .f32⟩ : BufTy).Contents (Elt F) → (⟨S50000x128, .f32⟩ : BufTy).Contents (Elt F)),
    binary main_v73 main_v72 main_v74 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3D372713#32),
    unary main_cst_14 main_v75 (broadcastInDim S50000x128 ![] bcast_S_S50000x128 : (⟨S_, .f32⟩ : BufTy).Contents (Elt F) → (⟨S50000x128, .f32⟩ : BufTy).Contents (Elt F)),
    binary main_v75 main_v74 main_v76 (mulf : (⟨S50000x128, .f32⟩ : BufTy).Contents (Elt F) → (⟨S50000x128, .f32⟩ : BufTy).Contents (Elt F) → (⟨S50000x128, .f32⟩ : BufTy).Contents (Elt F)),
    binary main_v72 main_v76 main_v77 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3F4C422A#32),
    unary main_cst_15 main_v78 (broadcastInDim S50000x128 ![] bcast_S_S50000x128 : (⟨S_, .f32⟩ : BufTy).Contents (Elt F) → (⟨S50000x128, .f32⟩ : BufTy).Contents (Elt F)),
    binary main_v78 main_v77 main_v79 (mulf : (⟨S50000x128, .f32⟩ : BufTy).Contents (Elt F) → (⟨S50000x128, .f32⟩ : BufTy).Contents (Elt F) → (⟨S50000x128, .f32⟩ : BufTy).Contents (Elt F)),
    unary main_v79 main_v80 (Host.tanh : (⟨S50000x128, .f32⟩ : BufTy).Contents (Elt F) → (⟨S50000x128, .f32⟩ : BufTy).Contents (Elt F)),
    nullary main_cst_16 (constant S_ .f32 0x3F800000#32),
    unary main_cst_16 main_v81 (broadcastInDim S50000x128 ![] bcast_S_S50000x128 : (⟨S_, .f32⟩ : BufTy).Contents (Elt F) → (⟨S50000x128, .f32⟩ : BufTy).Contents (Elt F)),
    binary main_v81 main_v80 main_v82 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3F000000#32),
    unary main_cst_17 main_v83 (broadcastInDim S50000x128 ![] bcast_S_S50000x128 : (⟨S_, .f32⟩ : BufTy).Contents (Elt F) → (⟨S50000x128, .f32⟩ : BufTy).Contents (Elt F)),
    binary main_v83 main_v82 main_v84 (mulf : (⟨S50000x128, .f32⟩ : BufTy).Contents (Elt F) → (⟨S50000x128, .f32⟩ : BufTy).Contents (Elt F) → (⟨S50000x128, .f32⟩ : BufTy).Contents (Elt F)),
    binary main_v72 main_v84 main_v85 (mulf : (⟨S50000x128, .f32⟩ : BufTy).Contents (Elt F) → (⟨S50000x128, .f32⟩ : BufTy).Contents (Elt F) → (⟨S50000x128, .f32⟩ : BufTy).Contents (Elt F)),
    binary main_v85 main_arg11 main_v86 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v86 main_v88 main_v89 (addf : (⟨S50000x128, .f32⟩ : BufTy).Contents (Elt F) → (⟨S50000x128, .f32⟩ : BufTy).Contents (Elt F) → (⟨S50000x128, .f32⟩ : BufTy).Contents (Elt F)),
    binary main_v89 main_arg0 main_v90 (addf : (⟨S50000x128, .f32⟩ : BufTy).Contents (Elt F) → (⟨S50000x128, .f32⟩ : BufTy).Contents (Elt F) → (⟨S50000x128, .f32⟩ : BufTy).Contents (Elt F)) ]

/-- The layer normalisation: each row's mean, its variance (the variance function's body at its call, then the guarded select's), and the scaled and shifted quotient (44 operations). -/
abbrev opsNorm : List (HloOp τ sig (Elt F)) :=
  [
    nullary main_cst_18 (constant S_ .f32 0x00000000#32),
    binary main_v90 main_cst_18 main_v91 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v91 main_v92 (broadcastInDim S50000x1 ![0] bcast_S50000_S50000x1_0 : (⟨S50000, .f32⟩ : BufTy).Contents (Elt F) → (⟨S50000x1, .f32⟩ : BufTy).Contents (Elt F)),
    nullary main_cst_19 (constant S_ .f32 0x43000000#32),
    unary main_cst_19 main_v93 (broadcastInDim S50000x1 ![] bcast_S_S50000x1 : (⟨S_, .f32⟩ : BufTy).Contents (Elt F) → (⟨S50000x1, .f32⟩ : BufTy).Contents (Elt F)),
    binary main_v92 main_v93 main_v94 (Host.divf : (⟨S50000x1, .f32⟩ : BufTy).Contents (Elt F) → (⟨S50000x1, .f32⟩ : BufTy).Contents (Elt F) → (⟨S50000x1, .f32⟩ : BufTy).Contents (Elt F)),
    nullary main_c_20 (constantI S_ 32 0#32),
    TRef.nullary main_call0.cst (constant S_ .f32 0x00000000#32),
    TRef.binary (.of main_v90 : TRef sig ⟨S50000x128, .f32⟩) main_call0.cst main_call0.v0 (fun x v => Host.reduceAdd x v reducesTo_S50000x128_S50000_d1 h_S_),
    TRef.unary main_call0.v0 main_call0.v1 (broadcastInDim S50000x1 ![0] bcast_S50000_S50000x1_0),
    TRef.nullary main_call0.cst_0 (constant S_ .f32 0x43000000#32),
    TRef.unary main_call0.cst_0 main_call0.v2 (broadcastInDim S50000x1 ![] bcast_S_S50000x1),
    TRef.binary main_call0.v1 main_call0.v2 main_call0.v3 Host.divf,
    TRef.unary main_call0.v3 main_call0.v4 (broadcastInDim S50000x128 ![0, 1] bcast_S50000x1_S50000x128_0_1),
    TRef.binary (.of main_v90 : TRef sig ⟨S50000x128, .f32⟩) main_call0.v4 main_call0.v5 subf,
    TRef.binary main_call0.v5 main_call0.v5 main_call0.v6 mulf,
    TRef.unary (.of main_c_20 : TRef sig ⟨S_, .i32⟩) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S50000_d1 h_S_),
    TRef.unary main_call0.v9 main_call0.v10 (broadcastInDim S50000x1 ![0] bcast_S50000_S50000x1_0),
    TRef.unary main_call0.v8 main_call0.v11 (broadcastInDim S50000x1 ![] bcast_S_S50000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S50000x1 ![] bcast_S_S50000x1),
    TRef.ternary main_call0.v13 main_call0.v12 main_call0.call0.v1 main_call0.call0.v2 (fun p a b => select (broadcastInDim S50000x1 ![] bcast_S_S50000x1 p) a b),
    unary main_v94 main_v96 (broadcastInDim S50000x128 ![0, 1] bcast_S50000x1_S50000x128_0_1 : (⟨S50000x1, .f32⟩ : BufTy).Contents (Elt F) → (⟨S50000x128, .f32⟩ : BufTy).Contents (Elt F)),
    binary main_v90 main_v96 main_v97 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v98 (broadcastInDim S50000x1 ![] bcast_S_S50000x1 : (⟨S_, .f32⟩ : BufTy).Contents (Elt F) → (⟨S50000x1, .f32⟩ : BufTy).Contents (Elt F)),
    binary main_v95 main_v98 main_v99 (addf : (⟨S50000x1, .f32⟩ : BufTy).Contents (Elt F) → (⟨S50000x1, .f32⟩ : BufTy).Contents (Elt F) → (⟨S50000x1, .f32⟩ : BufTy).Contents (Elt F)),
    unary main_v99 main_v100 (Host.sqrt : (⟨S50000x1, .f32⟩ : BufTy).Contents (Elt F) → (⟨S50000x1, .f32⟩ : BufTy).Contents (Elt F)),
    unary main_v100 main_v101 (broadcastInDim S50000x128 ![0, 1] bcast_S50000x1_S50000x128_0_1 : (⟨S50000x1, .f32⟩ : BufTy).Contents (Elt F) → (⟨S50000x128, .f32⟩ : BufTy).Contents (Elt F)),
    binary main_v97 main_v101 main_v102 (Host.divf : (⟨S50000x128, .f32⟩ : BufTy).Contents (Elt F) → (⟨S50000x128, .f32⟩ : BufTy).Contents (Elt F) → (⟨S50000x128, .f32⟩ : BufTy).Contents (Elt F)),
    unary main_arg13 main_v103 (broadcastInDim S1x128 ![1] bcast_S128_S1x128_1 : (⟨S128, .f32⟩ : BufTy).Contents (Elt F) → (⟨S1x128, .f32⟩ : BufTy).Contents (Elt F)),
    unary main_v103 main_v104 (broadcastInDim S50000x128 ![0, 1] bcast_S1x128_S50000x128_0_1 : (⟨S1x128, .f32⟩ : BufTy).Contents (Elt F) → (⟨S50000x128, .f32⟩ : BufTy).Contents (Elt F)),
    binary main_v102 main_v104 main_v105 (mulf : (⟨S50000x128, .f32⟩ : BufTy).Contents (Elt F) → (⟨S50000x128, .f32⟩ : BufTy).Contents (Elt F) → (⟨S50000x128, .f32⟩ : BufTy).Contents (Elt F)),
    unary main_arg14 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v105 main_v107 main_v108 (addf : (⟨S50000x128, .f32⟩ : BufTy).Contents (Elt F) → (⟨S50000x128, .f32⟩ : BufTy).Contents (Elt F) → (⟨S50000x128, .f32⟩ : BufTy).Contents (Elt F)) ]

/-- @main's operations: the five stages in order. -/
abbrev ops : List (HloOp τ sig (Elt F)) := opsIdx ++ (opsMsg ++ (opsAgg ++ (opsUpd ++ opsNorm)))

set_option maxRecDepth 8192 in
set_option maxHeartbeats 4000000 in
/-- @main is that straight line: its three windows, the variance function and the guarded select unfolded at their
    calls, are one chain of steps once sequencing is reassociated. -/
theorem main_eq (c : Dev nD) : main (F := F) c = seq ops := by
  simp only [main, main_part0, main_part1, main_part2, fn_var.body, fn_where.body, List.cons_append, List.nil_append, seq,
    bind_assoc, pure_bind]

/-- The signature scopes no array. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore arrays only. -/
theorem ops_sub : (ops : List (HloOp τ sig (Elt F))).Forall fun op => op.bufs ⊆ tcRefs τ sig :=
  List.forall_append.2 ⟨
    ⟨unary_bufs_sub .., reshape_bufs_sub .., unary_bufs_sub .., reshape_bufs_sub .., nullary_bufs_sub .., unary_bufs_sub ..,
     binary_bufs_sub .., nullary_bufs_sub .., unary_bufs_sub .., binary_bufs_sub .., ternary_bufs_sub .., unary_bufs_sub ..,
     binary_bufs_sub .., nullary_bufs_sub .., unary_bufs_sub .., binary_bufs_sub .., nullary_bufs_sub .., unary_bufs_sub ..,
     binary_bufs_sub .., ternary_bufs_sub .., unary_bufs_sub .., binary_bufs_sub ..⟩,
  List.forall_append.2 ⟨
    ⟨nary_bufs_sub .., binary_bufs_sub .., unary_bufs_sub .., unary_bufs_sub .., binary_bufs_sub .., binary_bufs_sub ..,
     binary_bufs_sub .., nullary_bufs_sub .., unary_bufs_sub .., binary_bufs_sub .., binary_bufs_sub .., nullary_bufs_sub ..,
     unary_bufs_sub .., binary_bufs_sub .., unary_bufs_sub .., nullary_bufs_sub .., unary_bufs_sub .., binary_bufs_sub ..,
     nullary_bufs_sub .., unary_bufs_sub .., binary_bufs_sub .., binary_bufs_sub .., binary_bufs_sub .., unary_bufs_sub ..,
     unary_bufs_sub .., binary_bufs_sub .., binary_bufs_sub .., binary_bufs_sub .., nullary_bufs_sub .., unary_bufs_sub ..,
     binary_bufs_sub .., binary_bufs_sub .., nullary_bufs_sub .., unary_bufs_sub .., binary_bufs_sub .., unary_bufs_sub ..,
     nullary_bufs_sub .., unary_bufs_sub .., binary_bufs_sub .., nullary_bufs_sub .., unary_bufs_sub .., binary_bufs_sub ..,
     binary_bufs_sub .., binary_bufs_sub .., unary_bufs_sub .., unary_bufs_sub .., binary_bufs_sub ..⟩,
  List.forall_append.2 ⟨
    ⟨nullary_bufs_sub .., unary_bufs_sub .., unary_bufs_sub .., ternary_bufs_sub .., nullary_bufs_sub .., unary_bufs_sub ..,
     nullary_bufs_sub .., unary_bufs_sub .., unary_bufs_sub .., ternary_bufs_sub .., nullary_bufs_sub .., unary_bufs_sub ..,
     binary_bufs_sub .., unary_bufs_sub .., binary_bufs_sub ..⟩,
  List.forall_append.2 ⟨
    ⟨binary_bufs_sub .., binary_bufs_sub .., unary_bufs_sub .., unary_bufs_sub .., binary_bufs_sub .., binary_bufs_sub ..,
     binary_bufs_sub .., nullary_bufs_sub .., unary_bufs_sub .., binary_bufs_sub .., binary_bufs_sub .., nullary_bufs_sub ..,
     unary_bufs_sub .., binary_bufs_sub .., unary_bufs_sub .., nullary_bufs_sub .., unary_bufs_sub .., binary_bufs_sub ..,
     nullary_bufs_sub .., unary_bufs_sub .., binary_bufs_sub .., binary_bufs_sub .., binary_bufs_sub .., unary_bufs_sub ..,
     unary_bufs_sub .., binary_bufs_sub .., binary_bufs_sub ..⟩,
    ⟨nullary_bufs_sub .., binary_bufs_sub .., unary_bufs_sub .., nullary_bufs_sub .., unary_bufs_sub .., binary_bufs_sub ..,
     nullary_bufs_sub .., nullary_bufs_sub .., binary_bufs_sub .., unary_bufs_sub .., nullary_bufs_sub .., unary_bufs_sub ..,
     binary_bufs_sub .., unary_bufs_sub .., binary_bufs_sub .., binary_bufs_sub .., unary_bufs_sub .., nullary_bufs_sub ..,
     binary_bufs_sub .., nullary_bufs_sub .., binary_bufs_sub .., unary_bufs_sub .., unary_bufs_sub .., binary_bufs_sub ..,
     nullary_bufs_sub .., binary_bufs_sub .., nullary_bufs_sub .., unary_bufs_sub .., unary_bufs_sub .., ternary_bufs_sub ..,
     unary_bufs_sub .., binary_bufs_sub .., nullary_bufs_sub .., unary_bufs_sub .., binary_bufs_sub .., unary_bufs_sub ..,
     unary_bufs_sub .., binary_bufs_sub .., unary_bufs_sub .., unary_bufs_sub .., binary_bufs_sub .., unary_bufs_sub ..,
     unary_bufs_sub .., binary_bufs_sub ..⟩⟩⟩⟩⟩

/-- Two lines run one after the other: the second from what the first leaves. -/
theorem after_two (l₁ l₂ : List (HloOp τ sig (Elt F))) (W : Valuation τ sig (Elt F)) :
    after (l₁ ++ l₂) W = after l₂ (after l₁ W) := by
  induction l₁ generalizing W with
  | nil => rfl
  | cons op l ih => rw [List.cons_append, after_cons, after_cons, ih]

/-! ## Each stage's result, from any contents -/

set_option maxRecDepth 8192 in
set_option maxHeartbeats 2000000 in
/-- After the index stage the first gathered array holds the node rows at the wrapped source indices. -/
theorem idx_src (W : Valuation τ sig (Elt F)) :
    after opsIdx W (no_index (Proc.devRef .tc main_v10)) = gath (W (main_arg0 : DevRef τ sig)) (wrapCol (srcRow (W (main_arg1 : DevRef τ sig)))) := by
  after_results_simp
  rfl

set_option maxRecDepth 8192 in
set_option maxHeartbeats 2000000 in
/-- After the index stage the second gathered array holds the node rows at the wrapped destination indices. -/
theorem idx_dst (W : Valuation τ sig (Elt F)) :
    after opsIdx W (no_index (Proc.devRef .tc main_v17)) = gath (W (main_arg0 : DevRef τ sig)) (wrapCol (dstRow (W (main_arg1 : DevRef τ sig)))) := by
  after_results_simp
  rfl

set_option maxRecDepth 8192 in
set_option maxHeartbeats 2000000 in
/-- After the index stage the destination row is the edge list's second row. -/
theorem idx_row (W : Valuation τ sig (Elt F)) :
    after opsIdx W (no_index (Proc.devRef .tc main_v3)) = dstRow (W (main_arg1 : DevRef τ sig)) := by
  after_results_simp
  rfl

set_option maxRecDepth 8192 in
set_option maxHeartbeats 4000000 in
/-- After the message network its last array holds the messages of the two gathered arrays and the edge attributes. -/
theorem msg_res (W : Valuation τ sig (Elt F)) :
    after opsMsg W (no_index (Proc.devRef .tc main_v56))
      = refMsgs (W (main_v10 : DevRef τ sig)) (W (main_v17 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) := by
  after_results_simp
  rfl

set_option maxRecDepth 8192 in
set_option maxHeartbeats 2000000 in
/-- After the aggregation the quotient array holds the mean of the messages by destination node. -/
theorem agg_res (W : Valuation τ sig (Elt F)) :
    after opsAgg W (no_index (Proc.devRef .tc main_v67)) = aggR (W (main_v56 : DevRef τ sig)) (W (main_v3 : DevRef τ sig)) := by
  after_results_simp
  rfl

set_option maxRecDepth 8192 in
set_option maxHeartbeats 4000000 in
/-- After the update network the residual sum holds the update of (node rows, aggregates) plus the node rows. -/
theorem upd_res (W : Valuation τ sig (Elt F)) :
    after opsUpd W (no_index (Proc.devRef .tc main_v90))
      = refY (W (main_arg0 : DevRef τ sig)) (W (main_v67 : DevRef τ sig)) (W (main_arg9 : DevRef τ sig)) (W (main_arg10 : DevRef τ sig)) (W (main_arg11 : DevRef τ sig)) (W (main_arg12 : DevRef τ sig)) := by
  after_results_simp
  rfl

set_option maxRecDepth 8192 in
set_option maxHeartbeats 4000000 in
/-- After the layer normalisation the result array holds the normalised rows, scaled and shifted. -/
theorem norm_res (W : Valuation τ sig (Elt F)) :
    after opsNorm W (no_index (Proc.devRef .tc main_v108)) = refLN (W (main_v90 : DevRef τ sig)) (W (main_arg13 : DevRef τ sig)) (W (main_arg14 : DevRef τ sig)) := by
  after_results_simp
  rfl

/-! ## What a stage leaves alone

Each array is written once, by the operation that makes it; a stage's list of written arrays tells which
contents it cannot have changed. -/

/-- An operation that writes one array of a list writes inside the list. -/
theorem writes_in {Wr : List (Ref sig .tc)} {y : Ref sig .tc} (h : y ∈ Wr) :
    ({Proc.devRef (τ := τ) .tc y} : Finset (DevRef τ sig)) ⊆ (Wr.map (Proc.devRef (τ := τ) .tc)).toFinset :=
  Finset.singleton_subset_iff.2 (List.mem_toFinset.2 (List.mem_map_of_mem h))

/-- The arrays the index stage writes. -/
abbrev idxW : List (Ref sig .tc) :=
  [main_v0, main_v1, main_v2, main_v3, main_c, main_v4, main_v5, main_c_0, main_v6, main_v7,
    main_v8, main_v9, main_v10, main_c_1, main_v11, main_v12, main_c_2, main_v13, main_v14, main_v15,
    main_v16, main_v17]
theorem idx_writes : (opsIdx : List (HloOp τ sig (Elt F))).Forall fun op =>
    op.writes ⊆ (idxW.map (Proc.devRef (τ := τ) .tc)).toFinset :=
  ⟨writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide)⟩
/-- An array the index stage does not write keeps its contents through it. -/
theorem idx_keep (W : Valuation τ sig (Elt F)) (r : Ref sig .tc) (h : r ∉ idxW) :
    after opsIdx W (no_index (Proc.devRef .tc r)) = W (Proc.devRef .tc r) :=
  after_of_writes_sub opsIdx W idx_writes h

/-- The arrays the message network writes. -/
abbrev msgW : List (Ref sig .tc) :=
  [main_v18, main_v19, main_v20, main_v21, main_v22, main_v23, main_v24, main_cst, main_v25, main_v26,
    main_v27, main_cst_3, main_v28, main_v29, main_v30, main_cst_4, main_v31, main_v32, main_cst_5, main_v33,
    main_v34, main_v35, main_v36, main_v37, main_v38, main_v39, main_v40, main_v41, main_cst_6, main_v42,
    main_v43, main_v44, main_cst_7, main_v45, main_v46, main_v47, main_cst_8, main_v48, main_v49, main_cst_9,
    main_v50, main_v51, main_v52, main_v53, main_v54, main_v55, main_v56]
theorem msg_writes : (opsMsg : List (HloOp τ sig (Elt F))).Forall fun op =>
    op.writes ⊆ (msgW.map (Proc.devRef (τ := τ) .tc)).toFinset :=
  ⟨writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide)⟩
/-- An array the message network does not write keeps its contents through it. -/
theorem msg_keep (W : Valuation τ sig (Elt F)) (r : Ref sig .tc) (h : r ∉ msgW) :
    after opsMsg W (no_index (Proc.devRef .tc r)) = W (Proc.devRef .tc r) :=
  after_of_writes_sub opsMsg W msg_writes h

/-- The arrays the aggregation writes. -/
abbrev aggW : List (Ref sig .tc) :=
  [main_cst_10, main_v57, main_v58, main_v59, main_cst_11, main_v60, main_cst_12, main_v61, main_v62, main_v63,
    main_cst_13, main_v64, main_v65, main_v66, main_v67]
theorem agg_writes : (opsAgg : List (HloOp τ sig (Elt F))).Forall fun op =>
    op.writes ⊆ (aggW.map (Proc.devRef (τ := τ) .tc)).toFinset :=
  ⟨writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide)⟩
/-- An array the aggregation does not write keeps its contents through it. -/
theorem agg_keep (W : Valuation τ sig (Elt F)) (r : Ref sig .tc) (h : r ∉ aggW) :
    after opsAgg W (no_index (Proc.devRef .tc r)) = W (Proc.devRef .tc r) :=
  after_of_writes_sub opsAgg W agg_writes h

/-- The arrays the update network writes. -/
abbrev updW : List (Ref sig .tc) :=
  [main_v68, main_v69, main_v70, main_v71, main_v72, main_v73, main_v74, main_cst_14, main_v75, main_v76,
    main_v77, main_cst_15, main_v78, main_v79, main_v80, main_cst_16, main_v81, main_v82, main_cst_17, main_v83,
    main_v84, main_v85, main_v86, main_v87, main_v88, main_v89, main_v90]
theorem upd_writes : (opsUpd : List (HloOp τ sig (Elt F))).Forall fun op =>
    op.writes ⊆ (updW.map (Proc.devRef (τ := τ) .tc)).toFinset :=
  ⟨writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide)⟩
/-- An array the update network does not write keeps its contents through it. -/
theorem upd_keep (W : Valuation τ sig (Elt F)) (r : Ref sig .tc) (h : r ∉ updW) :
    after opsUpd W (no_index (Proc.devRef .tc r)) = W (Proc.devRef .tc r) :=
  after_of_writes_sub opsUpd W upd_writes h

/-- The arrays the layer normalisation writes. -/
abbrev normW : List (Ref sig .tc) :=
  [main_cst_18, main_v91, main_v92, main_cst_19, main_v93, main_v94, main_c_20, main_call0_cst, main_call0_v0, main_call0_v1,
    main_call0_cst_0, main_call0_v2, main_call0_v3, main_call0_v4, main_call0_v5, main_call0_v6, main_call0_v7, main_call0_cst_1, main_call0_v8, main_call0_cst_2,
    main_call0_v9, main_call0_v10, main_call0_v11, main_call0_v12, main_call0_cst_3, main_call0_v13, main_call0_cst_4, main_call0_call0_v0, main_call0_call0_v1, main_v95,
    main_v96, main_v97, main_cst_21, main_v98, main_v99, main_v100, main_v101, main_v102, main_v103, main_v104,
    main_v105, main_v106, main_v107, main_v108]
theorem norm_writes : (opsNorm : List (HloOp τ sig (Elt F))).Forall fun op =>
    op.writes ⊆ (normW.map (Proc.devRef (τ := τ) .tc)).toFinset :=
  ⟨writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide), writes_in (by decide), writes_in (by decide), writes_in (by decide), writes_in (by decide),
    writes_in (by decide), writes_in (by decide)⟩
/-- An array the layer normalisation does not write keeps its contents through it. -/
theorem norm_keep (W : Valuation τ sig (Elt F)) (r : Ref sig .tc) (h : r ∉ normW) :
    after opsNorm W (no_index (Proc.devRef .tc r)) = W (Proc.devRef .tc r) :=
  after_of_writes_sub opsNorm W norm_writes h

/-! ## The whole line -/

set_option maxRecDepth 8192 in
set_option maxHeartbeats 2000000 in
/-- The result array after the whole line, from any contents: the stages composed, each argument read where no
    stage has written. -/
theorem res_eq (V : Valuation τ sig (Elt F)) :
    after ops V (main_v108 : DevRef τ sig)
      = refAll (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  simp (disch := decide) only [after_two, norm_res, upd_res, agg_res, msg_res, idx_src, idx_dst, idx_row,
    norm_keep, upd_keep, agg_keep, msg_keep, idx_keep, refAll]

/-- An array no stage writes holds after the whole line what it held before. -/
theorem arg_keep (V : Valuation τ sig (Elt F)) (r : Ref sig .tc) (h₁ : r ∉ idxW) (h₂ : r ∉ msgW) (h₃ : r ∉ aggW)
    (h₄ : r ∉ updW) (h₅ : r ∉ normW) : after ops V (Proc.devRef .tc r) = V (Proc.devRef .tc r) := by
  rw [after_two, after_two, after_two, after_two, norm_keep _ r h₅, upd_keep _ r h₄, agg_keep _ r h₃, msg_keep _ r h₂,
    idx_keep _ r h₁]

/-- No operation leaves an array's contents to the machine. -/
theorem ops_fresh : ∀ op ∈ (ops : List (HloOp τ sig (Elt F))), op.fresh = ∅ := by
  intro op h
  simp only [List.cons_append, List.nil_append] at h
  repeat (cases h with | head => rfl | tail _ h => ?_)
  exact nomatch h

/-- On the device, for any float values, from any memory with zero counters: every weakly fair execution of
    @main terminates with the result at the composed host stages of the arguments and the arguments unchanged. -/
theorem run_any (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v108)
        = refAll (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v108).trans (res_eq _),
      (h c main_arg0).trans (arg_keep _ main_arg0 (by decide) (by decide) (by decide) (by decide) (by decide)),
      (h c main_arg1).trans (arg_keep _ main_arg1 (by decide) (by decide) (by decide) (by decide) (by decide)),
      (h c main_arg2).trans (arg_keep _ main_arg2 (by decide) (by decide) (by decide) (by decide) (by decide)),
      (h c main_arg3).trans (arg_keep _ main_arg3 (by decide) (by decide) (by decide) (by decide) (by decide)),
      (h c main_arg4).trans (arg_keep _ main_arg4 (by decide) (by decide) (by decide) (by decide) (by decide)),
      (h c main_arg5).trans (arg_keep _ main_arg5 (by decide) (by decide) (by decide) (by decide) (by decide)),
      (h c main_arg6).trans (arg_keep _ main_arg6 (by decide) (by decide) (by decide) (by decide) (by decide)),
      (h c main_arg7).trans (arg_keep _ main_arg7 (by decide) (by decide) (by decide) (by decide) (by decide)),
      (h c main_arg8).trans (arg_keep _ main_arg8 (by decide) (by decide) (by decide) (by decide) (by decide)),
      (h c main_arg9).trans (arg_keep _ main_arg9 (by decide) (by decide) (by decide) (by decide) (by decide)),
      (h c main_arg10).trans (arg_keep _ main_arg10 (by decide) (by decide) (by decide) (by decide) (by decide)),
      (h c main_arg11).trans (arg_keep _ main_arg11 (by decide) (by decide) (by decide) (by decide) (by decide)),
      (h c main_arg12).trans (arg_keep _ main_arg12 (by decide) (by decide) (by decide) (by decide) (by decide)),
      (h c main_arg13).trans (arg_keep _ main_arg13 (by decide) (by decide) (by decide) (by decide) (by decide)),
      (h c main_arg14).trans (arg_keep _ main_arg14 (by decide) (by decide) (by decide) (by decide) (by decide))⟩)
    (run_seq scopedRefs_eq scopedSems_eq defs main (fun _ => ops) main_eq (fun _ => ops_sub) m ρ (fun _ => ops_fresh))

end Line

/-- From any memory with zero counters every weakly fair execution of the reference terminates with its result
    at the composed host stages of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v108)
        = refAll (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  run_any m ρ

end Cert.ReferenceIdeal.HostR

end
-- ==== Proof.Spec.lean ====
/-
  The mathematics both programs compute, row by row, on the extended reals.

  A message row is a three-layer perceptron of one edge's source row, destination row and attribute row:
  the first layer is the sum of three matrix products (one per piece of the concatenated input) plus a bias,
  each hidden layer is followed by the tanh form of GELU, x · (1/2 · (1 + tanh (c₂ · (x + c₁ · x³)))).
  An update row is a two-layer perceptron of a node's row and its aggregated messages, plus the node's row
  (the residual), followed by a layer normalisation over the 128 features: subtract the mean, divide by the
  square root of the variance plus ε, scale by γ and shift by β.  The kernel multiplies by the reciprocal
  square root where the reference divides by the square root; on the extended reals the two agree for every
  argument greater than zero, +∞ included, and the variance plus ε is always greater than zero.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The six float literals of the programs, read exactly. -/
def cHalf : EReal := Ideal.ofBits .f32 0x3F000000#32
def cOne : EReal := Ideal.ofBits .f32 0x3F800000#32
def cTanh : EReal := Ideal.ofBits .f32 0x3F4C422A#32
def cCube : EReal := Ideal.ofBits .f32 0x3D372713#32
def c128 : EReal := Ideal.ofBits .f32 0x43000000#32
def cEps : EReal := Ideal.ofBits .f32 0x3727C5AC#32

/-- The tanh form of GELU, with the cube taken as x · (x · x). -/
def gelu (x : EReal) : EReal := x * (cHalf * (cOne + Ideal.tanh (cTanh * (x + cCube * (x * (x * x))))))

/-- One dense layer on a row of 128 features: x · W + b at output feature j. -/
def lay (x : Fin 128 → EReal) (W : Fin 128 → Fin 128 → EReal) (b : Fin 128 → EReal) (j : Fin 128) : EReal :=
  (∑ k, x k * W k j) + b j

/-- The message network's first layer: three partial products, summed left to right, then the bias. -/
def lay1 (xs xd : Fin 128 → EReal) (xe : Fin 64 → EReal) (Wa Wb : Fin 128 → Fin 128 → EReal) (Wc : Fin 64 → Fin 128 → EReal)
    (b1 : Fin 128 → EReal) (j : Fin 128) : EReal :=
  (∑ k, xs k * Wa k j) + (∑ k, xd k * Wb k j) + (∑ k, xe k * Wc k j) + b1 j

/-- One edge's message. -/
def msgRow (xs xd : Fin 128 → EReal) (xe : Fin 64 → EReal) (Wa Wb : Fin 128 → Fin 128 → EReal) (Wc : Fin 64 → Fin 128 → EReal)
    (b1 : Fin 128 → EReal) (W2 : Fin 128 → Fin 128 → EReal) (b2 : Fin 128 → EReal) (W3 : Fin 128 → Fin 128 → EReal)
    (b3 : Fin 128 → EReal) : Fin 128 → EReal :=
  lay (fun k => gelu (lay (fun k' => gelu (lay1 xs xd xe Wa Wb Wc b1 k')) W2 b2 k)) W3 b3

/-- One node's update before normalisation: the two-layer network of (row, aggregate) plus the row itself. -/
def updRow (h a : Fin 128 → EReal) (Uh Ua : Fin 128 → Fin 128 → EReal) (ub1 : Fin 128 → EReal)
    (U2 : Fin 128 → Fin 128 → EReal) (ub2 : Fin 128 → EReal) (j : Fin 128) : EReal :=
  lay (fun k => gelu ((∑ k', h k' * Uh k' k) + (∑ k', a k' * Ua k' k) + ub1 k)) U2 ub2 j + h j

/-- The mean of a row of 128. -/
def mean (y : Fin 128 → EReal) : EReal := Ideal.div (∑ k, y k) c128

/-- The (biased) variance of a row of 128. -/
def var (y : Fin 128 → EReal) : EReal := Ideal.div (∑ k, (y k - mean y) * (y k - mean y)) c128

/-- Layer normalisation with the reciprocal square root (the kernel's form). -/
def lnRow (y g b : Fin 128 → EReal) (j : Fin 128) : EReal :=
  (y j - mean y) * Ideal.rsqrt (var y + cEps) * g j + b j

/-- Layer normalisation with a division by the square root (the reference's form). -/
def lnRowDiv (y g b : Fin 128 → EReal) (j : Fin 128) : EReal :=
  Ideal.div (y j - mean y) (Ideal.sqrt (var y + cEps)) * g j + b j

/-! ## The same, array by array -/

/-- A rank-2 array of extended reals. -/
abbrev Arr2 (n m : Nat) : Type := (⟨2, ![n, m]⟩ : Shape).Idx → EReal
/-- A rank-1 array of extended reals. -/
abbrev Arr1 (n : Nat) : Type := (⟨1, ![n]⟩ : Shape).Idx → EReal

/-- Row i of a rank-2 array. -/
abbrev row {n m : Nat} (x : Arr2 n m) (i : Fin n) : Fin m → EReal := fun k => x (ix2 i k)
/-- A rank-2 array as a function of two coordinates. -/
abbrev mat {n m : Nat} (x : Arr2 n m) : Fin n → Fin m → EReal := fun k j => x (ix2 k j)
/-- A rank-1 array as a function of its coordinate. -/
abbrev vec {n : Nat} (x : Arr1 n) : Fin n → EReal := fun j => x (ix1 j)

/-- Rows off, …, off + n − 1 of a rank-2 array with 128 columns (a block of a stacked weight matrix). -/
def rowsFrom {N : Nat} (off n : Nat) (h : off + n ≤ N) (W : Arr2 N 128) : Arr2 n 128 :=
  fun i => W (ix2 ⟨off + (i 0).val, Nat.lt_of_lt_of_le (Nat.add_lt_add_left (i 0).isLt off) h⟩ (i 1))

/-- Every edge's message: row i of the result is the message network of row i of the three inputs. -/
def msgArr (n : Nat) (hs hd : Arr2 n 128) (ea : Arr2 n 64) (Wa Wb : Arr2 128 128) (Wc : Arr2 64 128) (b1 : Arr1 128)
    (W2 : Arr2 128 128) (b2 : Arr1 128) (W3 : Arr2 128 128) (b3 : Arr1 128) : Arr2 n 128 :=
  fun i => msgRow (row hs (i 0)) (row hd (i 0)) (row ea (i 0)) (mat Wa) (mat Wb) (mat Wc) (vec b1) (mat W2) (vec b2) (mat W3) (vec b3) (i 1)

/-- Every node's new row: the normalised update of row i of the node array and of the aggregate. -/
def outArr (n : Nat) (h a : Arr2 n 128) (Uh Ua : Arr2 128 128) (ub1 : Arr1 128) (U2 : Arr2 128 128) (ub2 g b : Arr1 128) : Arr2 n 128 :=
  fun i => lnRow (updRow (row h (i 0)) (row a (i 0)) (mat Uh) (mat Ua) (vec ub1) (mat U2) (vec ub2)) (vec g) (vec b) (i 1)

end Cert.Spec

end
-- ==== Proof.KPay0.lean ====
/-
  The message kernel's arithmetic on one block of 3000 edges, read at an index: entry (i, j) of what the body
  stores is the message network of row i of the three input blocks, at feature j.
-/
import proofs.«409984_j14121852469802_1_alg».proof.Proof.Gen.KernelIdeal.Skeleton
import proofs.«409984_j14121852469802_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

open scoped BigOperators

/-! ## A rows-by-columns product read at an index -/

section Dot
variable {M K N : Nat} (D : DotDims ⟨2, ![M, K]⟩ ⟨2, ![K, N]⟩ ⟨2, ![M, N]⟩)

/-- A coordinate of an index depends only on the axis's number. -/
theorem coord_congr {s : Shape} (j : s.Idx) (p q : Nat) (hp : p < s.rank) (hq : q < s.rank) (h : p = q) :
    (j ⟨p, hp⟩).val = (j ⟨q, hq⟩).val := by subst h; rfl

/-- The left operand's row coordinate is the output's row. -/
theorem lhs_ax0 (hb : D.lhsBatch = []) (hn : D.lhsNonContracting = [0])
    (j : (⟨2, ![M, N]⟩ : Shape).Idx) (k : D.contr.Idx) : (D.lhsIdx j k 0).val = (j 0).val := by
  unfold DotDims.lhsIdx
  rw [dif_neg (by rw [hb]; exact List.not_mem_nil), dif_pos (by rw [hn]; exact List.mem_singleton.mpr rfl)]
  simp only [Fin.val_cast]
  exact coord_congr j _ _ _ _ (by simp [hb, hn])

/-- The left operand's column coordinate is the contraction position. -/
theorem lhs_ax1 (hc : D.lhsContracting = [1])
    (j : (⟨2, ![M, N]⟩ : Shape).Idx) (k : D.contr.Idx) :
    (D.lhsIdx j k 1).val = (k ⟨0, by rw [D.rank_contr, hc]; exact Nat.one_pos⟩).val :=
  D.lhsIdx_val_of_single hc j k

/-- The right operand's row coordinate is the contraction position. -/
theorem rhs_ax0 (hc : D.rhsContracting = [0])
    (j : (⟨2, ![M, N]⟩ : Shape).Idx) (k : D.contr.Idx) :
    (D.rhsIdx j k 0).val = (k ⟨0, by rw [D.rank_contr, ← D.length_contracting, hc]; exact Nat.one_pos⟩).val :=
  D.rhsIdx_val_of_single hc j k

/-- The right operand's column coordinate is the output's column. -/
theorem rhs_ax1 (hb : D.rhsBatch = []) (hlb : D.lhsBatch = []) (hln : D.lhsNonContracting = [0]) (hn : D.rhsNonContracting = [1])
    (j : (⟨2, ![M, N]⟩ : Shape).Idx) (k : D.contr.Idx) : (D.rhsIdx j k 1).val = (j 1).val := by
  unfold DotDims.rhsIdx
  rw [dif_neg (by rw [hb]; exact List.not_mem_nil), dif_pos (by rw [hn]; exact List.mem_singleton.mpr rfl)]
  simp only [Fin.val_cast]
  exact coord_congr j _ _ _ _ (by simp [hlb, hln, hn])

/-- A rows-by-columns product into a zero accumulator, read at (p, q): the sum over k of lhs (p, k) · rhs (k, q). -/
theorem matmul_zero_ix2 (hlb : D.lhsBatch = []) (hrb : D.rhsBatch = []) (hln : D.lhsNonContracting = [0])
    (hrn : D.rhsNonContracting = [1]) (hlc : D.lhsContracting = [1]) (hrc : D.rhsContracting = [0])
    {φ₁ φ₂ : FTy} (prec : Option ContractPrecision) (lhs : FVec Ideal ⟨2, ![M, K]⟩ φ₁) (rhs : FVec Ideal ⟨2, ![K, N]⟩ φ₂)
    (p : Fin M) (q : Fin N) :
    matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    rw [D.size_contr 0 (by rw [hlc]; exact Nat.one_pos)]
    simp [hlc]
  show FloatOps.matmul D prec lhs rhs (constant (F := Ideal) ⟨2, ![M, N]⟩ .f32 0x00000000#32) (ix2 p q) = _
  rw [Ideal.matmul_constant_zero_apply, ← Equiv.sum_comp (contrEquiv1 D K hr hs).symm]
  refine Finset.sum_congr rfl fun k _ => ?_
  have hk := contrEquiv1_symm_val D K hr hs k
  have hL : D.lhsIdx (ix2 p q) ((contrEquiv1 D K hr hs).symm k) = ix2 p k := by
    funext a
    refine Fin.ext ?_
    match a with
    | ⟨0, _⟩ => exact lhs_ax0 D hlb hln _ _
    | ⟨1, _⟩ => exact (lhs_ax1 D hlc _ _).trans hk
  have hR : D.rhsIdx (ix2 p q) ((contrEquiv1 D K hr hs).symm k) = ix2 k q := by
    funext a
    refine Fin.ext ?_
    match a with
    | ⟨0, _⟩ => exact (rhs_ax0 D hrc _ _).trans hk
    | ⟨1, _⟩ => exact rhs_ax1 D hrb hlb hln hrn _ _
  rw [hL, hR]

end Dot

/-! ## The two products of the body, the bias, GELU -/

/-- A [3000,128] · [128,128] product into zeros, at (p, q). -/
theorem mm128 {φ₁ φ₂ : FTy} (lhs : FVec Ideal S3000x128 φ₁) (rhs : FVec Ideal S128x128 φ₂) (p : Fin 3000) (q : Fin 128) :
    matmul dot_S3000x128_S128x128_S3000x128_1_0_0_1_n_n none lhs rhs (constant (F := Ideal) S3000x128 .f32 0x00000000#32) (ix2 p q)
      = ∑ k : Fin 128, lhs (ix2 p k) * rhs (ix2 k q) :=
  matmul_zero_ix2 _ rfl rfl rfl rfl rfl rfl none lhs rhs p q

/-- A [3000,64] · [64,128] product into zeros, at (p, q). -/
theorem mm64 {φ₁ φ₂ : FTy} (lhs : FVec Ideal S3000x64 φ₁) (rhs : FVec Ideal S64x128 φ₂) (p : Fin 3000) (q : Fin 128) :
    matmul dot_S3000x64_S64x128_S3000x128_1_0_0_1_n_n none lhs rhs (constant (F := Ideal) S3000x128 .f32 0x00000000#32) (ix2 p q)
      = ∑ k : Fin 64, lhs (ix2 p k) * rhs (ix2 k q) :=
  matmul_zero_ix2 _ rfl rfl rfl rfl rfl rfl none lhs rhs p q

/-- A bias of 128 features cast to one row and broadcast over the 3000 rows reads, at (p, q), the bias at q. -/
theorem bias_ix2 (b : Vec Ideal S128 .f32) (h1 : S128.ShapeCasts S1x128) (h2 : S1x128.Broadcasts S3000x128)
    (p : Fin 3000) (q : Fin 128) :
    broadcastTo S3000x128 (shapeCast S1x128 b h1) h2 (ix2 p q) = b (ix1 q) := by
  rw [broadcastTo_1b_ab_apply, shapeCast_a_1a_apply]

/-- GELU on a whole vector, operation by operation as the body computes it. -/
def geluVec (v : FVec Ideal S3000x128 .f32) : FVec Ideal S3000x128 .f32 :=
  mulf v (mulf (broadcast S3000x128 (Scalar.ofBits (F := Ideal) .f32 0x3F000000#32))
    (addf (broadcast S3000x128 (Scalar.ofBits (F := Ideal) .f32 0x3F800000#32))
      (tanh (mulf (broadcast S3000x128 (Scalar.ofBits (F := Ideal) .f32 0x3F4C422A#32))
        (addf v (mulf (broadcast S3000x128 (Scalar.ofBits (F := Ideal) .f32 0x3D372713#32)) (mulf v (mulf v v))))))))

/-- It is the scalar GELU at every index. -/
theorem geluVec_apply (v : FVec Ideal S3000x128 .f32) (i : S3000x128.Idx) : geluVec v i = Cert.Spec.gelu (v i) := rfl

/-- A dense layer on a whole block: the truncated product into zeros plus the broadcast bias. -/
def layVec (x : FVec Ideal S3000x128 .f32) (W : Vec Ideal S128x128 .f32) (b : Vec Ideal S128 .f32) : FVec Ideal S3000x128 .f32 :=
  addf (matmul dot_S3000x128_S128x128_S3000x128_1_0_0_1_n_n none (truncf .bf16 x bitsLt_bf16_f32) (truncf .bf16 W bitsLt_bf16_f32)
      (constant (F := Ideal) S3000x128 .f32 0x00000000#32))
    (broadcastTo S3000x128 (shapeCast S1x128 b shapeCasts_S128_S1x128) broadcasts_S1x128_S3000x128)

/-- It is the scalar dense layer of row p, at feature q. -/
theorem layVec_apply (x : FVec Ideal S3000x128 .f32) (W : Vec Ideal S128x128 .f32) (b : Vec Ideal S128 .f32) (p : Fin 3000) (q : Fin 128) :
    layVec x W b (ix2 p q) = Cert.Spec.lay (fun k => x (ix2 p k)) (Cert.Spec.mat W) (Cert.Spec.vec b) q := by
  unfold layVec
  rw [addf_apply, mm128, bias_ix2]
  rfl

/-- The second payload is two dense layers over the first, with GELU between. -/
theorem pay1_eq_lay (v38 : FVec Ideal S3000x128 .f32) (v40 : Vec Ideal S128x128 .f32) (v42 : Vec Ideal S128 .f32)
    (v61 : Vec Ideal S128x128 .f32) (v63 : Vec Ideal S128 .f32) :
    k0_pay1 (F := Ideal) v38 v40 v42 v61 v63 = layVec (geluVec (layVec v38 v40 v42)) v61 v63 := rfl

/-- The first layer on a whole block: three truncated products into zeros, added left to right, plus the broadcast bias. -/
def lay1Vec (x0 x1 : Vec Ideal S3000x128 .f32) (x2 : Vec Ideal S3000x64 .f32) (x3 x4 : Vec Ideal S128x128 .f32)
    (x5 : Vec Ideal S64x128 .f32) (x6 : Vec Ideal S128 .f32) : FVec Ideal S3000x128 .f32 :=
  addf
    (addf
      (addf
        (matmul dot_S3000x128_S128x128_S3000x128_1_0_0_1_n_n none
          (truncf .bf16 (shapeCast S3000x128 x0 shapeCasts_S3000x128_S3000x128) bitsLt_bf16_f32)
          (truncf .bf16 (shapeCast S128x128 x3 shapeCasts_S128x128_S128x128) bitsLt_bf16_f32)
          (constant (F := Ideal) S3000x128 .f32 0x00000000#32))
        (matmul dot_S3000x128_S128x128_S3000x128_1_0_0_1_n_n none
          (truncf .bf16 (shapeCast S3000x128 x1 shapeCasts_S3000x128_S3000x128) bitsLt_bf16_f32)
          (truncf .bf16 (shapeCast S128x128 x4 shapeCasts_S128x128_S128x128) bitsLt_bf16_f32)
          (constant (F := Ideal) S3000x128 .f32 0x00000000#32)))
      (matmul dot_S3000x64_S64x128_S3000x128_1_0_0_1_n_n none
        (truncf .bf16 x2 bitsLt_bf16_f32)
        (truncf .bf16 (shapeCast S64x128 x5 shapeCasts_S64x128_S64x128) bitsLt_bf16_f32)
        (constant (F := Ideal) S3000x128 .f32 0x00000000#32)))
    (broadcastTo S3000x128 (shapeCast S1x128 x6 shapeCasts_S128_S1x128) broadcasts_S1x128_S3000x128)

/-- It is the scalar first layer of row p of the three inputs, at feature q. -/
theorem lay1Vec_apply (x0 x1 : Vec Ideal S3000x128 .f32) (x2 : Vec Ideal S3000x64 .f32) (x3 x4 : Vec Ideal S128x128 .f32)
    (x5 : Vec Ideal S64x128 .f32) (x6 : Vec Ideal S128 .f32) (p : Fin 3000) (q : Fin 128) :
    lay1Vec x0 x1 x2 x3 x4 x5 x6 (ix2 p q)
      = Cert.Spec.lay1 (Cert.Spec.row x0 p) (Cert.Spec.row x1 p) (Cert.Spec.row x2 p) (Cert.Spec.mat x3) (Cert.Spec.mat x4)
          (Cert.Spec.mat x5) (Cert.Spec.vec x6) q := by
  unfold lay1Vec
  simp only [shapeCast_self]
  rw [addf_apply, addf_apply, addf_apply, mm128, mm128, mm64, bias_ix2]
  rfl

/-- The first payload is GELU of the first layer. -/
theorem pay2_eq_lay (x0 x1 : Vec Ideal S3000x128 .f32) (x2 : Vec Ideal S3000x64 .f32) (x3 x4 : Vec Ideal S128x128 .f32)
    (x5 : Vec Ideal S64x128 .f32) (x6 : Vec Ideal S128 .f32) :
    k0_pay2 (F := Ideal) x0 x1 x2 x3 x4 x5 x6 = geluVec (lay1Vec x0 x1 x2 x3 x4 x5 x6) := rfl

/-- The body's stored value is the message network, row by row. -/
theorem pay0_eq (x0 x1 : Vec Ideal S3000x128 .f32) (x2 : Vec Ideal S3000x64 .f32) (x3 x4 : Vec Ideal S128x128 .f32)
    (x5 : Vec Ideal S64x128 .f32) (x6 : Vec Ideal S128 .f32) (x7 : Vec Ideal S128x128 .f32) (x8 : Vec Ideal S128 .f32)
    (x9 : Vec Ideal S128x128 .f32) (x10 : Vec Ideal S128 .f32) :
    k0_pay1 (F := Ideal) (k0_pay2 (F := Ideal) x0 x1 x2 x3 x4 x5 x6) x7 x8 x9 x10
      = Cert.Spec.msgArr 3000 x0 x1 x2 x3 x4 x5 x6 x7 x8 x9 x10 := by
  funext j
  obtain ⟨p, q, rfl⟩ : ∃ (p : Fin 3000) (q : Fin 128), j = ix2 p q := ⟨j 0, j 1, eq_ix2 j⟩
  -- the hidden activations of row p, layer by layer
  have h1 : (fun k' => k0_pay2 (F := Ideal) x0 x1 x2 x3 x4 x5 x6 (ix2 p k'))
      = fun k' => Cert.Spec.gelu (Cert.Spec.lay1 (Cert.Spec.row x0 p) (Cert.Spec.row x1 p) (Cert.Spec.row x2 p)
          (Cert.Spec.mat x3) (Cert.Spec.mat x4) (Cert.Spec.mat x5) (Cert.Spec.vec x6) k') := by
    funext k'
    rw [pay2_eq_lay, geluVec_apply, lay1Vec_apply]
  have h2 : (fun k => geluVec (layVec (k0_pay2 (F := Ideal) x0 x1 x2 x3 x4 x5 x6) x7 x8) (ix2 p k))
      = fun k => Cert.Spec.gelu (Cert.Spec.lay (fun k' => Cert.Spec.gelu (Cert.Spec.lay1 (Cert.Spec.row x0 p) (Cert.Spec.row x1 p)
          (Cert.Spec.row x2 p) (Cert.Spec.mat x3) (Cert.Spec.mat x4) (Cert.Spec.mat x5) (Cert.Spec.vec x6) k'))
          (Cert.Spec.mat x7) (Cert.Spec.vec x8) k) := by
    funext k
    rw [geluVec_apply, layVec_apply, h1]
  rw [pay1_eq_lay, layVec_apply, h2]
  rfl

end Cert.KernelIdeal.Pay

end
-- ==== Proof.KFinal0.lean ====
/-
  The message launch as a whole: its 200 grid points write 200 disjoint blocks of 3000 rows that cover the
  600000 edges, and each block is the message network of the same rows of the inputs, so the output array
  after the launch is the message network of the input arrays, row by row.
-/
import proofs.«409984_j14121852469802_1_alg».proof.Proof.Gen.KernelIdeal.Frame
import proofs.«409984_j14121852469802_1_alg».proof.Proof.KPay0
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The index maps of the message launch -/

/-- The zero offsets of a rank-2 whole-buffer access, as the constant function. -/
theorem zero2 : (![0, 0] : Fin 2 → Nat) = fun _ => 0 := funext fun a => by fin_cases a <;> rfl
/-- The zero offset of a rank-1 whole-buffer access, as the constant function. -/
theorem zero1 : (![0] : Fin 1 → Nat) = fun _ => 0 := funext fun a => by fin_cases a; rfl

/-- The printed index maps, decided over the 200 grid points: the three row inputs and the output sit at block
    row t and block column 0; every weight and bias window sits at block 0 on each axis. -/
theorem idx_facts0 : ∀ t : Fin cfg0.N,
      (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = t.val ∧ win0_11.index t (1 : Fin 2) = 0) :=
  (by decide +kernel : ∀ t : Fin grid0.N, _)

/-! ## The weight and bias windows: the block is the whole array at every point

A block's coordinate on an axis is the block index times the block's size plus the coordinate inside the block;
at block index 0 that is the coordinate inside the block. -/

/-- The first layer's weights on the source rows. -/
theorem wblk3 (c : Dev nD) (t : Fin cfg0.N) : iblk0 V c 3 t = V c main_v6 := by
  obtain ⟨-, -, -, ⟨e0, e1⟩, -, -, -, -, -, -, -, -⟩ := idx_facts0 t
  funext j
  show V c main_v6 (((cfg0.win 3).blk t).view.emb j) = V c main_v6 j
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The first layer's weights on the destination rows. -/
theorem wblk4 (c : Dev nD) (t : Fin cfg0.N) : iblk0 V c 4 t = V c main_v7 := by
  obtain ⟨-, -, -, -, ⟨e0, e1⟩, -, -, -, -, -, -, -⟩ := idx_facts0 t
  funext j
  show V c main_v7 (((cfg0.win 4).blk t).view.emb j) = V c main_v7 j
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- The first layer's weights on the attribute rows. -/
theorem wblk5 (c : Dev nD) (t : Fin cfg0.N) : iblk0 V c 5 t = V c main_v8 := by
  obtain ⟨-, -, -, -, -, ⟨e0, e1⟩, -, -, -, -, -, -⟩ := idx_facts0 t
  funext j
  show V c main_v8 (((cfg0.win 5).blk t).view.emb j) = V c main_v8 j
  refine congrArg _ (funext fun a => Fin.ext ?_)
  match a with
  | ⟨0, _⟩ => show win0_5.index t (0 : Fin 2) * 64 + 1 * (j 0).val = (j 0).val; omega
  | ⟨1, _⟩ => show win0_5.index t (1 : Fin 2) * 128 + 1 * (j 1).val = (j 1).val; omega

/-- The first layer's bias. -/
theorem wblk6 (c : Dev nD) (t : Fin cfg0.N) : iblk0 V c 6 t = V c main_arg4 := by
  obtain ⟨-, -, -, -, -, -, e0, -, -, -, -, -⟩ := idx_facts0 t
  funext j
  show V c main_arg4 (((cfg0.win 6).blk t).view.emb j) = V c main_arg4 j
  refine congrArg _ (funext fun a => Fin.ext ?_)
  match a with
  | ⟨0, _⟩ => show win0_6.index t (0 : Fin 1) * 128 + 1 * (j 0).val = (j 0).val; omega

/-- The second layer's weights. -/
theorem wblk7 (c : Dev nD) (t : Fin cfg0.N) : iblk0 V c 7 t = V c main_arg5 := by
  obtain ⟨-, -, -, -, -, -, -, ⟨e0, e1⟩, -, -, -, -⟩ := idx_facts0 t
  funext j
  show V c main_arg5 (((cfg0.win 7).blk t).view.emb j) = V c main_arg5 j
  refine congrArg _ (funext fun a => Fin.ext ?_)
  match a with
  | ⟨0, _⟩ => show win0_7.index t (0 : Fin 2) * 128 + 1 * (j 0).val = (j 0).val; omega
  | ⟨1, _⟩ => show win0_7.index t (1 : Fin 2) * 128 + 1 * (j 1).val = (j 1).val; omega

/-- The second layer's bias. -/
theorem wblk8 (c : Dev nD) (t : Fin cfg0.N) : iblk0 V c 8 t = V c main_arg6 := by
  obtain ⟨-, -, -, -, -, -, -, -, e0, -, -, -⟩ := idx_facts0 t
  funext j
  show V c main_arg6 (((cfg0.win 8).blk t).view.emb j) = V c main_arg6 j
  refine congrArg _ (funext fun a => Fin.ext ?_)
  match a with
  | ⟨0, _⟩ => show win0_8.index t (0 : Fin 1) * 128 + 1 * (j 0).val = (j 0).val; omega

/-- The third layer's weights. -/
theorem wblk9 (c : Dev nD) (t : Fin cfg0.N) : iblk0 V c 9 t = V c main_arg7 := by
  obtain ⟨-, -, -, -, -, -, -, -, -, ⟨e0, e1⟩, -, -⟩ := idx_facts0 t
  funext j
  show V c main_arg7 (((cfg0.win 9).blk t).view.emb j) = V c main_arg7 j
  refine congrArg _ (funext fun a => Fin.ext ?_)
  match a with
  | ⟨0, _⟩ => show win0_9.index t (0 : Fin 2) * 128 + 1 * (j 0).val = (j 0).val; omega
  | ⟨1, _⟩ => show win0_9.index t (1 : Fin 2) * 128 + 1 * (j 1).val = (j 1).val; omega

/-- The third layer's bias. -/
theorem wblk10 (c : Dev nD) (t : Fin cfg0.N) : iblk0 V c 10 t = V c main_arg8 := by
  obtain ⟨-, -, -, -, -, -, -, -, -, -, e0, -⟩ := idx_facts0 t
  funext j
  show V c main_arg8 (((cfg0.win 10).blk t).view.emb j) = V c main_arg8 j
  refine congrArg _ (funext fun a => Fin.ext ?_)
  match a with
  | ⟨0, _⟩ => show win0_10.index t (0 : Fin 1) * 128 + 1 * (j 0).val = (j 0).val; omega

/-! ## The message network reads one row of each row input -/

/-- Row y₀ of the message network of n-row inputs is row i₀ of the message network of N-row inputs when row y₀ of
    each n-row input is row i₀ of the N-row input, at the same feature. -/
theorem msgArr_of_rows {n N : Nat} (x0 x1 : Spec.Arr2 n 128) (x2 : Spec.Arr2 n 64)
    (A0 A1 : Spec.Arr2 N 128) (A2 : Spec.Arr2 N 64)
    (Wa Wb : Spec.Arr2 128 128) (Wc : Spec.Arr2 64 128) (b1 : Spec.Arr1 128) (W2 : Spec.Arr2 128 128)
    (b2 : Spec.Arr1 128) (W3 : Spec.Arr2 128 128) (b3 : Spec.Arr1 128)
    (y : (⟨2, ![n, 128]⟩ : Shape).Idx) (i : (⟨2, ![N, 128]⟩ : Shape).Idx)
    (h0 : ∀ k : Fin 128, x0 (ix2 (y 0) k) = A0 (ix2 (i 0) k))
    (h1 : ∀ k : Fin 128, x1 (ix2 (y 0) k) = A1 (ix2 (i 0) k))
    (h2 : ∀ k : Fin 64, x2 (ix2 (y 0) k) = A2 (ix2 (i 0) k))
    (hj : (y 1).val = (i 1).val) :
    Spec.msgArr n x0 x1 x2 Wa Wb Wc b1 W2 b2 W3 b3 y = Spec.msgArr N A0 A1 A2 Wa Wb Wc b1 W2 b2 W3 b3 i := by
  have e0 : Spec.row x0 (y 0) = Spec.row A0 (i 0) := funext h0
  have e1 : Spec.row x1 (y 0) = Spec.row A1 (i 0) := funext h1
  have e2 : Spec.row x2 (y 0) = Spec.row A2 (i 0) := funext h2
  have ej : (y 1 : Fin 128) = i 1 := Fin.ext hj
  show Spec.msgRow (Spec.row x0 (y 0)) (Spec.row x1 (y 0)) (Spec.row x2 (y 0)) (Spec.mat Wa) (Spec.mat Wb) (Spec.mat Wc)
        (Spec.vec b1) (Spec.mat W2) (Spec.vec b2) (Spec.mat W3) (Spec.vec b3) (y 1)
      = Spec.msgRow (Spec.row A0 (i 0)) (Spec.row A1 (i 0)) (Spec.row A2 (i 0)) (Spec.mat Wa) (Spec.mat Wb) (Spec.mat Wc)
        (Spec.vec b1) (Spec.mat W2) (Spec.vec b2) (Spec.mat W3) (Spec.vec b3) (i 1)
  rw [e0, e1, e2, ej]

/-! ## The row windows: row r of point t's block is row 3000·t + r of the array

Stated at the array index of the output block's element y, whose row is 3000·t + y₀ as well. -/

/-- The source rows. -/
theorem rblk0 (c : Dev nD) (t : Fin cfg0.N) (y : S3000x128.Idx) (k : Fin 128) :
    iblk0 V c 0 t (ix2 (y 0) k) = V c main_v4 (ix2 ((((cfg0.win 11).blk t).view.emb y) 0) k) := by
  obtain ⟨⟨p0, p1⟩, -, -, -, -, -, -, -, -, -, -, ⟨o0, o1⟩⟩ := idx_facts0 t
  show V c main_v4 (((cfg0.win 0).blk t).view.emb (ix2 (y 0) k)) = V c main_v4 (ix2 ((((cfg0.win 11).blk t).view.emb y) 0) k)
  refine congrArg _ (funext fun a => Fin.ext ?_)
  match a with
  | ⟨0, _⟩ => show win0_0.index t (0 : Fin 2) * 3000 + 1 * (y 0).val = win0_11.index t (0 : Fin 2) * 3000 + 1 * (y 0).val; omega
  | ⟨1, _⟩ => show win0_0.index t (1 : Fin 2) * 128 + 1 * k.val = k.val; omega

/-- The destination rows. -/
theorem rblk1 (c : Dev nD) (t : Fin cfg0.N) (y : S3000x128.Idx) (k : Fin 128) :
    iblk0 V c 1 t (ix2 (y 0) k) = V c main_v5 (ix2 ((((cfg0.win 11).blk t).view.emb y) 0) k) := by
  obtain ⟨-, ⟨p0, p1⟩, -, -, -, -, -, -, -, -, -, ⟨o0, o1⟩⟩ := idx_facts0 t
  show V c main_v5 (((cfg0.win 1).blk t).view.emb (ix2 (y 0) k)) = V c main_v5 (ix2 ((((cfg0.win 11).blk t).view.emb y) 0) k)
  refine congrArg _ (funext fun a => Fin.ext ?_)
  match a with
  | ⟨0, _⟩ => show win0_1.index t (0 : Fin 2) * 3000 + 1 * (y 0).val = win0_11.index t (0 : Fin 2) * 3000 + 1 * (y 0).val; omega
  | ⟨1, _⟩ => show win0_1.index t (1 : Fin 2) * 128 + 1 * k.val = k.val; omega

/-- The attribute rows. -/
theorem rblk2 (c : Dev nD) (t : Fin cfg0.N) (y : S3000x128.Idx) (k : Fin 64) :
    iblk0 V c 2 t (ix2 (y 0) k) = V c main_arg2 (ix2 ((((cfg0.win 11).blk t).view.emb y) 0) k) := by
  obtain ⟨-, -, ⟨p0, p1⟩, -, -, -, -, -, -, -, -, ⟨o0, o1⟩⟩ := idx_facts0 t
  show V c main_arg2 (((cfg0.win 2).blk t).view.emb (ix2 (y 0) k)) = V c main_arg2 (ix2 ((((cfg0.win 11).blk t).view.emb y) 0) k)
  refine congrArg _ (funext fun a => Fin.ext ?_)
  match a with
  | ⟨0, _⟩ => show win0_2.index t (0 : Fin 2) * 3000 + 1 * (y 0).val = win0_11.index t (0 : Fin 2) * 3000 + 1 * (y 0).val; omega
  | ⟨1, _⟩ => show win0_2.index t (1 : Fin 2) * 64 + 1 * k.val = k.val; omega

/-- The output block's element y sits at feature y₁ of the array. -/
theorem ocol (t : Fin cfg0.N) (y : S3000x128.Idx) : (y 1).val = ((((cfg0.win 11).blk t).view.emb y) 1).val := by
  obtain ⟨-, -, -, -, -, -, -, -, -, -, -, ⟨o0, o1⟩⟩ := idx_facts0 t
  show (y 1).val = win0_11.index t (1 : Fin 2) * 128 + 1 * (y 1).val
  omega

/-! ## What a point writes back -/

/-- Point t writes back block t of the message network of the input arrays. -/
theorem flushed0_eq (c : Dev nD) (t : Fin cfg0.N) :
    (dat0 (F := Ideal) V c).flushed 11 t
      = ((cfg0.win 11).blk t).view.read (Elt Ideal)
          (Cert.Spec.msgArr 600000 (V c main_v4) (V c main_v5) (V c main_arg2) (V c main_v6) (V c main_v7) (V c main_v8)
            (V c main_arg4) (V c main_arg5) (V c main_arg6) (V c main_arg7) (V c main_arg8)) := by
  show (cfg0.win 11).cut (grid0.coords t) ((dat0 V c).after 11 t) = _
  rw [after0_11]
  unfold out0_11
  rw [View.canon_unit_zero zero2]
  simp only [View.ld_unit_zero (S := S3000x128) zero2, View.ld_unit_zero (S := S3000x64) zero2,
    View.ld_unit_zero (S := S128x128) zero2, View.ld_unit_zero (S := S64x128) zero2, View.ld_unit_zero (S := S128) zero1]
  rw [Cert.KernelIdeal.Pay.pay0_eq]
  rw [wblk3 V c t, wblk4 V c t, wblk5 V c t, wblk6 V c t, wblk7 V c t, wblk8 V c t, wblk9 V c t, wblk10 V c t]
  funext y
  show Cert.Spec.msgArr 3000 (iblk0 V c 0 t) (iblk0 V c 1 t) (iblk0 V c 2 t) (V c main_v6) (V c main_v7) (V c main_v8)
        (V c main_arg4) (V c main_arg5) (V c main_arg6) (V c main_arg7) (V c main_arg8) y
      = Cert.Spec.msgArr 600000 (V c main_v4) (V c main_v5) (V c main_arg2) (V c main_v6) (V c main_v7) (V c main_v8)
        (V c main_arg4) (V c main_arg5) (V c main_arg6) (V c main_arg7) (V c main_arg8) (((cfg0.win 11).blk t).view.emb y)
  exact msgArr_of_rows (iblk0 V c 0 t) (iblk0 V c 1 t) (iblk0 V c 2 t) (V c main_v4) (V c main_v5) (V c main_arg2)
    (V c main_v6) (V c main_v7) (V c main_v8) (V c main_arg4) (V c main_arg5) (V c main_arg6) (V c main_arg7) (V c main_arg8)
    y (((cfg0.win 11).blk t).view.emb y) (fun k => rblk0 V c t y k) (fun k => rblk1 V c t y k) (fun k => rblk2 V c t y k)
    (ocol t y)

/-! ## The blocks cover the array -/

/-- A row-and-feature index is in point t's block iff each coordinate is in the block's range on its axis. -/
theorem mem_blk0 (t : Fin cfg0.N) (i : S600000x128.Idx) :
    i ∈ ((cfg0.win 11).blk t).view.set ↔ ∀ a : Fin 2, win0_11.index t a * S3000x128.size a ≤ (i a).val ∧ (i a).val < win0_11.index t a * S3000x128.size a + S3000x128.size a := by
  show i ∈ ((View.whole main_v9).slice (win0_11.rect t)).set ↔ _
  rw [View.set_slice_whole, Rect.mem_set_unit]
  exact Iff.rfl

/-- Row r of the 600000 is written by point r / 3000. -/
theorem cover0 (i : S600000x128.Idx) :
    ∃ t : Fin cfg0.N, (cfg0.win 11).flush t = true ∧ i ∈ ((cfg0.win 11).blk t).view.set := by
  have hi0 : (i 0).val < 600000 := (i 0).isLt
  have hi1 : (i 1).val < 128 := (i 1).isLt
  have ht : (i 0).val / 3000 < cfg0.N := by show (i 0).val / 3000 < 200; omega
  obtain ⟨-, -, -, -, -, -, -, -, -, -, -, ⟨o0, o1⟩⟩ := idx_facts0 ⟨(i 0).val / 3000, ht⟩
  have o0' : win0_11.index ⟨(i 0).val / 3000, ht⟩ (0 : Fin 2) = (i 0).val / 3000 := o0
  refine ⟨⟨(i 0).val / 3000, ht⟩, flush0_11 _, ?_⟩
  rw [mem_blk0]
  intro a
  match a with
  | ⟨0, _⟩ => show win0_11.index ⟨(i 0).val / 3000, ht⟩ (0 : Fin 2) * 3000 ≤ (i 0).val ∧ (i 0).val < win0_11.index ⟨(i 0).val / 3000, ht⟩ (0 : Fin 2) * 3000 + 3000; omega
  | ⟨1, _⟩ => show win0_11.index ⟨(i 0).val / 3000, ht⟩ (1 : Fin 2) * 128 ≤ (i 1).val ∧ (i 1).val < win0_11.index ⟨(i 0).val / 3000, ht⟩ (1 : Fin 2) * 128 + 128; omega

/-- The message array after launch 0, from any entry contents. -/
theorem final0 (c : Dev nD) :
    (dat0 (F := Ideal) V c).arrAt 11 cfg0.N
      = Cert.Spec.msgArr 600000 (V c main_v4) (V c main_v5) (V c main_arg2) (V c main_v6) (V c main_v7) (V c main_v8)
          (V c main_arg4) (V c main_arg5) (V c main_arg6) (V c main_arg7) (V c main_arg8) :=
  (dat0 (F := Ideal) V c).arrAt_eq_of_cover 11
    (Cert.Spec.msgArr 600000 (V c main_v4) (V c main_v5) (V c main_arg2) (V c main_v6) (V c main_v7) (V c main_v8)
      (V c main_arg4) (V c main_arg5) (V c main_arg6) (V c main_arg7) (V c main_arg8))
    (fun t _ => flushed0_eq V c t) cover0

end Cert.KernelIdeal.Final

end
-- ==== Proof.KPay1.lean ====
/-
  The update kernel's arithmetic on one block of 2000 nodes, read at an index: entry (i, j) of what the body
  stores is the normalised update of row i of the node block and of the aggregate block, at feature j.
-/
import proofs.«409984_j14121852469802_1_alg».proof.Proof.Gen.KernelIdeal.Skeleton
import proofs.«409984_j14121852469802_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

open scoped BigOperators

namespace Upd1

/-! ## Layout operations of the body, read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 128 laid out as one row and repeated over 2000 rows reads, at `(p, q)`, the vector at `q`. -/
theorem rowBias_apply (v : (S128 : Shape).Idx → α) (p : Fin 2000) (q : Fin 128) :
    broadcastTo S2000x128 (shapeCast S1x128 v shapeCasts_S128_S1x128) broadcasts_S1x128_S2000x128 (ix2 p q) = v (ix1 q) :=
  (broadcastTo_1b_ab_apply _ broadcasts_S1x128_S2000x128 p q).trans (shapeCast_a_1a_apply v shapeCasts_S128_S1x128 0 q)

/-- A vector of 2000 laid out as one column and repeated over 128 columns reads, at `(p, q)`, the vector at `p`. -/
theorem colBcast_apply (v : (S2000x1 : Shape).Idx → α) (p : Fin 2000) (q : Fin 128) :
    broadcastTo S2000x128 v broadcasts_S2000x1_S2000x128 (ix2 p q) = v (ix2 p (0 : Fin 1)) :=
  broadcastTo_a1_ab_apply v broadcasts_S2000x1_S2000x128 p q

/-- A vector of 2000 cast to one column reads, at `(p, 0)`, the vector at `p`. -/
theorem colCast_apply (v : (S2000 : Shape).Idx → α) (p : Fin 2000) :
    shapeCast S2000x1 v shapeCasts_S2000_S2000x1 (ix2 p (0 : Fin 1)) = v (ix1 p) :=
  shapeCast_a_a1_apply v shapeCasts_S2000_S2000x1 p 0

end Layout

/-! ## The matrix product and the lane sum, read at an index -/

/-- The body's matrix products: 2000 × 128 by 128 × 128, one contracted axis. -/
abbrev D : DotDims S2000x128 S128x128 S2000x128 := dot_S2000x128_S128x128_S2000x128_1_0_0_1_n_n

/-- A product into the zero accumulator reads, at `(p, q)`, the sum over the contracted coordinate of the products
    of the two operands' entries. -/
theorem mm_apply {φ₁ φ₂ : FTy} (A : FVec Ideal S2000x128 φ₁) (B : FVec Ideal S128x128 φ₂) (p : Fin 2000) (q : Fin 128) :
    matmul D none A B (constant (F := Ideal) S2000x128 .f32 0x00000000#32) (ix2 p q)
      = ∑ c : Fin 128, A (ix2 p c) * B (ix2 c q) := by
  show FloatOps.matmul D none A B (constant (F := Ideal) S2000x128 .f32 0x00000000#32) (ix2 p q) = _
  rw [Ideal.matmul_constant_zero_apply, ← Equiv.sum_comp (contrEquiv1 D 128 rfl rfl).symm]
  refine Finset.sum_congr rfl fun c _ => ?_
  have c2 := contrEquiv1_symm_val D 128 rfl rfl c
  have l2 : D.lhsIdx (ix2 p q) ((contrEquiv1 D 128 rfl rfl).symm c) = ix2 p c := by
    funext ax; apply Fin.ext
    match ax with
    | ⟨0, _⟩ => simp [DotDims.lhsIdx, D, dot_S2000x128_S128x128_S2000x128_1_0_0_1_n_n]; rfl
    | ⟨1, _⟩ => simp [DotDims.lhsIdx, D, dot_S2000x128_S128x128_S2000x128_1_0_0_1_n_n]; exact c2
  have r2 : D.rhsIdx (ix2 p q) ((contrEquiv1 D 128 rfl rfl).symm c) = ix2 c q := by
    funext ax; apply Fin.ext
    match ax with
    | ⟨0, _⟩ => simp [DotDims.rhsIdx, D, dot_S2000x128_S128x128_S2000x128_1_0_0_1_n_n]; exact c2
    | ⟨1, _⟩ => simp [DotDims.rhsIdx, D, dot_S2000x128_S128x128_S2000x128_1_0_0_1_n_n]; rfl
  rw [l2, r2]

/-- A sum over the 128 lanes reads, at row `p`, the sum of that row's entries. -/
theorem laneSum_apply (v : FVec Ideal S2000x128 .f32) (hφ : FKind.Formats .f32)
    (hacc : (0x00000000#32 : BitVec 32) = 0x00000000#32) (p : Fin 2000) :
    multiReduction (F := Ideal) .add [1] S2000 v 0x00000000#32 reduces_S2000x128_S2000 hφ hacc (ix1 p)
      = ∑ k : Fin 128, v (ix2 p k) := by
  refine (Ideal.multiReduction_add_single v 0x00000000#32 reduces_S2000x128_S2000 hφ hacc (ix1 p)).trans ?_
  refine Finset.sum_congr rfl fun k _ => congrArg v ?_
  funext ax; apply Fin.ext
  match ax with
  | ⟨0, _⟩ => rfl
  | ⟨1, _⟩ => rfl

/-! ## The update row before normalisation -/

/-- The hidden layer's pre-activation, as the body forms it: two products into zero accumulators, added, plus the bias row. -/
def preV (x0 x1 : Vec Ideal S2000x128 .f32) (x2 x3 : Vec Ideal S128x128 .f32) (x4 : Vec Ideal S128 .f32) :
    FVec Ideal S2000x128 .f32 :=
  addf (addf
      (matmul D none (truncf .bf16 x0 bitsLt_bf16_f32)
        (truncf .bf16 (shapeCast S128x128 x2 shapeCasts_S128x128_S128x128) bitsLt_bf16_f32)
        (constant S2000x128 .f32 0x00000000#32))
      (matmul D none (truncf .bf16 (shapeCast S2000x128 x1 shapeCasts_S2000x128_S2000x128) bitsLt_bf16_f32)
        (truncf .bf16 (shapeCast S128x128 x3 shapeCasts_S128x128_S128x128) bitsLt_bf16_f32)
        (constant S2000x128 .f32 0x00000000#32)))
    (broadcastTo S2000x128 (shapeCast S1x128 x4 shapeCasts_S128_S1x128) broadcasts_S1x128_S2000x128)

/-- The body's GELU of a block, operation by operation. -/
def geluV (v : FVec Ideal S2000x128 .f32) : FVec Ideal S2000x128 .f32 :=
  mulf v (mulf (broadcast S2000x128 (Scalar.ofBits .f32 0x3F000000#32))
    (addf (broadcast S2000x128 (Scalar.ofBits .f32 0x3F800000#32))
      (tanh (mulf (broadcast S2000x128 (Scalar.ofBits .f32 0x3F4C422A#32))
        (addf v (mulf (broadcast S2000x128 (Scalar.ofBits .f32 0x3D372713#32)) (mulf v (mulf v v))))))))

/-- Entry by entry it is the specification's GELU. -/
theorem geluV_apply (v : FVec Ideal S2000x128 .f32) (i : S2000x128.Idx) : geluV v i = Cert.Spec.gelu (v i) := rfl

/-- The payload of the first part is the second layer of the pre-activation's GELU, plus the node block. -/
theorem pay2_struct (x0 x1 : Vec Ideal S2000x128 .f32) (x2 x3 : Vec Ideal S128x128 .f32) (x4 : Vec Ideal S128 .f32)
    (x5 : Vec Ideal S128x128 .f32) (x6 : Vec Ideal S128 .f32) :
    k1_pay2 (F := Ideal) x0 x1 x2 x3 x4 x5 x6
      = addf (addf
          (matmul D none (truncf .bf16 (geluV (preV x0 x1 x2 x3 x4)) bitsLt_bf16_f32) (truncf .bf16 x5 bitsLt_bf16_f32)
            (constant S2000x128 .f32 0x00000000#32))
          (broadcastTo S2000x128 (shapeCast S1x128 x6 shapeCasts_S128_S1x128) broadcasts_S1x128_S2000x128))
        x0 := rfl

/-- The pre-activation at `(p, q)`. -/
theorem preV_apply (x0 x1 : Vec Ideal S2000x128 .f32) (x2 x3 : Vec Ideal S128x128 .f32) (x4 : Vec Ideal S128 .f32)
    (p : Fin 2000) (q : Fin 128) :
    preV x0 x1 x2 x3 x4 (ix2 p q)
      = (∑ k : Fin 128, x0 (ix2 p k) * x2 (ix2 k q)) + (∑ k : Fin 128, x1 (ix2 p k) * x3 (ix2 k q)) + x4 (ix1 q) := by
  unfold preV
  rw [shapeCast_self, shapeCast_self, shapeCast_self]
  show matmul D none _ _ _ (ix2 p q) + matmul D none _ _ _ (ix2 p q) + broadcastTo S2000x128 _ _ (ix2 p q) = _
  rw [mm_apply, mm_apply, rowBias_apply]
  rfl

/-- The first part's payload at `(p, q)` is the specification's update row of row `p` of the node block and of the
    aggregate block, at feature `q`. -/
theorem pay2_apply (x0 x1 : Vec Ideal S2000x128 .f32) (x2 x3 : Vec Ideal S128x128 .f32) (x4 : Vec Ideal S128 .f32)
    (x5 : Vec Ideal S128x128 .f32) (x6 : Vec Ideal S128 .f32) (p : Fin 2000) (q : Fin 128) :
    k1_pay2 (F := Ideal) x0 x1 x2 x3 x4 x5 x6 (ix2 p q)
      = Cert.Spec.updRow (Cert.Spec.row x0 p) (Cert.Spec.row x1 p) (Cert.Spec.mat x2) (Cert.Spec.mat x3) (Cert.Spec.vec x4)
          (Cert.Spec.mat x5) (Cert.Spec.vec x6) q := by
  rw [pay2_struct]
  show matmul (F := Ideal) D none _ _ _ (ix2 p q) + broadcastTo S2000x128 _ _ (ix2 p q) + x0 (ix2 p q) = _
  rw [mm_apply, rowBias_apply]
  unfold Cert.Spec.updRow Cert.Spec.lay
  refine congrArg (· + x6 (ix1 q) + x0 (ix2 p q)) (Finset.sum_congr rfl fun k _ => ?_)
  show geluV (preV x0 x1 x2 x3 x4) (ix2 p k) * x5 (ix2 k q) = _
  rw [geluV_apply, preV_apply]

/-! ## The normalisation over the 128 features -/

/-- The row means as the body forms them: lane sums as a column, divided by 128. -/
def meanC (y : FVec Ideal S2000x128 .f32) : FVec Ideal S2000x1 .f32 :=
  divf (shapeCast S2000x1 (multiReduction .add [1] S2000 y 0x00000000#32 reduces_S2000x128_S2000 (.inl rfl) rfl)
      shapeCasts_S2000_S2000x1)
    (broadcast S2000x1 (Scalar.ofBits .f32 0x43000000#32))

/-- The deviations from the row means. -/
def devV (y : FVec Ideal S2000x128 .f32) : FVec Ideal S2000x128 .f32 :=
  subf y (broadcastTo S2000x128 (meanC y) broadcasts_S2000x1_S2000x128)

/-- The reciprocal square roots of the row variances plus ε, as a column. -/
def rstdC (y : FVec Ideal S2000x128 .f32) : FVec Ideal S2000x1 .f32 :=
  rsqrt (addf
    (divf (shapeCast S2000x1
        (multiReduction .add [1] S2000 (mulf (devV y) (devV y)) 0x00000000#32 reduces_S2000x128_S2000 (.inl rfl) rfl)
        shapeCasts_S2000_S2000x1)
      (broadcast S2000x1 (Scalar.ofBits .f32 0x43000000#32)))
    (broadcast S2000x1 (Scalar.ofBits .f32 0x3727C5AC#32)))

/-- The stored payload is the deviations times that column, times γ, plus β. -/
theorem pay1_struct (y : FVec Ideal S2000x128 .f32) (g b : Vec Ideal S128 .f32) :
    k1_pay1 (F := Ideal) y g b
      = addf (mulf (mulf (devV y) (broadcastTo S2000x128 (rstdC y) broadcasts_S2000x1_S2000x128))
          (broadcastTo S2000x128 (shapeCast S1x128 g shapeCasts_S128_S1x128) broadcasts_S1x128_S2000x128))
        (broadcastTo S2000x128 (shapeCast S1x128 b shapeCasts_S128_S1x128) broadcasts_S1x128_S2000x128) := rfl

/-- Row `p`'s mean. -/
theorem meanC_apply (y : FVec Ideal S2000x128 .f32) (p : Fin 2000) :
    meanC y (ix2 p (0 : Fin 1)) = Cert.Spec.mean (fun k => y (ix2 p k)) := by
  unfold meanC
  show Ideal.div (shapeCast S2000x1 _ _ (ix2 p (0 : Fin 1))) _ = _
  rw [colCast_apply, laneSum_apply]
  rfl

/-- The deviation at `(p, q)`. -/
theorem devV_apply (y : FVec Ideal S2000x128 .f32) (p : Fin 2000) (q : Fin 128) :
    devV y (ix2 p q) = y (ix2 p q) - Cert.Spec.mean (fun k => y (ix2 p k)) := by
  unfold devV
  show y (ix2 p q) - broadcastTo S2000x128 _ _ (ix2 p q) = _
  rw [colBcast_apply, meanC_apply]

/-- Row `p`'s reciprocal square root of the variance plus ε. -/
theorem rstdC_apply (y : FVec Ideal S2000x128 .f32) (p : Fin 2000) :
    rstdC y (ix2 p (0 : Fin 1)) = Ideal.rsqrt (Cert.Spec.var (fun k => y (ix2 p k)) + Cert.Spec.cEps) := by
  unfold rstdC
  show Ideal.rsqrt (Ideal.div (shapeCast S2000x1 _ _ (ix2 p (0 : Fin 1))) _ + _) = _
  rw [colCast_apply, laneSum_apply]
  unfold Cert.Spec.var
  refine congrArg (fun s => Ideal.rsqrt (Ideal.div s Cert.Spec.c128 + Cert.Spec.cEps)) (Finset.sum_congr rfl fun k _ => ?_)
  show devV y (ix2 p k) * devV y (ix2 p k) = _
  rw [devV_apply]

/-- The stored payload at `(p, q)` is the layer normalisation of row `p`, at feature `q`. -/
theorem pay1_apply (y : FVec Ideal S2000x128 .f32) (g b : Vec Ideal S128 .f32) (p : Fin 2000) (q : Fin 128) :
    k1_pay1 (F := Ideal) y g b (ix2 p q)
      = Cert.Spec.lnRow (fun k => y (ix2 p k)) (Cert.Spec.vec g) (Cert.Spec.vec b) q := by
  rw [pay1_struct]
  show devV y (ix2 p q) * broadcastTo S2000x128 _ _ (ix2 p q) * broadcastTo S2000x128 _ _ (ix2 p q)
    + broadcastTo S2000x128 _ _ (ix2 p q) = _
  rw [devV_apply, colBcast_apply, rstdC_apply, rowBias_apply, rowBias_apply]
  rfl

end Upd1

open Upd1 in
/-- The body's stored value is the normalised update, row by row. -/
theorem pay1_eq (x0 x1 : Vec Ideal S2000x128 .f32) (x2 x3 : Vec Ideal S128x128 .f32) (x4 : Vec Ideal S128 .f32)
    (x5 : Vec Ideal S128x128 .f32) (x6 x7 x8 : Vec Ideal S128 .f32) :
    k1_pay1 (F := Ideal) (k1_pay2 (F := Ideal) x0 x1 x2 x3 x4 x5 x6) x7 x8
      = Cert.Spec.outArr 2000 x0 x1 x2 x3 x4 x5 x6 x7 x8 := by
  funext j
  obtain ⟨p, q, rfl⟩ : ∃ (p : Fin 2000) (q : Fin 128), j = ix2 p q := ⟨j 0, j 1, eq_ix2 j⟩
  rw [pay1_apply]
  show _ = Cert.Spec.lnRow (Cert.Spec.updRow (Cert.Spec.row x0 p) (Cert.Spec.row x1 p) (Cert.Spec.mat x2) (Cert.Spec.mat x3)
    (Cert.Spec.vec x4) (Cert.Spec.mat x5) (Cert.Spec.vec x6)) (Cert.Spec.vec x7) (Cert.Spec.vec x8) q
  refine congrArg (fun r => Cert.Spec.lnRow r (Cert.Spec.vec x7) (Cert.Spec.vec x8) q) (funext fun k => ?_)
  exact pay2_apply x0 x1 x2 x3 x4 x5 x6 p k

end Cert.KernelIdeal.Pay

end
-- ==== Proof.KFinal1.lean ====
/-
  The update launch as a whole: its 25 grid points write 25 disjoint blocks of 2000 rows that cover the
  50000 nodes, and each block is the normalised update of the same rows of the node array and of the
  aggregate, so the output array after the launch is the normalised update of the input arrays, row by row.
-/
import proofs.«409984_j14121852469802_1_alg».proof.Proof.Gen.KernelIdeal.Frame
import proofs.«409984_j14121852469802_1_alg».proof.Proof.KPay1
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offsets of a rank-2 buffer, as a constant function. -/
theorem zeros2 : (![0, 0] : Fin 2 → Nat) = fun _ => 0 := funext fun a => by fin_cases a <;> rfl

/-- The zero offset of a rank-1 buffer, as a constant function. -/
theorem zeros1 : (![0] : Fin 1 → Nat) = fun _ => 0 := funext fun a => by fin_cases a; rfl

/-- The index maps of launch 1, decided over its 25 points: the node array, the aggregate and the output move
    together, one block of rows per point; the weights, biases, scale and shift stay at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 1) = 0
    ∧ win1_8.index t (0 : Fin 1) = 0
    ∧ win1_9.index t (0 : Fin 2) = t.val ∧ win1_9.index t (1 : Fin 2) = 0 :=
  (by decide +kernel : ∀ t : Fin grid1.N, _)

/-- A point of launch 1 is one of 25. -/
theorem point_lt (t : Fin cfg1.N) : t.val < 25 := Nat.lt_of_lt_of_le t.isLt (Nat.le_of_eq N_1)

/-- The normalised update at row r, column j reads row r of the two row inputs and nothing else of them:
    inputs that agree on the rows named, with equal weights, give the same entry. -/
theorem outArr_entry {n N : Nat} (h' a' : Cert.Spec.Arr2 n 128) (h a : Cert.Spec.Arr2 N 128)
    (Uh' Ua' Uh Ua : Cert.Spec.Arr2 128 128) (ub1' ub1 : Cert.Spec.Arr1 128) (U2' U2 : Cert.Spec.Arr2 128 128)
    (ub2' g' b' ub2 g b : Cert.Spec.Arr1 128)
    (r' : Fin n) (r : Fin N) (j : Fin 128)
    (eh : ∀ k : Fin 128, h' (ix2 r' k) = h (ix2 r k)) (ea : ∀ k : Fin 128, a' (ix2 r' k) = a (ix2 r k))
    (eUh : Uh' = Uh) (eUa : Ua' = Ua) (eub1 : ub1' = ub1) (eU2 : U2' = U2) (eub2 : ub2' = ub2) (eg : g' = g) (eb : b' = b) :
    Cert.Spec.outArr n h' a' Uh' Ua' ub1' U2' ub2' g' b' (ix2 r' j) = Cert.Spec.outArr N h a Uh Ua ub1 U2 ub2 g b (ix2 r j) := by
  subst eUh eUa eub1 eU2 eub2 eg eb
  have e1 : Cert.Spec.row h' r' = Cert.Spec.row h r := funext eh
  have e2 : Cert.Spec.row a' r' = Cert.Spec.row a r := funext ea
  show Cert.Spec.lnRow (Cert.Spec.updRow (Cert.Spec.row h' r') (Cert.Spec.row a' r') _ _ _ _ _) _ _ j
     = Cert.Spec.lnRow (Cert.Spec.updRow (Cert.Spec.row h r) (Cert.Spec.row a r) _ _ _ _ _) _ _ j
  rw [e1, e2]

/-! ## The row windows: row r' of the block at point t is row 2000·t + r' of the array

A block's coordinate in its array is, on each axis, the block index times the block's size plus the coordinate
inside the block; the node array's and the aggregate's block index at point t is (t, 0). -/

theorem row_0 (c : Dev nD) (t : Fin cfg1.N) (r' : Fin 2000) (r : Fin 50000) (hr : r.val = t.val * 2000 + r'.val) (k : Fin 128) :
    iblk1 (F := Ideal) V c 0 t (ix2 r' k) = V c main_arg0 (ix2 r k) := by
  obtain ⟨e0, e1, -⟩ := index_maps t
  show V c main_arg0 (((cfg1.win 0).blk t).view.emb (ix2 r' k)) = V c main_arg0 (ix2 r k)
  refine congrArg _ (funext fun a => Fin.ext ?_)
  match a with
  | ⟨0, _⟩ => show win1_0.index t (0 : Fin 2) * 2000 + 1 * r'.val = r.val; omega
  | ⟨1, _⟩ => show win1_0.index t (1 : Fin 2) * 128 + 1 * k.val = k.val; omega

theorem row_1 (c : Dev nD) (t : Fin cfg1.N) (r' : Fin 2000) (r : Fin 50000) (hr : r.val = t.val * 2000 + r'.val) (k : Fin 128) :
    iblk1 (F := Ideal) V c 1 t (ix2 r' k) = V c main_v20 (ix2 r k) := by
  obtain ⟨-, -, e0, e1, -⟩ := index_maps t
  show V c main_v20 (((cfg1.win 1).blk t).view.emb (ix2 r' k)) = V c main_v20 (ix2 r k)
  refine congrArg _ (funext fun a => Fin.ext ?_)
  match a with
  | ⟨0, _⟩ => show win1_1.index t (0 : Fin 2) * 2000 + 1 * r'.val = r.val; omega
  | ⟨1, _⟩ => show win1_1.index t (1 : Fin 2) * 128 + 1 * k.val = k.val; omega

/-! ## The whole windows: the block index is 0 on every axis, so the block at every point is the array -/

theorem blk_2 (c : Dev nD) (t : Fin cfg1.N) : iblk1 (F := Ideal) V c 2 t = V c main_v21 := by
  obtain ⟨-, -, -, -, e0, e1, -⟩ := index_maps t
  funext z
  show V c main_v21 (((cfg1.win 2).blk t).view.emb z) = V c main_v21 z
  refine congrArg _ (funext fun a => Fin.ext ?_)
  match a with
  | ⟨0, _⟩ => show win1_2.index t (0 : Fin 2) * 128 + 1 * (z 0).val = (z 0).val; omega
  | ⟨1, _⟩ => show win1_2.index t (1 : Fin 2) * 128 + 1 * (z 1).val = (z 1).val; omega

theorem blk_3 (c : Dev nD) (t : Fin cfg1.N) : iblk1 (F := Ideal) V c 3 t = V c main_v22 := by
  obtain ⟨-, -, -, -, -, -, e0, e1, -⟩ := index_maps t
  funext z
  show V c main_v22 (((cfg1.win 3).blk t).view.emb z) = V c main_v22 z
  refine congrArg _ (funext fun a => Fin.ext ?_)
  match a with
  | ⟨0, _⟩ => show win1_3.index t (0 : Fin 2) * 128 + 1 * (z 0).val = (z 0).val; omega
  | ⟨1, _⟩ => show win1_3.index t (1 : Fin 2) * 128 + 1 * (z 1).val = (z 1).val; omega

theorem blk_4 (c : Dev nD) (t : Fin cfg1.N) : iblk1 (F := Ideal) V c 4 t = V c main_arg10 := by
  obtain ⟨-, -, -, -, -, -, -, -, e0, -⟩ := index_maps t
  funext z
  show V c main_arg10 (((cfg1.win 4).blk t).view.emb z) = V c main_arg10 z
  refine congrArg _ (funext fun a => Fin.ext ?_)
  match a with
  | ⟨0, _⟩ => show win1_4.index t (0 : Fin 1) * 128 + 1 * (z 0).val = (z 0).val; omega

theorem blk_5 (c : Dev nD) (t : Fin cfg1.N) : iblk1 (F := Ideal) V c 5 t = V c main_arg11 := by
  obtain ⟨-, -, -, -, -, -, -, -, -, e0, e1, -⟩ := index_maps t
  funext z
  show V c main_arg11 (((cfg1.win 5).blk t).view.emb z) = V c main_arg11 z
  refine congrArg _ (funext fun a => Fin.ext ?_)
  match a with
  | ⟨0, _⟩ => show win1_5.index t (0 : Fin 2) * 128 + 1 * (z 0).val = (z 0).val; omega
  | ⟨1, _⟩ => show win1_5.index t (1 : Fin 2) * 128 + 1 * (z 1).val = (z 1).val; omega

theorem blk_6 (c : Dev nD) (t : Fin cfg1.N) : iblk1 (F := Ideal) V c 6 t = V c main_arg12 := by
  obtain ⟨-, -, -, -, -, -, -, -, -, -, -, e0, -⟩ := index_maps t
  funext z
  show V c main_arg12 (((cfg1.win 6).blk t).view.emb z) = V c main_arg12 z
  refine congrArg _ (funext fun a => Fin.ext ?_)
  match a with
  | ⟨0, _⟩ => show win1_6.index t (0 : Fin 1) * 128 + 1 * (z 0).val = (z 0).val; omega

theorem blk_7 (c : Dev nD) (t : Fin cfg1.N) : iblk1 (F := Ideal) V c 7 t = V c main_arg13 := by
  obtain ⟨-, -, -, -, -, -, -, -, -, -, -, -, e0, -⟩ := index_maps t
  funext z
  show V c main_arg13 (((cfg1.win 7).blk t).view.emb z) = V c main_arg13 z
  refine congrArg _ (funext fun a => Fin.ext ?_)
  match a with
  | ⟨0, _⟩ => show win1_7.index t (0 : Fin 1) * 128 + 1 * (z 0).val = (z 0).val; omega

theorem blk_8 (c : Dev nD) (t : Fin cfg1.N) : iblk1 (F := Ideal) V c 8 t = V c main_arg14 := by
  obtain ⟨-, -, -, -, -, -, -, -, -, -, -, -, -, e0, -⟩ := index_maps t
  funext z
  show V c main_arg14 (((cfg1.win 8).blk t).view.emb z) = V c main_arg14 z
  refine congrArg _ (funext fun a => Fin.ext ?_)
  match a with
  | ⟨0, _⟩ => show win1_8.index t (0 : Fin 1) * 128 + 1 * (z 0).val = (z 0).val; omega

/-! ## The output window -/

/-- Entry (r', j) of the output's block at point t sits in the array at (2000·t + r', j). -/
theorem emb_9 (t : Fin cfg1.N) (r' : Fin 2000) (r : Fin 50000) (hr : r.val = t.val * 2000 + r'.val) (j : Fin 128) :
    ((cfg1.win 9).blk t).view.emb (ix2 r' j) = ix2 r j := by
  obtain ⟨-, -, -, -, -, -, -, -, -, -, -, -, -, -, e0, e1⟩ := index_maps t
  refine funext fun a => Fin.ext ?_
  match a with
  | ⟨0, _⟩ => show win1_9.index t (0 : Fin 2) * 2000 + 1 * r'.val = r.val; omega
  | ⟨1, _⟩ => show win1_9.index t (1 : Fin 2) * 128 + 1 * j.val = j.val; omega

/-- What point `t` writes back is block `t` of the normalised update of the arrays as the launch finds them. -/
theorem flushed_eq (c : Dev nD) (t : Fin cfg1.N) :
    (dat1 (F := Ideal) V c).flushed 9 t = ((cfg1.win 9).blk t).view.read (Elt Ideal)
      (Cert.Spec.outArr 50000 (V c main_arg0) (V c main_v20) (V c main_v21) (V c main_v22)
          (V c main_arg10) (V c main_arg11) (V c main_arg12) (V c main_arg13) (V c main_arg14)) := by
  show (cfg1.win 9).cut (grid1.coords t) ((dat1 (F := Ideal) V c).after 9 t) = _
  rw [after1_9]
  unfold out1_9
  rw [View.canon_unit_zero zeros2]
  simp only [View.ld_unit_zero (S := S2000x128) zeros2, View.ld_unit_zero (S := S128x128) zeros2, View.ld_unit_zero (S := S128) zeros1]
  rw [Cert.KernelIdeal.Pay.pay1_eq]
  refine funext fun (y : S2000x128.Idx) => ?_
  show Cert.Spec.outArr 2000 (iblk1 V c 0 t) (iblk1 V c 1 t) (iblk1 V c 2 t) (iblk1 V c 3 t) (iblk1 V c 4 t) (iblk1 V c 5 t)
        (iblk1 V c 6 t) (iblk1 V c 7 t) (iblk1 V c 8 t) y
      = Cert.Spec.outArr 50000 (V c main_arg0) (V c main_v20) (V c main_v21) (V c main_v22) (V c main_arg10) (V c main_arg11)
        (V c main_arg12) (V c main_arg13) (V c main_arg14) (((cfg1.win 9).blk t).view.emb y)
  obtain ⟨r', j, rfl⟩ : ∃ (r' : Fin 2000) (j : Fin 128), y = ix2 r' j := ⟨y 0, y 1, eq_ix2 y⟩
  have ht := point_lt t
  obtain ⟨r, hr⟩ : ∃ r : Fin 50000, r.val = t.val * 2000 + r'.val := ⟨⟨t.val * 2000 + r'.val, by omega⟩, rfl⟩
  rw [emb_9 t r' r hr j]
  exact outArr_entry _ _ _ _ _ _ _ _ _ _ _ _ _ _ _ _ _ _ r' r j (row_0 V c t r' r hr) (row_1 V c t r' r hr)
    (blk_2 V c t) (blk_3 V c t) (blk_4 V c t) (blk_5 V c t) (blk_6 V c t) (blk_7 V c t) (blk_8 V c t)

/-- An index of the output array is in point t's block iff each coordinate is in the block's range on its axis. -/
theorem mem_blk (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v23).slice (win1_9.rect t)).set ↔ _
  rw [View.set_slice_whole, Rect.mem_set_unit]
  exact Iff.rfl

/-- Every index of the output array is in some point's block: row r is in the block of point r / 2000. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, Nat.lt_of_lt_of_le (by omega : (i 0).val / 2000 < 25) (Nat.le_of_eq N_1.symm)⟩, rfl⟩
  obtain ⟨-, -, -, -, -, -, -, -, -, -, -, -, -, -, e0, e1⟩ := index_maps t
  refine ⟨t, flush1_9 t, ?_⟩
  rw [mem_blk]
  intro a
  match a with
  | ⟨0, _⟩ =>
    show win1_9.index t (0 : Fin 2) * 2000 ≤ (i 0).val ∧ (i 0).val < win1_9.index t (0 : Fin 2) * 2000 + 2000
    omega
  | ⟨1, _⟩ =>
    show win1_9.index t (1 : Fin 2) * 128 ≤ (i 1).val ∧ (i 1).val < win1_9.index t (1 : Fin 2) * 128 + 128
    omega

/-- The node array after launch 1, from any entry contents. -/
theorem final1 (c : Dev nD) :
    (dat1 (F := Ideal) V c).arrAt 9 cfg1.N
      = Cert.Spec.outArr 50000 (V c main_arg0) (V c main_v20) (V c main_v21) (V c main_v22)
          (V c main_arg10) (V c main_arg11) (V c main_arg12) (V c main_arg13) (V c main_arg14) :=
  (dat1 (F := Ideal) V c).arrAt_eq_of_cover 9
    (Cert.Spec.outArr 50000 (V c main_arg0) (V c main_v20) (V c main_v21) (V c main_v22)
          (V c main_arg10) (V c main_arg11) (V c main_arg12) (V c main_arg13) (V c main_arg14))
    (fun t _ => flushed_eq V c t) cover

end Cert.KernelIdeal.Final

end
-- ==== Proof.KDefs.lean ====
/-
  The kernel program's host computation around its two launches, stage by stage, as functions of arrays:
  the two rows of the edge list; a row of node indices wrapped once for negatives and laid out as a column;
  the row gather that fills a row with NaN where its index is outside the node range; the row blocks of the
  two stacked weight matrices; and the mean aggregation of messages over destination nodes (their sum
  scattered by destination, divided by the edge count plus 1e-8).
-/
import proofs.«409984_j14121852469802_1_alg».proof.Proof.Gen.KernelIdeal

noncomputable section

namespace Cert.KernelIdeal.HostK

open Cert.KernelIdeal Cert.KernelIdeal.Gen Idealize.ShloMosaic

variable {F : FTy → Type} [FloatOps F]

/-- The edge list's first row: every edge's source node. -/
def srcRow (ei : IVec S2x600000 32) : IVec S600000 32 :=
  shapeCast S600000 (extractStridedSlice S1x600000 ![0, 0] ei slices_S2x600000_S1x600000_0_0) shapeCasts_S1x600000_S600000
/-- The edge list's second row: every edge's destination node. -/
def dstRow (ei : IVec S2x600000 32) : IVec S600000 32 :=
  shapeCast S600000 (extractStridedSlice S1x600000 ![1, 0] ei slices_S2x600000_S1x600000_1_0) shapeCasts_S1x600000_S600000

/-- A row of node indices with a negative index moved up by the node count, as a column of start indices. -/
def wrapCol (r : IVec S600000 32) : IVec S600000x1 32 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

/-- Per edge: is the wrapped index a node (between 0 and 49999)? -/
def inRange (col : IVec S600000x1 32) : IVec S600000 1 :=
  Host.reduce IntOp.andi
    (andi (cmpi .sge col (broadcastInDim S600000x1 ![] bcast_S_S600000x1 (constantI S_ 32 0#32)))
          (cmpi .sle col (broadcastInDim S600000x1 ![0, 1] bcast_S1x1_S600000x1_0_1
            (broadcastInDim S1x1 ![1] bcast_S1_S1x1_1 (constantI S1 32 49999#32)))))
    (constantI S_ 1 1#1) reducesTo_S600000x1_S600000_d1 h_S_

/-- One node row per edge, NaN where the edge's index is no node. -/
def takeK (h : FVec F S50000x128 .f32) (r : IVec S600000 32) : FVec F S600000x128 .f32 :=
  select (broadcastInDim S600000x128 ![0] bcast_S600000_S600000x128_0 (inRange (wrapCol r)))
    (Host.gather gather_S50000x128_S600000x1_S600000x128_1_0_n_n_0_1_1128 h (wrapCol r))
    (broadcastInDim S600000x128 ![] bcast_S_S600000x128 (constant S_ .f32 0x7FC00000#32))

/-- Rows 0–127, 128–255 and 256–319 of the message network's first weight matrix. -/
def w1a (W : FVec F S320x128 .f32) : FVec F S128x128 .f32 := extractStridedSlice S128x128 ![0, 0] W slices_S320x128_S128x128_0_0
def w1b (W : FVec F S320x128 .f32) : FVec F S128x128 .f32 := extractStridedSlice S128x128 ![128, 0] W slices_S320x128_S128x128_128_0
def w1c (W : FVec F S320x128 .f32) : FVec F S64x128 .f32 := extractStridedSlice S64x128 ![256, 0] W slices_S320x128_S64x128_256_0
/-- Rows 0–127 and 128–255 of the update network's first weight matrix. -/
def u1a (W : FVec F S256x128 .f32) : FVec F S128x128 .f32 := extractStridedSlice S128x128 ![0, 0] W slices_S256x128_S128x128_0_0
def u1b (W : FVec F S256x128 .f32) : FVec F S128x128 .f32 := extractStridedSlice S128x128 ![128, 0] W slices_S256x128_S128x128_128_0

/-- The mean of the messages arriving at each node: their sum by destination over the edge count plus 1e-8. -/
def aggK (msgs : FVec F S600000x128 .f32) (dst : IVec S600000 32) : FVec F S50000x128 .f32 :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst) msgs)
    (broadcastInDim S50000x128 ![0, 1] bcast_S50000x1_S50000x128_0_1
      (addf (Host.scatterAdd scatter_S50000x1_S600000x1_S600000x1_1_0_0_1
          (broadcastInDim S50000x1 ![] bcast_S_S50000x1 (constant S_ .f32 0x00000000#32))
          (broadcastInDim S600000x1 ![0] bcast_S600000_S600000x1_0 dst)
          (broadcastInDim S600000x1 ![] bcast_S_S600000x1 (constant S_ .f32 0x3F800000#32)))
        (broadcastInDim S50000x1 ![] bcast_S_S50000x1 (constant S_ .f32 0x322BCC77#32))))

end Cert.KernelIdeal.HostK

end
-- ==== Proof.KHost4.lean ====
/-
  What the first launch finds in its input arrays: the host operations before it gather one node row per
  edge for the sources and for the destinations and cut the first weight matrix into its three row blocks;
  the other inputs are arguments, untouched.
-/
import proofs.«409984_j14121852469802_1_alg».proof.Proof.Gen.KernelIdeal.Frame
import proofs.«409984_j14121852469802_1_alg».proof.Proof.KDefs
import Idealize.ShloMosaic.Lib.StableHlo.Run

set_option maxRecDepth 16384

noncomputable section

namespace Cert.KernelIdeal.HostK

open Cert.KernelIdeal Cert.KernelIdeal.Gen Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- A stretch of host operations leaves a buffer as it was when none of its operations writes it: the
    stretch is unfolded to its operations, each operation's written set is a singleton, and the buffer
    differs from every one of them. -/
local macro "unwritten " ops:ident " at " b:term : tactic => `(tactic|
  exact StableHlo.after_of_forall_not_mem (b := Proc.devRef .tc $b) _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ### The first stretch: the two rows of the edge list -/

/-- After the first stretch the first reshaped slice holds the edge list's source row. -/
theorem W1_v1 (c : Dev nD) :
    W1 m ρ c (Proc.devRef .tc main_v1) = srcRow (m ((c : Thread nD τ).loc main_arg1)) := by
  show StableHlo.after hostOps0 (W0 m ρ c) (Proc.devRef .tc main_v1) = _
  after_results
  rfl
/-- After the first stretch the second reshaped slice holds the edge list's destination row. -/
theorem W1_v3 (c : Dev nD) :
    W1 m ρ c (Proc.devRef .tc main_v3) = dstRow (m ((c : Thread nD τ).loc main_arg1)) := by
  show StableHlo.after hostOps0 (W0 m ρ c) (Proc.devRef .tc main_v3) = _
  after_results
  rfl
/-- The node array is an argument: the first stretch does not write it. -/
theorem W1_arg0 (c : Dev nD) :
    W1 m ρ c (Proc.devRef .tc main_arg0) = m ((c : Thread nD τ).loc main_arg0) :=
  calc W1 m ρ c (Proc.devRef .tc main_arg0)
    _ = W0 m ρ c (Proc.devRef .tc main_arg0) := by unwritten hostOps0 at main_arg0
    _ = m ((c : Thread nD τ).loc main_arg0) := rfl

/-! ### The last stretch before the launch: the three row blocks of the first weight matrix -/

/-- The first weight matrix is an argument: no stretch before the last one writes it. -/
theorem W3_arg3 (c : Dev nD) :
    W3 m ρ c (Proc.devRef .tc main_arg3) = m ((c : Thread nD τ).loc main_arg3) :=
  calc W3 m ρ c (Proc.devRef .tc main_arg3)
    _ = W2 m ρ c (Proc.devRef .tc main_arg3) := by unwritten hostOps0_2 at main_arg3
    _ = W1 m ρ c (Proc.devRef .tc main_arg3) := by unwritten hostOps0_1 at main_arg3
    _ = W0 m ρ c (Proc.devRef .tc main_arg3) := by unwritten hostOps0 at main_arg3
    _ = m ((c : Thread nD τ).loc main_arg3) := rfl

/-! ### The two gathers of node rows

Each gather stretch is read over ARBITRARY contents first: its result buffer holds the row gather of the node
array's contents at the contents of the index row's buffer. The contents at the stretch's entry are put in
afterwards. The operations of a called function carry their operands through the identity cast between a
buffer's type and its tensor type; those casts are removed before the two sides are compared. -/

/-- The gather stretch at the source row, from any contents. -/
theorem after_take_src (V : Valuation τ sig (Elt F)) :
    StableHlo.after hostOps0_1 V (Proc.devRef .tc main_v4)
      = takeK (V (Proc.devRef .tc main_arg0)) (V (Proc.devRef .tc main_v1)) := by
  after_results_simp
  simp only [TRef.ofBuf, TRef.toBuf, cast_eq]
  rfl
/-- The gather stretch at the destination row, from any contents. -/
theorem after_take_dst (V : Valuation τ sig (Elt F)) :
    StableHlo.after hostOps0_2 V (Proc.devRef .tc main_v5)
      = takeK (V (Proc.devRef .tc main_arg0)) (V (Proc.devRef .tc main_v3)) := by
  after_results_simp
  simp only [TRef.ofBuf, TRef.toBuf, cast_eq]
  rfl

/-- After the second stretch its result holds the node rows gathered at the source row. -/
theorem W2_v4 (c : Dev nD) :
    W2 m ρ c (Proc.devRef .tc main_v4)
      = takeK (m ((c : Thread nD τ).loc main_arg0)) (srcRow (m ((c : Thread nD τ).loc main_arg1))) :=
  calc W2 m ρ c (Proc.devRef .tc main_v4)
    _ = takeK (W1 m ρ c (Proc.devRef .tc main_arg0)) (W1 m ρ c (Proc.devRef .tc main_v1)) := after_take_src (W1 m ρ c)
    _ = takeK (m ((c : Thread nD τ).loc main_arg0)) (srcRow (m ((c : Thread nD τ).loc main_arg1))) := by
      rw [W1_arg0, W1_v1]

/-- The second stretch writes neither the node array nor the destination row. -/
theorem W2_arg0 (c : Dev nD) :
    W2 m ρ c (Proc.devRef .tc main_arg0) = m ((c : Thread nD τ).loc main_arg0) :=
  calc W2 m ρ c (Proc.devRef .tc main_arg0)
    _ = W1 m ρ c (Proc.devRef .tc main_arg0) := by unwritten hostOps0_1 at main_arg0
    _ = m ((c : Thread nD τ).loc main_arg0) := W1_arg0 m ρ c
theorem W2_v3 (c : Dev nD) :
    W2 m ρ c (Proc.devRef .tc main_v3) = dstRow (m ((c : Thread nD τ).loc main_arg1)) :=
  calc W2 m ρ c (Proc.devRef .tc main_v3)
    _ = W1 m ρ c (Proc.devRef .tc main_v3) := by unwritten hostOps0_1 at main_v3
    _ = dstRow (m ((c : Thread nD τ).loc main_arg1)) := W1_v3 m ρ c

/-- After the third stretch its result holds the node rows gathered at the destination row. -/
theorem W3_v5 (c : Dev nD) :
    W3 m ρ c (Proc.devRef .tc main_v5)
      = takeK (m ((c : Thread nD τ).loc main_arg0)) (dstRow (m ((c : Thread nD τ).loc main_arg1))) :=
  calc W3 m ρ c (Proc.devRef .tc main_v5)
    _ = takeK (W2 m ρ c (Proc.devRef .tc main_arg0)) (W2 m ρ c (Proc.devRef .tc main_v3)) := after_take_dst (W2 m ρ c)
    _ = takeK (m ((c : Thread nD τ).loc main_arg0)) (dstRow (m ((c : Thread nD τ).loc main_arg1))) := by
      rw [W2_arg0, W2_v3]

theorem V4_v4 (c : Dev nD) : V4 m ρ c main_v4 = takeK (m ((c : Thread nD τ).loc main_arg0)) (srcRow (m ((c : Thread nD τ).loc main_arg1))) :=
  calc V4 m ρ c main_v4
    _ = W3 m ρ c (Proc.devRef .tc main_v4) := by unwritten hostOps0_3 at main_v4
    _ = W2 m ρ c (Proc.devRef .tc main_v4) := by unwritten hostOps0_2 at main_v4
    _ = takeK (m ((c : Thread nD τ).loc main_arg0)) (srcRow (m ((c : Thread nD τ).loc main_arg1))) := W2_v4 m ρ c
theorem V4_v5 (c : Dev nD) : V4 m ρ c main_v5 = takeK (m ((c : Thread nD τ).loc main_arg0)) (dstRow (m ((c : Thread nD τ).loc main_arg1))) :=
  calc V4 m ρ c main_v5
    _ = W3 m ρ c (Proc.devRef .tc main_v5) := by unwritten hostOps0_3 at main_v5
    _ = takeK (m ((c : Thread nD τ).loc main_arg0)) (dstRow (m ((c : Thread nD τ).loc main_arg1))) := W3_v5 m ρ c
theorem V4_v6 (c : Dev nD) : V4 m ρ c main_v6 = w1a (m ((c : Thread nD τ).loc main_arg3)) := by
  show StableHlo.after hostOps0_3 (W3 m ρ c) (Proc.devRef .tc main_v6) = _
  after_results
  exact congrArg w1a (W3_arg3 m ρ c)
theorem V4_v7 (c : Dev nD) : V4 m ρ c main_v7 = w1b (m ((c : Thread nD τ).loc main_arg3)) := by
  show StableHlo.after hostOps0_3 (W3 m ρ c) (Proc.devRef .tc main_v7) = _
  after_results
  exact congrArg w1b (W3_arg3 m ρ c)
theorem V4_v8 (c : Dev nD) : V4 m ρ c main_v8 = w1c (m ((c : Thread nD τ).loc main_arg3)) := by
  show StableHlo.after hostOps0_3 (W3 m ρ c) (Proc.devRef .tc main_v8) = _
  after_results
  exact congrArg w1c (W3_arg3 m ρ c)
theorem V4_v3 (c : Dev nD) : V4 m ρ c main_v3 = dstRow (m ((c : Thread nD τ).loc main_arg1)) :=
  calc V4 m ρ c main_v3
    _ = W3 m ρ c (Proc.devRef .tc main_v3) := by unwritten hostOps0_3 at main_v3
    _ = W2 m ρ c (Proc.devRef .tc main_v3) := by unwritten hostOps0_2 at main_v3
    _ = W1 m ρ c (Proc.devRef .tc main_v3) := by unwritten hostOps0_1 at main_v3
    _ = dstRow (m ((c : Thread nD τ).loc main_arg1)) := W1_v3 m ρ c
theorem V4_arg0 (c : Dev nD) : V4 m ρ c main_arg0 = (m ((c : Thread nD τ).loc main_arg0)) :=
  calc V4 m ρ c main_arg0
    _ = W3 m ρ c (Proc.devRef .tc main_arg0) := by unwritten hostOps0_3 at main_arg0
    _ = W2 m ρ c (Proc.devRef .tc main_arg0) := by unwritten hostOps0_2 at main_arg0
    _ = W1 m ρ c (Proc.devRef .tc main_arg0) := by unwritten hostOps0_1 at main_arg0
    _ = W0 m ρ c (Proc.devRef .tc main_arg0) := by unwritten hostOps0 at main_arg0
    _ = m ((c : Thread nD τ).loc main_arg0) := rfl
theorem V4_arg2 (c : Dev nD) : V4 m ρ c main_arg2 = (m ((c : Thread nD τ).loc main_arg2)) :=
  calc V4 m ρ c main_arg2
    _ = W3 m ρ c (Proc.devRef .tc main_arg2) := by unwritten hostOps0_3 at main_arg2
    _ = W2 m ρ c (Proc.devRef .tc main_arg2) := by unwritten hostOps0_2 at main_arg2
    _ = W1 m ρ c (Proc.devRef .tc main_arg2) := by unwritten hostOps0_1 at main_arg2
    _ = W0 m ρ c (Proc.devRef .tc main_arg2) := by unwritten hostOps0 at main_arg2
    _ = m ((c : Thread nD τ).loc main_arg2) := rfl
theorem V4_arg4 (c : Dev nD) : V4 m ρ c main_arg4 = (m ((c : Thread nD τ).loc main_arg4)) :=
  calc V4 m ρ c main_arg4
    _ = W3 m ρ c (Proc.devRef .tc main_arg4) := by unwritten hostOps0_3 at main_arg4
    _ = W2 m ρ c (Proc.devRef .tc main_arg4) := by unwritten hostOps0_2 at main_arg4
    _ = W1 m ρ c (Proc.devRef .tc main_arg4) := by unwritten hostOps0_1 at main_arg4
    _ = W0 m ρ c (Proc.devRef .tc main_arg4) := by unwritten hostOps0 at main_arg4
    _ = m ((c : Thread nD τ).loc main_arg4) := rfl
theorem V4_arg5 (c : Dev nD) : V4 m ρ c main_arg5 = (m ((c : Thread nD τ).loc main_arg5)) :=
  calc V4 m ρ c main_arg5
    _ = W3 m ρ c (Proc.devRef .tc main_arg5) := by unwritten hostOps0_3 at main_arg5
    _ = W2 m ρ c (Proc.devRef .tc main_arg5) := by unwritten hostOps0_2 at main_arg5
    _ = W1 m ρ c (Proc.devRef .tc main_arg5) := by unwritten hostOps0_1 at main_arg5
    _ = W0 m ρ c (Proc.devRef .tc main_arg5) := by unwritten hostOps0 at main_arg5
    _ = m ((c : Thread nD τ).loc main_arg5) := rfl
theorem V4_arg6 (c : Dev nD) : V4 m ρ c main_arg6 = (m ((c : Thread nD τ).loc main_arg6)) :=
  calc V4 m ρ c main_arg6
    _ = W3 m ρ c (Proc.devRef .tc main_arg6) := by unwritten hostOps0_3 at main_arg6
    _ = W2 m ρ c (Proc.devRef .tc main_arg6) := by unwritten hostOps0_2 at main_arg6
    _ = W1 m ρ c (Proc.devRef .tc main_arg6) := by unwritten hostOps0_1 at main_arg6
    _ = W0 m ρ c (Proc.devRef .tc main_arg6) := by unwritten hostOps0 at main_arg6
    _ = m ((c : Thread nD τ).loc main_arg6) := rfl
theorem V4_arg7 (c : Dev nD) : V4 m ρ c main_arg7 = (m ((c : Thread nD τ).loc main_arg7)) :=
  calc V4 m ρ c main_arg7
    _ = W3 m ρ c (Proc.devRef .tc main_arg7) := by unwritten hostOps0_3 at main_arg7
    _ = W2 m ρ c (Proc.devRef .tc main_arg7) := by unwritten hostOps0_2 at main_arg7
    _ = W1 m ρ c (Proc.devRef .tc main_arg7) := by unwritten hostOps0_1 at main_arg7
    _ = W0 m ρ c (Proc.devRef .tc main_arg7) := by unwritten hostOps0 at main_arg7
    _ = m ((c : Thread nD τ).loc main_arg7) := rfl
theorem V4_arg8 (c : Dev nD) : V4 m ρ c main_arg8 = (m ((c : Thread nD τ).loc main_arg8)) :=
  calc V4 m ρ c main_arg8
    _ = W3 m ρ c (Proc.devRef .tc main_arg8) := by unwritten hostOps0_3 at main_arg8
    _ = W2 m ρ c (Proc.devRef .tc main_arg8) := by unwritten hostOps0_2 at main_arg8
    _ = W1 m ρ c (Proc.devRef .tc main_arg8) := by unwritten hostOps0_1 at main_arg8
    _ = W0 m ρ c (Proc.devRef .tc main_arg8) := by unwritten hostOps0 at main_arg8
    _ = m ((c : Thread nD τ).loc main_arg8) := rfl
theorem V4_arg9 (c : Dev nD) : V4 m ρ c main_arg9 = (m ((c : Thread nD τ).loc main_arg9)) :=
  calc V4 m ρ c main_arg9
    _ = W3 m ρ c (Proc.devRef .tc main_arg9) := by unwritten hostOps0_3 at main_arg9
    _ = W2 m ρ c (Proc.devRef .tc main_arg9) := by unwritten hostOps0_2 at main_arg9
    _ = W1 m ρ c (Proc.devRef .tc main_arg9) := by unwritten hostOps0_1 at main_arg9
    _ = W0 m ρ c (Proc.devRef .tc main_arg9) := by unwritten hostOps0 at main_arg9
    _ = m ((c : Thread nD τ).loc main_arg9) := rfl
theorem V4_arg10 (c : Dev nD) : V4 m ρ c main_arg10 = (m ((c : Thread nD τ).loc main_arg10)) :=
  calc V4 m ρ c main_arg10
    _ = W3 m ρ c (Proc.devRef .tc main_arg10) := by unwritten hostOps0_3 at main_arg10
    _ = W2 m ρ c (Proc.devRef .tc main_arg10) := by unwritten hostOps0_2 at main_arg10
    _ = W1 m ρ c (Proc.devRef .tc main_arg10) := by unwritten hostOps0_1 at main_arg10
    _ = W0 m ρ c (Proc.devRef .tc main_arg10) := by unwritten hostOps0 at main_arg10
    _ = m ((c : Thread nD τ).loc main_arg10) := rfl
theorem V4_arg11 (c : Dev nD) : V4 m ρ c main_arg11 = (m ((c : Thread nD τ).loc main_arg11)) :=
  calc V4 m ρ c main_arg11
    _ = W3 m ρ c (Proc.devRef .tc main_arg11) := by unwritten hostOps0_3 at main_arg11
    _ = W2 m ρ c (Proc.devRef .tc main_arg11) := by unwritten hostOps0_2 at main_arg11
    _ = W1 m ρ c (Proc.devRef .tc main_arg11) := by unwritten hostOps0_1 at main_arg11
    _ = W0 m ρ c (Proc.devRef .tc main_arg11) := by unwritten hostOps0 at main_arg11
    _ = m ((c : Thread nD τ).loc main_arg11) := rfl
theorem V4_arg12 (c : Dev nD) : V4 m ρ c main_arg12 = (m ((c : Thread nD τ).loc main_arg12)) :=
  calc V4 m ρ c main_arg12
    _ = W3 m ρ c (Proc.devRef .tc main_arg12) := by unwritten hostOps0_3 at main_arg12
    _ = W2 m ρ c (Proc.devRef .tc main_arg12) := by unwritten hostOps0_2 at main_arg12
    _ = W1 m ρ c (Proc.devRef .tc main_arg12) := by unwritten hostOps0_1 at main_arg12
    _ = W0 m ρ c (Proc.devRef .tc main_arg12) := by unwritten hostOps0 at main_arg12
    _ = m ((c : Thread nD τ).loc main_arg12) := rfl
theorem V4_arg13 (c : Dev nD) : V4 m ρ c main_arg13 = (m ((c : Thread nD τ).loc main_arg13)) :=
  calc V4 m ρ c main_arg13
    _ = W3 m ρ c (Proc.devRef .tc main_arg13) := by unwritten hostOps0_3 at main_arg13
    _ = W2 m ρ c (Proc.devRef .tc main_arg13) := by unwritten hostOps0_2 at main_arg13
    _ = W1 m ρ c (Proc.devRef .tc main_arg13) := by unwritten hostOps0_1 at main_arg13
    _ = W0 m ρ c (Proc.devRef .tc main_arg13) := by unwritten hostOps0 at main_arg13
    _ = m ((c : Thread nD τ).loc main_arg13) := rfl
theorem V4_arg14 (c : Dev nD) : V4 m ρ c main_arg14 = (m ((c : Thread nD τ).loc main_arg14)) :=
  calc V4 m ρ c main_arg14
    _ = W3 m ρ c (Proc.devRef .tc main_arg14) := by unwritten hostOps0_3 at main_arg14
    _ = W2 m ρ c (Proc.devRef .tc main_arg14) := by unwritten hostOps0_2 at main_arg14
    _ = W1 m ρ c (Proc.devRef .tc main_arg14) := by unwritten hostOps0_1 at main_arg14
    _ = W0 m ρ c (Proc.devRef .tc main_arg14) := by unwritten hostOps0 at main_arg14
    _ = m ((c : Thread nD τ).loc main_arg14) := rfl

end Cert.KernelIdeal.HostK

end
-- ==== Proof.KHost6.lean ====
/-
  What the second launch finds in its input arrays: the node array untouched, the mean of the first launch's
  messages over destination nodes, the two row blocks of the update network's first weight matrix, and the
  remaining arguments untouched.
-/
import proofs.«409984_j14121852469802_1_alg».proof.Proof.Gen.KernelIdeal.Frame
import proofs.«409984_j14121852469802_1_alg».proof.Proof.KDefs
import proofs.«409984_j14121852469802_1_alg».proof.Proof.KHost4
import Idealize.ShloMosaic.Lib.StableHlo.Run

set_option maxRecDepth 16384

noncomputable section

namespace Cert.KernelIdeal.HostK

open Cert.KernelIdeal Cert.KernelIdeal.Gen Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- At the first launch's exit its output array holds the folded write-backs. -/
private theorem W5_v9 (c : Dev nD) : W5 m ρ c (Proc.devRef .tc main_v9) = (dat0 (V4 m ρ) c).arrAt 11 cfg0.N :=
  W5_arr m ρ c 11
/-- The destination row is no array of the first launch: it leaves the launch as it entered. -/
private theorem W5_v3 (c : Dev nD) : W5 m ρ c (Proc.devRef .tc main_v3) = dstRow (m ((c : Thread nD τ).loc main_arg1)) :=
  (W5_of_ne m ρ c main_v3 (by decide)).trans (V4_v3 m ρ c)
/-- The update network's first weight matrix is no array of the first launch. -/
private theorem W5_arg9 (c : Dev nD) : W5 m ρ c (Proc.devRef .tc main_arg9) = m ((c : Thread nD τ).loc main_arg9) :=
  (W5_of_ne m ρ c main_arg9 (by decide)).trans (V4_arg9 m ρ c)

/-- From any contents, the host operations before the second launch leave in the aggregate's buffer the sum of the
    message array scattered by the destination row over zeros, divided by the count of edges per destination
    plus 1e-8: the mean aggregation of the message array over the destination row. -/
private theorem after_hostOps1_v20 (V : Valuation τ sig (Elt F)) :
    StableHlo.after hostOps1 V (Proc.devRef .tc main_v20)
      = aggK (V (Proc.devRef .tc main_v9)) (V (Proc.devRef .tc main_v3)) := by
  after_results
  rfl

/-- The aggregate the second launch reads: the mean over destinations of the first launch's output array. -/
theorem V6_v20 (c : Dev nD) :
    V6 m ρ c main_v20 = aggK ((dat0 (V4 m ρ) c).arrAt 11 cfg0.N) (dstRow (m ((c : Thread nD τ).loc main_arg1))) := by
  show StableHlo.after hostOps1 (W5 m ρ c) (Proc.devRef .tc main_v20) = _
  rw [after_hostOps1_v20, W5_v9, W5_v3]
theorem V6_v21 (c : Dev nD) : V6 m ρ c main_v21 = u1a (m ((c : Thread nD τ).loc main_arg9)) := by
  show StableHlo.after hostOps1 (W5 m ρ c) (Proc.devRef .tc main_v21) = _
  after_results
  rw [W5_arg9]
  rfl
theorem V6_v22 (c : Dev nD) : V6 m ρ c main_v22 = u1b (m ((c : Thread nD τ).loc main_arg9)) := by
  show StableHlo.after hostOps1 (W5 m ρ c) (Proc.devRef .tc main_v22) = _
  after_results
  rw [W5_arg9]
  rfl
/-- Argument 0 is written by no host operation before the second launch and is no array of the first launch. -/
theorem V6_arg0 (c : Dev nD) : V6 m ρ c main_arg0 = (m ((c : Thread nD τ).loc main_arg0)) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W4 m ρ c (Proc.devRef .tc main_arg0) := W5_of_ne m ρ c main_arg0 (by decide)
    _ = m ((c : Thread nD τ).loc main_arg0) := V4_arg0 m ρ c
/-- Argument 10 is written by no host operation before the second launch and is no array of the first launch. -/
theorem V6_arg10 (c : Dev nD) : V6 m ρ c main_arg10 = (m ((c : Thread nD τ).loc main_arg10)) :=
  calc W6 m ρ c (Proc.devRef .tc main_arg10)
    _ = W5 m ρ c (Proc.devRef .tc main_arg10) := StableHlo.after_of_forall_not_mem (b := Proc.devRef .tc main_arg10) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W4 m ρ c (Proc.devRef .tc main_arg10) := W5_of_ne m ρ c main_arg10 (by decide)
    _ = m ((c : Thread nD τ).loc main_arg10) := V4_arg10 m ρ c
/-- Argument 11 is written by no host operation before the second launch and is no array of the first launch. -/
theorem V6_arg11 (c : Dev nD) : V6 m ρ c main_arg11 = (m ((c : Thread nD τ).loc main_arg11)) :=
  calc W6 m ρ c (Proc.devRef .tc main_arg11)
    _ = W5 m ρ c (Proc.devRef .tc main_arg11) := StableHlo.after_of_forall_not_mem (b := Proc.devRef .tc main_arg11) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W4 m ρ c (Proc.devRef .tc main_arg11) := W5_of_ne m ρ c main_arg11 (by decide)
    _ = m ((c : Thread nD τ).loc main_arg11) := V4_arg11 m ρ c
/-- Argument 12 is written by no host operation before the second launch and is no array of the first launch. -/
theorem V6_arg12 (c : Dev nD) : V6 m ρ c main_arg12 = (m ((c : Thread nD τ).loc main_arg12)) :=
  calc W6 m ρ c (Proc.devRef .tc main_arg12)
    _ = W5 m ρ c (Proc.devRef .tc main_arg12) := StableHlo.after_of_forall_not_mem (b := Proc.devRef .tc main_arg12) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W4 m ρ c (Proc.devRef .tc main_arg12) := W5_of_ne m ρ c main_arg12 (by decide)
    _ = m ((c : Thread nD τ).loc main_arg12) := V4_arg12 m ρ c
/-- Argument 13 is written by no host operation before the second launch and is no array of the first launch. -/
theorem V6_arg13 (c : Dev nD) : V6 m ρ c main_arg13 = (m ((c : Thread nD τ).loc main_arg13)) :=
  calc W6 m ρ c (Proc.devRef .tc main_arg13)
    _ = W5 m ρ c (Proc.devRef .tc main_arg13) := StableHlo.after_of_forall_not_mem (b := Proc.devRef .tc main_arg13) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W4 m ρ c (Proc.devRef .tc main_arg13) := W5_of_ne m ρ c main_arg13 (by decide)
    _ = m ((c : Thread nD τ).loc main_arg13) := V4_arg13 m ρ c
/-- Argument 14 is written by no host operation before the second launch and is no array of the first launch. -/
theorem V6_arg14 (c : Dev nD) : V6 m ρ c main_arg14 = (m ((c : Thread nD τ).loc main_arg14)) :=
  calc W6 m ρ c (Proc.devRef .tc main_arg14)
    _ = W5 m ρ c (Proc.devRef .tc main_arg14) := StableHlo.after_of_forall_not_mem (b := Proc.devRef .tc main_arg14) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W4 m ρ c (Proc.devRef .tc main_arg14) := W5_of_ne m ρ c main_arg14 (by decide)
    _ = m ((c : Thread nD τ).loc main_arg14) := V4_arg14 m ρ c

end Cert.KernelIdeal.HostK

end
-- ==== Proof.KValue.lean ====
/-
  The kernel program's result as one function of its arguments: the normalised update of the node array and
  of the mean, over destination nodes, of the message network's output on the gathered source rows,
  destination rows and edge attributes — read off the two launches' output arrays and the host operations
  between them.
-/
import proofs.«409984_j14121852469802_1_alg».proof.Proof.KFinal0
import proofs.«409984_j14121852469802_1_alg».proof.Proof.KFinal1
import proofs.«409984_j14121852469802_1_alg».proof.Proof.KHost4
import proofs.«409984_j14121852469802_1_alg».proof.Proof.KHost6

set_option maxRecDepth 16384

noncomputable section

namespace Cert.KernelIdeal.HostK

open Cert.KernelIdeal Cert.KernelIdeal.Gen Idealize.ShloMosaic Idealize.ShloMosaic.TcCoe Idealize.SL.Sem

/-- The result of the kernel program on the extended reals. -/
def kAll (h : FVec Ideal S50000x128 .f32) (ei : IVec S2x600000 32) (ea : FVec Ideal S600000x64 .f32) (W1 : FVec Ideal S320x128 .f32)
    (b1 : FVec Ideal S128 .f32) (W2 : FVec Ideal S128x128 .f32) (b2 : FVec Ideal S128 .f32) (W3 : FVec Ideal S128x128 .f32)
    (b3 : FVec Ideal S128 .f32) (uW1 : FVec Ideal S256x128 .f32) (ub1 : FVec Ideal S128 .f32) (uW2 : FVec Ideal S128x128 .f32)
    (ub2 gamma beta : FVec Ideal S128 .f32) : FVec Ideal S50000x128 .f32 :=
  Cert.Spec.outArr 50000 h
    (aggK (F := Ideal) (Cert.Spec.msgArr 600000 (takeK h (srcRow ei)) (takeK h (dstRow ei)) ea (w1a W1) (w1b W1) (w1c W1) b1 W2 b2 W3 b3)
      (dstRow ei))
    (u1a uW1) (u1b uW1) ub1 uW2 ub2 gamma beta

variable (m : (ℓ : Loc nD τ sig) → Buf (Elt Ideal) ℓ) (ρ : Dev nD → PrngReg)

/-- The result array at the end of the run is that function of the launch memory's arguments. -/
theorem result_eq (c : Dev nD) :
    W7 (F := Ideal) m ρ c (Proc.devRef .tc main_v23)
      = kAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W7_arr m ρ c 9).trans ?_
  rw [Cert.KernelIdeal.Final.final1 (V6 m ρ) c, V6_v20 m ρ c, V6_v21 m ρ c, V6_v22 m ρ c, V6_arg0 m ρ c, V6_arg10 m ρ c, V6_arg11 m ρ c,
    V6_arg12 m ρ c, V6_arg13 m ρ c, V6_arg14 m ρ c, Cert.KernelIdeal.Final.final0 (V4 m ρ) c, V4_v4 m ρ c, V4_v5 m ρ c, V4_v6 m ρ c,
    V4_v7 m ρ c, V4_v8 m ρ c, V4_arg2 m ρ c, V4_arg4 m ρ c, V4_arg5 m ρ c, V4_arg6 m ρ c, V4_arg7 m ρ c, V4_arg8 m ρ c]
  rfl

end Cert.KernelIdeal.HostK

end
-- ==== Proof.KGather.lean ====
/-
  Where every edge index is a node (at least 0 and below 50000), the kernel program's gather, which would
  fill a row with NaN for an index outside the node range, is the plain row gather; and the precondition
  says exactly that every entry of the edge list is such an index.
-/
import proofs.«409984_j14121852469802_1_alg».proof.Proof.KDefs
import proofs.«409984_j14121852469802_1_alg».proof.Proof.Gen.Pre_finite_inputs
import Idealize.ShloMosaic.Lib.StableHlo.Predicate
import Idealize.ShloMosaic.Lib.ReduceAll
import Idealize.ShloMosaic.Lib.ValueIdx
import Idealize.ShloMosaic.PureOps.Ideal

noncomputable section

namespace Cert.KernelIdeal.HostK

open Cert.KernelIdeal Cert.KernelIdeal.Gen Idealize.ShloMosaic Idealize.ShloMosaic.ValueIdx

/-- Every entry is a node index, read as a signed number. -/
def IsNode {S : Shape} (r : IVec S 32) : Prop := ∀ i, 0 ≤ (r i).toInt ∧ (r i).toInt < 50000

/-- A rank-0 shape has one index. -/
instance subsingleton_scalarIdx : Subsingleton (⟨0, ![]⟩ : Shape).Idx := ⟨fun _ _ => funext fun d => d.elim0⟩

/-- The two literals of the range test, read signed. -/
theorem toInt_zero32 : (0#32 : BitVec 32).toInt = 0 := by decide
theorem toInt_nodes32 : (50000#32 : BitVec 32).toInt = 50000 := by decide
theorem toInt_lastNode32 : (49999#32 : BitVec 32).toInt = 49999 := by decide

/-- The last part of the precondition ends in the two range tests of the edge list: where it is 1, both
    reductions by `and` are 1, so every entry passes both tests. -/
theorem isNode_of_part4 [Cert.Pre_finite_inputs.Facts] (a1 : IVec Cert.Pre_finite_inputs.S2x600000 32)
    (p q : IVec Cert.Pre_finite_inputs.S_ 1) (z : Cert.Pre_finite_inputs.S_.Idx)
    (h : Cert.Pre_finite_inputs.fn_part4 (F := Ideal) a1 p q z = 1#1) : IsNode (S := S2x600000) a1 := by
  unfold Cert.Pre_finite_inputs.fn_part4 at h
  dsimp only at h
  obtain ⟨h1, hlt⟩ := IntOp.andi_eq_one.1 h
  obtain ⟨_, hge⟩ := IntOp.andi_eq_one.1 h1
  intro k
  have hge' := Host.reduce_andi_all _ _ _ _ z hge k
  have hlt' := Host.reduce_andi_all _ _ _ _ z hlt k
  have e1 := IntOp.cmpi_sge.1 hge'
  have e2 := IntOp.cmpi_slt.1 hlt'
  refine ⟨?_, ?_⟩
  · rw [← toInt_zero32]; exact e1
  · rw [← toInt_nodes32]; exact e2

/-- The precondition's last two conjuncts: every entry of the edge list is a node index. -/
theorem isNode_of_pre [Cert.Pre_finite_inputs.Facts] (a0 : FVec Ideal Cert.Pre_finite_inputs.S50000x128 .f32) (a1 : IVec Cert.Pre_finite_inputs.S2x600000 32)
    (a2 : FVec Ideal Cert.Pre_finite_inputs.S600000x64 .f32) (a3 : FVec Ideal Cert.Pre_finite_inputs.S320x128 .f32)
    (a4 : FVec Ideal Cert.Pre_finite_inputs.S128 .f32) (a5 : FVec Ideal Cert.Pre_finite_inputs.S128x128 .f32)
    (a6 : FVec Ideal Cert.Pre_finite_inputs.S128 .f32) (a7 : FVec Ideal Cert.Pre_finite_inputs.S128x128 .f32)
    (a8 : FVec Ideal Cert.Pre_finite_inputs.S128 .f32) (a9 : FVec Ideal Cert.Pre_finite_inputs.S256x128 .f32)
    (a10 : FVec Ideal Cert.Pre_finite_inputs.S128 .f32) (a11 : FVec Ideal Cert.Pre_finite_inputs.S128x128 .f32)
    (a12 a13 a14 : FVec Ideal Cert.Pre_finite_inputs.S128 .f32)
    (h : Cert.Pre_finite_inputs.fn (F := Ideal) a0 a1 a2 a3 a4 a5 a6 a7 a8 a9 a10 a11 a12 a13 a14 = (fun _ => 1#1)) :
    IsNode (S := S2x600000) a1 := by
  have h0 := congrFun h (fun d => d.elim0)
  unfold Cert.Pre_finite_inputs.fn at h0
  dsimp only at h0
  unfold Cert.Pre_finite_inputs.fn_part1 at h0
  dsimp only at h0
  unfold Cert.Pre_finite_inputs.fn_part2 at h0
  dsimp only at h0
  unfold Cert.Pre_finite_inputs.fn_part3 at h0
  dsimp only at h0
  exact isNode_of_part4 a1 _ _ _ h0

/-- The rows of an edge list of node indices hold node indices. -/
theorem isNode_srcRow (ei : IVec S2x600000 32) (h : IsNode ei) : IsNode (srcRow ei) := fun _ => h _
theorem isNode_dstRow (ei : IVec S2x600000 32) (h : IsNode ei) : IsNode (dstRow ei) := fun _ => h _

/-- A non-negative index is not below zero, so the wrap for negative indices leaves it as it is. -/
theorem select_slt_zero_of_nonneg (x y : BitVec 32) (hx : 0 ≤ x.toInt) :
    Scalar.select (IntOp.cmpi .slt x 0#32) y x = x := by
  have hc : ¬ IntOp.cmpi .slt x 0#32 = 1#1 := fun e => by
    have := IntOp.cmpi_slt.1 e
    rw [toInt_zero32] at this
    omega
  exact if_neg hc

/-- The wrapped column of a row of node indices holds the same indices. -/
theorem isNode_wrapCol (r : IVec S600000 32) (hr : IsNode r) : IsNode (wrapCol r) := by
  intro c
  have e : wrapCol r c = r _ := select_slt_zero_of_nonneg _ _ (hr _).1
  rw [e]
  exact hr _

/-- A left fold by `and` from 1 over `i1` words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_one f hf l

/-- Every node index passes the range test: both compares hold at every entry, and the reduction by `and`
    from 1 of words that are all 1 is 1. -/
theorem inRange_of_isNode (col : IVec S600000x1 32) (hc : IsNode col) (j : S600000.Idx) : inRange col j = 1#1 := by
  unfold inRange
  rw [Host.reduce_eq_foldl]
  refine foldl_andi_one _ (fun i => ?_) _
  refine IntOp.andi_eq_one.2 ⟨IntOp.cmpi_sge.2 ?_, IntOp.cmpi_sle.2 ?_⟩
  · show (0#32 : BitVec 32).toInt ≤ (col i).toInt
    rw [toInt_zero32]; exact (hc i).1
  · show (col i).toInt ≤ (49999#32 : BitVec 32).toInt
    rw [toInt_lastNode32]; have := (hc i).2; omega

/-- Where the mask is 1 a select reads its first operand. -/
theorem select_apply_of_one {s : Shape} {α : Type} (c : IVec s 1) (a b : s.Idx → α) (i : s.Idx) (hc : c i = 1#1) :
    select c a b i = a i := by
  show Scalar.select (c i) (a i) (b i) = a i
  rw [hc]
  exact if_pos rfl

/-- On node indices nothing is filled: the gather is the plain row gather at the (unchanged) indices. -/
theorem takeK_of_isNode (h : FVec Ideal S50000x128 .f32) (r : IVec S600000 32) (hr : IsNode r) :
    takeK (F := Ideal) h r = Host.gather gather_S50000x128_S600000x1_S600000x128_1_0_n_n_0_1_1128 h (wrapCol r) := by
  funext i
  have hm : broadcastInDim S600000x128 ![0] bcast_S600000_S600000x128_0 (inRange (wrapCol r)) i = 1#1 :=
    inRange_of_isNode _ (isNode_wrapCol r hr) _
  unfold takeK
  exact select_apply_of_one _ _ _ i hm

end Cert.KernelIdeal.HostK

end
-- ==== Proof.RBridge0.lean ====
/-
  The reference's message stage is the message network row by row: the one 320-wide matrix product of the
  concatenated rows is the sum of the three products with the weight matrix's row blocks, and the cube in
  GELU is the same product taken in another order.
-/
import proofs.«409984_j14121852469802_1_alg».proof.Proof.RDefs
import proofs.«409984_j14121852469802_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace Cert.ReferenceIdeal.Bridge

open Cert.ReferenceIdeal Cert.ReferenceIdeal.Gen Cert.ReferenceIdeal.HostR Idealize.ShloMosaic Idealize.ShloMosaic.ValueIdx

/-! ## The pointwise pieces at an index -/

/-- A scalar literal broadcast over the edge array reads the literal everywhere. -/
theorem litE_apply (b : BitVec 32) (i : S600000x128.Idx) : litE (F := Ideal) b i = Ideal.ofBits .f32 b := rfl

/-- The host's tanh at an index is the extended reals' tanh of the element. -/
theorem hostTanh_apply (x : FVec Ideal S600000x128 .f32) (i : S600000x128.Idx) : Host.tanh x i = Ideal.tanh (x i) := rfl

/-- GELU over the edge array at an index is GELU of the element: the cube (x · x) · x is x · (x · x). -/
theorem geluE_apply (x : FVec Ideal S600000x128 .f32) (i : S600000x128.Idx) : geluE x i = Cert.Spec.gelu (x i) := by
  unfold geluE Cert.Spec.gelu Cert.Spec.cHalf Cert.Spec.cOne Cert.Spec.cTanh Cert.Spec.cCube
  simp only [mulf_apply, addf_apply, litE_apply, hostTanh_apply]
  rw [mul_assoc (x i) (x i) (x i)]

/-- The bias broadcast [128] → [1, 128] → [600000, 128] reads the bias at the column. -/
theorem biasE_apply (b : FVec Ideal S128 .f32) (p : Fin 600000) (q : Fin 128) : biasE b (ix2 p q) = b (ix1 q) := by
  unfold biasE
  rw [broadcastInDim_apply (![0, 1] : Fin 2 → Fin S600000x128.rank) bcast_S1x128_S600000x128_0_1 _ (ix2 p q) (ix2 (0 : Fin 1) q)
        (fun a => by match a with | ⟨0, _⟩ => rfl | ⟨1, _⟩ => rfl),
      broadcastInDim_apply (![1] : Fin 1 → Fin S1x128.rank) bcast_S128_S1x128_1 b (ix2 (0 : Fin 1) q) (ix1 q)
        (fun a => by match a with | ⟨0, _⟩ => rfl)]

/-! ## The matrix products at an index -/

/-- A 128-wide product at (p, q) is the sum over the contracted coordinate. -/
theorem dot128_apply (x : FVec Ideal S600000x128 .f32) (W : FVec Ideal S128x128 .f32) (p : Fin 600000) (q : Fin 128) :
    Host.dotGeneral dot_S600000x128_S128x128_S600000x128_1_0_0_1_n_n none x W (ix2 p q)
      = ∑ c : Fin 128, x (ix2 p c) * W (ix2 c q) :=
  StackMember.dotGeneral_plain_apply none x W p q

/-- The 320-wide product at (p, q) is the sum over the contracted coordinate. -/
theorem dot320_apply (x : FVec Ideal S600000x320 .f32) (W : FVec Ideal S320x128 .f32) (p : Fin 600000) (q : Fin 128) :
    Host.dotGeneral dot_S600000x320_S320x128_S600000x128_1_0_0_1_n_n none x W (ix2 p q)
      = ∑ c : Fin 320, x (ix2 p c) * W (ix2 c q) :=
  StackMember.dotGeneral_plain_apply none x W p q

/-! ## The concatenated row at an index -/

/-- Columns 0 … 127 of the concatenated row are the source row. -/
theorem cat_apply_src (hs hd : FVec Ideal S600000x128 .f32) (ea : FVec Ideal S600000x64 .f32) (p : Fin 600000) (c : Fin 128) :
    concatenate S600000x320 1 [⟨S600000x128, hs⟩, ⟨S600000x128, hd⟩, ⟨S600000x64, ea⟩]
        concatenates_S600000x128_S600000x128_S600000x64_S600000x320_d1
        (ix2 p (⟨0 + c.val, by have := c.isLt; omega⟩ : Fin 320)) = hs (ix2 p c) :=
  concatenate_apply_piece (1 : Fin S600000x320.rank) _ _ _ 0 (by simp) S600000x128 hs rfl rfl 0 rfl (ix2 p c)
    (fun b hb => by match b with | ⟨0, _⟩ => rfl | ⟨1, _⟩ => exact absurd rfl hb) rfl

/-- Columns 128 … 255 are the destination row. -/
theorem cat_apply_dst (hs hd : FVec Ideal S600000x128 .f32) (ea : FVec Ideal S600000x64 .f32) (p : Fin 600000) (c : Fin 128) :
    concatenate S600000x320 1 [⟨S600000x128, hs⟩, ⟨S600000x128, hd⟩, ⟨S600000x64, ea⟩]
        concatenates_S600000x128_S600000x128_S600000x64_S600000x320_d1
        (ix2 p (⟨128 + c.val, by have := c.isLt; omega⟩ : Fin 320)) = hd (ix2 p c) :=
  concatenate_apply_piece (1 : Fin S600000x320.rank) _ _ _ 1 (by simp) S600000x128 hd rfl rfl 128 rfl (ix2 p c)
    (fun b hb => by match b with | ⟨0, _⟩ => rfl | ⟨1, _⟩ => exact absurd rfl hb) rfl

/-- Columns 256 … 319 are the edge's attribute row. -/
theorem cat_apply_attr (hs hd : FVec Ideal S600000x128 .f32) (ea : FVec Ideal S600000x64 .f32) (p : Fin 600000) (c : Fin 64) :
    concatenate S600000x320 1 [⟨S600000x128, hs⟩, ⟨S600000x128, hd⟩, ⟨S600000x64, ea⟩]
        concatenates_S600000x128_S600000x128_S600000x64_S600000x320_d1
        (ix2 p (⟨256 + c.val, by have := c.isLt; omega⟩ : Fin 320)) = ea (ix2 p c) :=
  concatenate_apply_piece (1 : Fin S600000x320.rank) _ _ _ 2 (by simp) S600000x64 ea rfl rfl 256 rfl (ix2 p c)
    (fun b hb => by match b with | ⟨0, _⟩ => rfl | ⟨1, _⟩ => exact absurd rfl hb) rfl

/-- A sum over 320 columns is the sum over the first 128, the next 128 and the last 64. -/
theorem sum320 (f : Fin 320 → EReal) :
    ∑ c : Fin 320, f c = (∑ k : Fin 128, f ⟨0 + k.val, by have := k.isLt; omega⟩)
      + (∑ k : Fin 128, f ⟨128 + k.val, by have := k.isLt; omega⟩) + ∑ k : Fin 64, f ⟨256 + k.val, by have := k.isLt; omega⟩ := by
  have h1 : ∑ c : Fin 320, f c = (∑ i : Fin 256, f (Fin.castAdd 64 i)) + ∑ i : Fin 64, f (Fin.natAdd 256 i) :=
    Fin.sum_univ_add (M := EReal) (a := 256) (b := 64) f
  have h2 : ∑ i : Fin 256, f (Fin.castAdd 64 i)
      = (∑ i : Fin 128, f (Fin.castAdd 64 (Fin.castAdd 128 i))) + ∑ i : Fin 128, f (Fin.castAdd 64 (Fin.natAdd 128 i)) :=
    Fin.sum_univ_add (M := EReal) (a := 128) (b := 128) (fun i : Fin 256 => f (Fin.castAdd 64 i))
  rw [h1, h2]
  refine congrArg₂ (· + ·) (congrArg₂ (· + ·) ?_ rfl) rfl
  exact Finset.sum_congr rfl fun k _ => congrArg f (Fin.ext (Nat.zero_add _).symm)

/-! ## The first layer -/

/-- The first layer at (p, q): the 320-wide product of the concatenated row with the stacked weight matrix, plus the
    bias, is the three partial products with the matrix's row blocks, summed left to right, plus the bias. -/
theorem lay1_apply (hs hd : FVec Ideal S600000x128 .f32) (ea : FVec Ideal S600000x64 .f32) (W1 : FVec Ideal S320x128 .f32)
    (b1 : FVec Ideal S128 .f32) (p : Fin 600000) (q : Fin 128) :
    addf (Host.dotGeneral dot_S600000x320_S320x128_S600000x128_1_0_0_1_n_n none
        (concatenate S600000x320 1 [⟨S600000x128, hs⟩, ⟨S600000x128, hd⟩, ⟨S600000x64, ea⟩]
          concatenates_S600000x128_S600000x128_S600000x64_S600000x320_d1) W1) (biasE b1) (ix2 p q)
      = Cert.Spec.lay1 (Cert.Spec.row hs p) (Cert.Spec.row hd p) (Cert.Spec.row ea p)
          (Cert.Spec.mat (Cert.Spec.rowsFrom 0 128 (by decide) W1)) (Cert.Spec.mat (Cert.Spec.rowsFrom 128 128 (by decide) W1))
          (Cert.Spec.mat (Cert.Spec.rowsFrom 256 64 (by decide) W1)) (Cert.Spec.vec b1) q := by
  rw [addf_apply, biasE_apply, dot320_apply, sum320]
  unfold Cert.Spec.lay1
  refine congrArg₂ (· + ·) (congrArg₂ (· + ·) (congrArg₂ (· + ·) ?_ ?_) ?_) rfl
  · exact Finset.sum_congr rfl fun k _ => by rw [cat_apply_src]; rfl
  · exact Finset.sum_congr rfl fun k _ => by rw [cat_apply_dst]; rfl
  · exact Finset.sum_congr rfl fun k _ => by rw [cat_apply_attr]; rfl

theorem refMsgs_eq (hs hd : FVec Ideal S600000x128 .f32) (ea : FVec Ideal S600000x64 .f32) (W1 : FVec Ideal S320x128 .f32) (b1 : FVec Ideal S128 .f32)
    (W2 : FVec Ideal S128x128 .f32) (b2 : FVec Ideal S128 .f32) (W3 : FVec Ideal S128x128 .f32) (b3 : FVec Ideal S128 .f32) :
    refMsgs (F := Ideal) hs hd ea W1 b1 W2 b2 W3 b3
      = Cert.Spec.msgArr 600000 hs hd ea (Cert.Spec.rowsFrom 0 128 (by decide) W1) (Cert.Spec.rowsFrom 128 128 (by decide) W1)
          (Cert.Spec.rowsFrom 256 64 (by decide) W1) b1 W2 b2 W3 b3 := by
  funext i
  obtain ⟨p, q, rfl⟩ : ∃ (p : Fin 600000) (q : Fin 128), i = ix2 p q := ⟨i 0, i 1, eq_ix2 i⟩
  unfold refMsgs
  rw [addf_apply, biasE_apply, dot128_apply]
  show _ = Cert.Spec.msgRow (Cert.Spec.row hs p) (Cert.Spec.row hd p) (Cert.Spec.row ea p) _ _ _ (Cert.Spec.vec b1)
    (Cert.Spec.mat W2) (Cert.Spec.vec b2) (Cert.Spec.mat W3) (Cert.Spec.vec b3) q
  unfold Cert.Spec.msgRow Cert.Spec.lay
  refine congrArg₂ (· + ·) (Finset.sum_congr rfl fun c _ => congrArg₂ (· * ·) ?_ rfl) rfl
  rw [geluE_apply, addf_apply, biasE_apply, dot128_apply]
  refine congrArg Cert.Spec.gelu (congrArg₂ (· + ·) (Finset.sum_congr rfl fun c' _ => congrArg₂ (· * ·) ?_ rfl) rfl)
  rw [geluE_apply]
  exact congrArg Cert.Spec.gelu (lay1_apply hs hd ea W1 b1 p c')

end Cert.ReferenceIdeal.Bridge

end
-- ==== Proof.RBridge1.lean ====
/-
  The reference's update stage and layer normalisation are the normalised update row by row: the one
  256-wide matrix product of the concatenated rows is the sum of the two products with the weight matrix's
  row blocks; the variance is the mean of the squared deviations (its guard, 128 − 0 > 0, always holds); and
  dividing by the square root of a number greater than zero, +∞ included, is multiplying by its reciprocal
  square root.
-/
import proofs.«409984_j14121852469802_1_alg».proof.Proof.RDefs
import proofs.«409984_j14121852469802_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.ReferenceIdeal.Bridge

open Cert.ReferenceIdeal Cert.ReferenceIdeal.Gen Cert.ReferenceIdeal.HostR Idealize.ShloMosaic Idealize.ShloMosaic.ValueIdx

/-! ## The extended reals: squares, the two literals, and the one law -/

/-- A product of an extended real with itself is never negative: the infinities square to +∞. -/
theorem ereal_mul_self_nonneg (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-- Dividing by the square root of a number greater than zero is multiplying by its reciprocal square root:
    at a real v > 0 both are a · (√v)⁻¹, at +∞ both are a · 0. -/
theorem div_sqrt_eq_mul_rsqrt (a v : EReal) (hv : 0 < v) : Ideal.div a (Ideal.sqrt v) = a * Ideal.rsqrt v := by
  induction v using EReal.rec with
  | bot => exact absurd hv (not_lt.mpr bot_le)
  | top => rw [Ideal.sqrt_top, Ideal.rsqrt_top, Ideal.div, if_neg EReal.top_ne_zero, EReal.inv_top]
  | coe r =>
    have hr : 0 < r := EReal.coe_pos.mp hv
    have hs : 0 < Real.sqrt r := Real.sqrt_pos.mpr hr
    rw [Ideal.sqrt_coe, Ideal.rsqrt_coe, if_neg (not_lt.mpr hr.le), if_neg (not_lt.mpr hr.le), if_neg hr.ne', Ideal.div,
      if_neg (by exact_mod_cast hs.ne'), EReal.coe_inv]

/-- The literal 0x43000000 is 128. -/
theorem c128_eq : Cert.Spec.c128 = ((128 : ℝ) : EReal) := by
  unfold Cert.Spec.c128
  simp [Ideal.ofBits, Ideal.ieee, -EReal.coe_mul]; norm_num

/-- The literal 0x3727C5AC (ε, about 1e-5) is greater than zero. -/
theorem cEps_pos : 0 < Cert.Spec.cEps := by
  unfold Cert.Spec.cEps
  simp [Ideal.ofBits, Ideal.ieee, -EReal.coe_mul]

/-- The variance of a row plus ε is greater than zero: a sum of squares divided by 128 is not negative, and ε is
    greater than zero. -/
theorem var_add_eps_pos (r : Fin 128 → EReal) : 0 < Cert.Spec.var r + Cert.Spec.cEps := by
  have hvar : 0 ≤ Cert.Spec.var r := by
    unfold Cert.Spec.var
    rw [c128_eq, Ideal.div_coe (by norm_num)]
    exact mul_nonneg (Finset.sum_nonneg fun k _ => ereal_mul_self_nonneg _) (EReal.coe_nonneg.mpr (by norm_num))
  calc (0 : EReal) < Cert.Spec.cEps := cEps_pos
    _ = 0 + Cert.Spec.cEps := (zero_add _).symm
    _ ≤ Cert.Spec.var r + Cert.Spec.cEps := add_le_add hvar le_rfl

/-! ## The broadcasts and the row sum, read at an index -/

/-- A scalar literal over the node array reads the literal everywhere. -/
theorem litN_apply (b : BitVec 32) (i : S50000x128.Idx) : litN (F := Ideal) b i = Ideal.ofBits .f32 b := by
  unfold litN
  rw [broadcastInDim_scalar_apply]
  rfl

/-- A bias over the node array's rows reads, at (p, q), the bias at q. -/
theorem biasN_apply (b : FVec Ideal S128 .f32) (p : Fin 50000) (q : Fin 128) :
    biasN (F := Ideal) b (ix2 p q) = b (ix1 q) := by
  unfold biasN
  rw [broadcastInDim_oneRow_apply]
  refine broadcastInDim_apply ![1] _ b (ix2 (0 : Fin 1) q) (ix1 q) ?_
  intro a
  match a with
  | ⟨0, _⟩ => show q.val = if (128 : ℕ) = 1 then 0 else q.val; rw [if_neg (by decide)]

/-- A column broadcast along the rows reads, at (p, q), the column at p. -/
theorem col_apply {α : Type} (x : S50000x1.Idx → α) (p : Fin 50000) (q : Fin 128) :
    broadcastInDim S50000x128 ![0, 1] bcast_S50000x1_S50000x128_0_1 x (ix2 p q) = x (ix2 p (0 : Fin 1)) := by
  refine broadcastInDim_apply ![0, 1] _ x (ix2 p q) (ix2 p (0 : Fin 1)) ?_
  intro a
  match a with
  | ⟨0, _⟩ => show p.val = if (50000 : ℕ) = 1 then 0 else p.val; rw [if_neg (by decide)]
  | ⟨1, _⟩ => show (0 : ℕ) = if (1 : ℕ) = 1 then 0 else q.val; rw [if_pos rfl]

/-- A vector laid out as a column reads, at (p, 0), the vector at p. -/
theorem toCol_apply {α : Type} (x : S50000.Idx → α) (p : Fin 50000) (z : Fin 1) :
    broadcastInDim S50000x1 ![0] bcast_S50000_S50000x1_0 x (ix2 p z) = x (ix1 p) := by
  refine broadcastInDim_apply ![0] _ x (ix2 p z) (ix1 p) ?_
  intro a
  match a with
  | ⟨0, _⟩ => show p.val = if (50000 : ℕ) = 1 then 0 else p.val; rw [if_neg (by decide)]

/-- A scalar over a column reads the scalar everywhere. -/
theorem scalarCol_apply {α : Type} (x : S_.Idx → α) (j : S50000x1.Idx) :
    broadcastInDim S50000x1 ![] bcast_S_S50000x1 x j = x ix0 := broadcastInDim_scalar_apply _ x j

/-- The row sums from the initial value zero: at p, the sum of row p. -/
theorem rowSum_apply (y : FVec Ideal S50000x128 .f32) (p : Fin 50000) :
    Host.reduceAdd (F := Ideal) y (constant S_ .f32 0x00000000#32) reducesTo_S50000x128_S50000_d1 h_S_ (ix1 p)
      = ∑ k : Fin 128, y (ix2 p k) := by
  have hR : S50000x128.Reduces [1] S50000 := by decide
  rw [hostReduceAdd_apply, Ideal.hostReduceAdd_single _ hR, constant_apply, Ideal.ofBits_zero_f32, zero_add]
  refine Finset.sum_congr rfl fun k _ => congrArg y ?_
  funext a
  apply Fin.ext
  match a with
  | ⟨0, _⟩ => rfl
  | ⟨1, _⟩ => rfl

/-- The hyperbolic tangent and the square root act element by element. -/
theorem hostTanh_apply_node (x : FVec Ideal S50000x128 .f32) (i : S50000x128.Idx) : Host.tanh x i = Ideal.tanh (x i) := rfl
theorem hostSqrt_apply (x : FVec Ideal S50000x1 .f32) (i : S50000x1.Idx) : Host.sqrt x i = Ideal.sqrt (x i) := rfl

/-! ## The two matrix products, read at an index -/

/-- The operand indices of the 256-deep product at output index j and contraction index k: (j₀, k) and (k, j₁). -/
theorem lhsA_0 (j : S50000x128.Idx) (k : dot_S50000x256_S256x128_S50000x128_1_0_0_1_n_n.contr.Idx) :
    (dot_S50000x256_S256x128_S50000x128_1_0_0_1_n_n.lhsIdx j k 0).val = (j 0).val := rfl
theorem lhsA_1 (j : S50000x128.Idx) (k : dot_S50000x256_S256x128_S50000x128_1_0_0_1_n_n.contr.Idx) :
    (dot_S50000x256_S256x128_S50000x128_1_0_0_1_n_n.lhsIdx j k 1).val = (k ⟨0, by decide⟩).val := rfl
theorem rhsA_0 (j : S50000x128.Idx) (k : dot_S50000x256_S256x128_S50000x128_1_0_0_1_n_n.contr.Idx) :
    (dot_S50000x256_S256x128_S50000x128_1_0_0_1_n_n.rhsIdx j k 0).val = (k ⟨0, by decide⟩).val := rfl
theorem rhsA_1 (j : S50000x128.Idx) (k : dot_S50000x256_S256x128_S50000x128_1_0_0_1_n_n.contr.Idx) :
    (dot_S50000x256_S256x128_S50000x128_1_0_0_1_n_n.rhsIdx j k 1).val = (j 1).val := rfl

/-- The 256-deep product at (p, q) is the sum over k of l (p, k) · r (k, q). -/
theorem dotA_apply (l : FVec Ideal S50000x256 .f32) (r : FVec Ideal S256x128 .f32) (p : Fin 50000) (q : Fin 128) :
    Host.dotGeneral (F := Ideal) dot_S50000x256_S256x128_S50000x128_1_0_0_1_n_n none l r (ix2 p q)
      = ∑ k : Fin 256, l (ix2 p k) * r (ix2 k q) := by
  simp only [Host.dotGeneral]
  rw [Ideal.dotGeneral_apply,
    ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  congr 2
  · funext a
    apply Fin.ext
    match a with
    | ⟨0, _⟩ => exact lhsA_0 _ _
    | ⟨1, _⟩ => exact (lhsA_1 _ _).trans hk
  · funext a
    apply Fin.ext
    match a with
    | ⟨0, _⟩ => exact (rhsA_0 _ _).trans hk
    | ⟨1, _⟩ => exact rhsA_1 _ _

/-- The operand indices of the 128-deep product at output index j and contraction index k: (j₀, k) and (k, j₁). -/
theorem lhsB_0 (j : S50000x128.Idx) (k : dot_S50000x128_S128x128_S50000x128_1_0_0_1_n_n.contr.Idx) :
    (dot_S50000x128_S128x128_S50000x128_1_0_0_1_n_n.lhsIdx j k 0).val = (j 0).val := rfl
theorem lhsB_1 (j : S50000x128.Idx) (k : dot_S50000x128_S128x128_S50000x128_1_0_0_1_n_n.contr.Idx) :
    (dot_S50000x128_S128x128_S50000x128_1_0_0_1_n_n.lhsIdx j k 1).val = (k ⟨0, by decide⟩).val := rfl
theorem rhsB_0 (j : S50000x128.Idx) (k : dot_S50000x128_S128x128_S50000x128_1_0_0_1_n_n.contr.Idx) :
    (dot_S50000x128_S128x128_S50000x128_1_0_0_1_n_n.rhsIdx j k 0).val = (k ⟨0, by decide⟩).val := rfl
theorem rhsB_1 (j : S50000x128.Idx) (k : dot_S50000x128_S128x128_S50000x128_1_0_0_1_n_n.contr.Idx) :
    (dot_S50000x128_S128x128_S50000x128_1_0_0_1_n_n.rhsIdx j k 1).val = (j 1).val := rfl

/-- The 128-deep product at (p, q) is the sum over k of l (p, k) · r (k, q). -/
theorem dotB_apply (l : FVec Ideal S50000x128 .f32) (r : FVec Ideal S128x128 .f32) (p : Fin 50000) (q : Fin 128) :
    Host.dotGeneral (F := Ideal) dot_S50000x128_S128x128_S50000x128_1_0_0_1_n_n none l r (ix2 p q)
      = ∑ k : Fin 128, l (ix2 p k) * r (ix2 k q) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  congr 2
  · funext a
    apply Fin.ext
    match a with
    | ⟨0, _⟩ => exact lhsB_0 _ _
    | ⟨1, _⟩ => exact (lhsB_1 _ _).trans hk
  · funext a
    apply Fin.ext
    match a with
    | ⟨0, _⟩ => exact (rhsB_0 _ _).trans hk
    | ⟨1, _⟩ => exact rhsB_1 _ _

/-! ## The concatenated row: its first 128 columns are the node row, its last 128 the aggregate -/

/-- A sum over 256 positions is the sum over the first 128 plus the sum over the last 128. -/
theorem sum_256 (f : Fin 256 → EReal) :
    ∑ k : Fin 256, f k = (∑ k : Fin 128, f ⟨0 + k.val, by omega⟩) + ∑ k : Fin 128, f ⟨128 + k.val, by omega⟩ := by
  have e := Fin.sum_univ_add (a := 128) (b := 128) (f := f)
  rw [e]
  refine congrArg₂ (· + ·) (Finset.sum_congr rfl fun k _ => congrArg f (Fin.ext ?_)) rfl
  show k.val = 0 + k.val
  omega

/-- Column 0 + k of the concatenated row p is the node row at k. -/
theorem cat_left (h agg : FVec Ideal S50000x128 .f32) (p : Fin 50000) (k : Fin 128) :
    concatenate S50000x256 1 [⟨S50000x128, h⟩, ⟨S50000x128, agg⟩] concatenates_S50000x128_S50000x128_S50000x256_d1
      (ix2 p (⟨0 + k.val, by omega⟩ : Fin 256)) = h (ix2 p k) := by
  refine concatenate_pair_apply_left (t := S50000x256) 1 h agg _ _ rfl (ix2 p k) ?_
  intro b
  match b with
  | ⟨0, _⟩ => rfl
  | ⟨1, _⟩ => show k.val = 0 + k.val; omega

/-- Column 128 + k of the concatenated row p is the aggregate's row at k. -/
theorem cat_right (h agg : FVec Ideal S50000x128 .f32) (p : Fin 50000) (k : Fin 128) :
    concatenate S50000x256 1 [⟨S50000x128, h⟩, ⟨S50000x128, agg⟩] concatenates_S50000x128_S50000x128_S50000x256_d1
      (ix2 p (⟨128 + k.val, by omega⟩ : Fin 256)) = agg (ix2 p k) := by
  refine concatenate_pair_apply_right (t := S50000x256) 1 h agg _ _ rfl rfl (ix2 p k) ?_ ?_
  · intro b hb
    match b with
    | ⟨0, _⟩ => rfl
    | ⟨1, _⟩ => exact absurd rfl hb
  · show k.val + 128 = 128 + k.val
    omega

/-! ## The update stage, row by row -/

/-- GELU over the node array is GELU of each element: the cube (x · x) · x is x · (x · x). -/
theorem geluN_apply (x : FVec Ideal S50000x128 .f32) (i : S50000x128.Idx) : geluN (F := Ideal) x i = Cert.Spec.gelu (x i) := by
  unfold geluN Cert.Spec.gelu
  simp only [mulf_apply, addf_apply, litN_apply, hostTanh_apply_node]
  rw [mul_comm (x i * x i) (x i)]
  rfl

/-- The update network at (p, q) is the update of row p of the node array and of the aggregate, at feature q: the
    256-deep product of the concatenated row splits into the products with the weight matrix's two row blocks. -/
theorem refY_apply (h agg : FVec Ideal S50000x128 .f32) (uW1 : FVec Ideal S256x128 .f32) (ub1 : FVec Ideal S128 .f32)
    (uW2 : FVec Ideal S128x128 .f32) (ub2 : FVec Ideal S128 .f32) (p : Fin 50000) (q : Fin 128) :
    refY (F := Ideal) h agg uW1 ub1 uW2 ub2 (ix2 p q)
      = Cert.Spec.updRow (Cert.Spec.row h p) (Cert.Spec.row agg p) (Cert.Spec.mat (Cert.Spec.rowsFrom 0 128 (by decide) uW1))
          (Cert.Spec.mat (Cert.Spec.rowsFrom 128 128 (by decide) uW1)) (Cert.Spec.vec ub1) (Cert.Spec.mat uW2) (Cert.Spec.vec ub2) q := by
  unfold refY Cert.Spec.updRow Cert.Spec.lay
  rw [addf_apply, addf_apply, dotB_apply, biasN_apply]
  congr 2
  refine Finset.sum_congr rfl fun k _ => ?_
  rw [geluN_apply, addf_apply, dotA_apply, biasN_apply, sum_256]
  simp only [cat_left, cat_right]
  rfl

/-! ## The layer normalisation, row by row, of any array -/

/-- The mean column at (p, 0) is the mean of row p. -/
theorem meanCol_apply (y : FVec Ideal S50000x128 .f32) (p : Fin 50000) (z : Fin 1) :
    meanCol (F := Ideal) y (ix2 p z) = Cert.Spec.mean (Cert.Spec.row y p) := by
  unfold meanCol Cert.Spec.mean
  rw [hostDivf_apply, toCol_apply, rowSum_apply, scalarCol_apply]
  rfl

/-- The variance's divisor, 128 minus the zero degrees of freedom, is 128. -/
theorem dof_eq :
    (subf (constant (F := Ideal) S_ .f32 0x43000000#32) (sitofp .f32 (constantI S_ 32 0#32) : FVec Ideal S_ .f32)) ix0
      = Cert.Spec.c128 := by
  show Ideal.ofBits .f32 0x43000000#32 - (((0#32 : BitVec 32).toInt : ℝ) : EReal) = Cert.Spec.c128
  unfold Cert.Spec.c128
  simp

/-- The variance's guard, 128 − 0 > 0, holds. -/
theorem guard_true :
    (cmpf .ogt (subf (constant (F := Ideal) S_ .f32 0x43000000#32) (sitofp .f32 (constantI S_ 32 0#32) : FVec Ideal S_ .f32))
      (constant S_ .f32 0x00000000#32)) ix0 = 1#1 := by
  rw [cmpf_apply, dof_eq, constant_apply, Ideal.ofBits_zero_f32, Ideal.cmpf_def, c128_eq]
  show BitVec.ofBool (decide ((0 : EReal) < ((128 : ℝ) : EReal))) = 1#1
  rw [decide_eq_true (by exact_mod_cast (by norm_num : (0 : ℝ) < 128))]
  rfl

/-- The variance column at (p, 0) is the variance of row p: the guard holds, so the select takes the mean of the
    squared deviations. -/
theorem varCol_apply (y : FVec Ideal S50000x128 .f32) (p : Fin 50000) (z : Fin 1) :
    varCol (F := Ideal) y (ix2 p z) = Cert.Spec.var (Cert.Spec.row y p) := by
  unfold varCol Cert.Spec.var
  dsimp only
  rw [select_apply, scalarCol_apply, guard_true, select_one, hostDivf_apply, toCol_apply, rowSum_apply, scalarCol_apply, dof_eq]
  refine congrArg (fun s => Ideal.div s Cert.Spec.c128) (Finset.sum_congr rfl fun k _ => ?_)
  rw [mulf_apply, subf_apply, col_apply, meanCol_apply]

/-- The layer normalisation at (p, q) is the normalisation of row p at feature q: the division by the square root of
    the variance plus ε, which is greater than zero, is the product with the reciprocal square root. -/
theorem refLN_apply (y : FVec Ideal S50000x128 .f32) (gamma beta : FVec Ideal S128 .f32) (p : Fin 50000) (q : Fin 128) :
    refLN (F := Ideal) y gamma beta (ix2 p q)
      = Cert.Spec.lnRow (Cert.Spec.row y p) (Cert.Spec.vec gamma) (Cert.Spec.vec beta) q := by
  unfold refLN Cert.Spec.lnRow
  rw [addf_apply, mulf_apply, hostDivf_apply, subf_apply, col_apply, col_apply, meanCol_apply, biasN_apply, biasN_apply,
    hostSqrt_apply, addf_apply, varCol_apply, scalarCol_apply]
  show Ideal.div _ (Ideal.sqrt (Cert.Spec.var (Cert.Spec.row y p) + Cert.Spec.cEps)) * _ + _ = _
  rw [div_sqrt_eq_mul_rsqrt _ _ (var_add_eps_pos _)]

theorem refLN_eq (h agg : FVec Ideal S50000x128 .f32) (uW1 : FVec Ideal S256x128 .f32) (ub1 : FVec Ideal S128 .f32) (uW2 : FVec Ideal S128x128 .f32)
    (ub2 gamma beta : FVec Ideal S128 .f32) :
    refLN (F := Ideal) (refY (F := Ideal) h agg uW1 ub1 uW2 ub2) gamma beta
      = Cert.Spec.outArr 50000 h agg (Cert.Spec.rowsFrom 0 128 (by decide) uW1) (Cert.Spec.rowsFrom 128 128 (by decide) uW1)
          ub1 uW2 ub2 gamma beta := by
  funext i
  obtain ⟨p, q, rfl⟩ : ∃ (p : Fin 50000) (q : Fin 128), i = ix2 p q := ⟨i 0, i 1, eq_ix2 i⟩
  rw [refLN_apply]
  unfold Cert.Spec.outArr
  show Cert.Spec.lnRow (fun k => refY (F := Ideal) h agg uW1 ub1 uW2 ub2 (ix2 p k)) _ _ q = Cert.Spec.lnRow _ _ _ q
  congr 1
  funext k
  exact refY_apply h agg uW1 ub1 uW2 ub2 p k

end Cert.ReferenceIdeal.Bridge

end
-- ==== Proof.Cross.lean ====
/-
  The two programs compute one function. Their host stages are the same operations (the edge list's rows,
  the wrapped index column, the row gather, the mean aggregation over destinations); a row block of a stacked
  weight matrix cut out by a slice is that block read row by row; on node indices the kernel program's
  NaN-filling gather is the plain gather; and both message networks and both normalised updates are the
  specification's, row by row.
-/
import proofs.«409984_j14121852469802_1_alg».proof.Proof.KValue
import proofs.«409984_j14121852469802_1_alg».proof.Proof.KGather
import proofs.«409984_j14121852469802_1_alg».proof.Proof.RBridge0
import proofs.«409984_j14121852469802_1_alg».proof.Proof.RBridge1
import Idealize.ShloMosaic.Lib.Pipeline.RowLoads

noncomputable section

namespace Cert.Cross

open Idealize.ShloMosaic Idealize.ShloMosaic.ValueIdx
open Cert.KernelIdeal.HostK Cert.ReferenceIdeal.HostR

theorem srcRow_eq (ei : IVec Cert.KernelIdeal.S2x600000 32) : Cert.KernelIdeal.HostK.srcRow ei = Cert.ReferenceIdeal.HostR.srcRow ei := rfl
theorem dstRow_eq (ei : IVec Cert.KernelIdeal.S2x600000 32) : Cert.KernelIdeal.HostK.dstRow ei = Cert.ReferenceIdeal.HostR.dstRow ei := rfl
theorem wrapCol_eq (r : IVec Cert.KernelIdeal.S600000 32) : Cert.KernelIdeal.HostK.wrapCol r = Cert.ReferenceIdeal.HostR.wrapCol r := rfl
theorem gather_eq (h : FVec Ideal Cert.KernelIdeal.S50000x128 .f32) (col : IVec Cert.KernelIdeal.S600000x1 32) :
    Host.gather Cert.KernelIdeal.gather_S50000x128_S600000x1_S600000x128_1_0_n_n_0_1_1128 h col = Cert.ReferenceIdeal.HostR.gath (F := Ideal) h col := rfl
theorem agg_eq (msgs : FVec Ideal Cert.KernelIdeal.S600000x128 .f32) (dst : IVec Cert.KernelIdeal.S600000 32) :
    Cert.KernelIdeal.HostK.aggK (F := Ideal) msgs dst = Cert.ReferenceIdeal.HostR.aggR (F := Ideal) msgs dst := rfl

/-- A slice of 128 or 64 rows of a stacked weight matrix is those rows. -/
theorem w1a_eq (W : FVec Ideal Cert.KernelIdeal.S320x128 .f32) : w1a W = Cert.Spec.rowsFrom 0 128 (by decide) W :=
  RowLoads.extractStridedSlice_rows_eq_rowsFrom W 0 (by decide) _
theorem w1b_eq (W : FVec Ideal Cert.KernelIdeal.S320x128 .f32) : w1b W = Cert.Spec.rowsFrom 128 128 (by decide) W :=
  RowLoads.extractStridedSlice_rows_eq_rowsFrom W 128 (by decide) _
theorem w1c_eq (W : FVec Ideal Cert.KernelIdeal.S320x128 .f32) : w1c W = Cert.Spec.rowsFrom 256 64 (by decide) W :=
  RowLoads.extractStridedSlice_rows_eq_rowsFrom W 256 (by decide) _
theorem u1a_eq (W : FVec Ideal Cert.KernelIdeal.S256x128 .f32) : u1a W = Cert.Spec.rowsFrom 0 128 (by decide) W :=
  RowLoads.extractStridedSlice_rows_eq_rowsFrom W 0 (by decide) _
theorem u1b_eq (W : FVec Ideal Cert.KernelIdeal.S256x128 .f32) : u1b W = Cert.Spec.rowsFrom 128 128 (by decide) W :=
  RowLoads.extractStridedSlice_rows_eq_rowsFrom W 128 (by decide) _

/-- Where every entry of the edge list is a node index the two programs' results are one function of the arguments. -/
theorem kAll_eq_refAll (h : FVec Ideal Cert.KernelIdeal.S50000x128 .f32) (ei : IVec Cert.KernelIdeal.S2x600000 32)
    (ea : FVec Ideal Cert.KernelIdeal.S600000x64 .f32) (W1 : FVec Ideal Cert.KernelIdeal.S320x128 .f32)
    (b1 : FVec Ideal Cert.KernelIdeal.S128 .f32) (W2 : FVec Ideal Cert.KernelIdeal.S128x128 .f32) (b2 : FVec Ideal Cert.KernelIdeal.S128 .f32)
    (W3 : FVec Ideal Cert.KernelIdeal.S128x128 .f32) (b3 : FVec Ideal Cert.KernelIdeal.S128 .f32)
    (uW1 : FVec Ideal Cert.KernelIdeal.S256x128 .f32) (ub1 : FVec Ideal Cert.KernelIdeal.S128 .f32)
    (uW2 : FVec Ideal Cert.KernelIdeal.S128x128 .f32) (ub2 gamma beta : FVec Ideal Cert.KernelIdeal.S128 .f32)
    (hn : IsNode (S := Cert.KernelIdeal.S2x600000) ei) :
    kAll h ei ea W1 b1 W2 b2 W3 b3 uW1 ub1 uW2 ub2 gamma beta = refAll (F := Ideal) h ei ea W1 b1 W2 b2 W3 b3 uW1 ub1 uW2 ub2 gamma beta := by
  unfold kAll refAll
  rw [Cert.ReferenceIdeal.Bridge.refLN_eq, Cert.ReferenceIdeal.Bridge.refMsgs_eq,
    takeK_of_isNode h _ (isNode_srcRow ei hn), takeK_of_isNode h _ (isNode_dstRow ei hn),
    w1a_eq, w1b_eq, w1c_eq, u1a_eq, u1b_eq, gather_eq, gather_eq, agg_eq, wrapCol_eq, wrapCol_eq, srcRow_eq, dstRow_eq]

end Cert.Cross

end
-- ==== Proof.lean ====
/-
  A message-passing layer on a graph of 50000 nodes and 600000 edges, twice: as two kernel launches with host
  operations around them, and as plain array operations. Each edge's message is a three-layer perceptron
  (GELU in its tanh form) of its source node's row, its destination node's row and its attribute row; each
  node's aggregate is the mean of the messages arriving at it; each node's new row is a two-layer perceptron
  of its row and its aggregate, plus its row, layer-normalised.

  On the extended reals the two programs compute one function of their arguments wherever every entry of the
  edge list is a node index (the precondition says so): the first launch's blocks tile the edges and each is
  the message network of its rows; the aggregation is the same scatter-add and division in both programs; the
  second launch's blocks tile the nodes and each is the normalised update of its rows; the reference's wide
  matrix products of concatenated rows are the sums of the products with the weight matrices' row blocks; and
  dividing by the square root of the variance plus ε, a number greater than zero, is multiplying by its
  reciprocal square root. The ideal pass changed nothing in the kernel, so it has nothing to preserve.
-/
import proofs.«409984_j14121852469802_1_alg».proof.Defs
import proofs.«409984_j14121852469802_1_alg».proof.Proof.Gen.Kernel
import proofs.«409984_j14121852469802_1_alg».proof.Proof.Gen.Kernel.Frame
import proofs.«409984_j14121852469802_1_alg».proof.Proof.Gen.KernelIdeal
import proofs.«409984_j14121852469802_1_alg».proof.Proof.Gen.KernelIdeal.Frame
import proofs.«409984_j14121852469802_1_alg».proof.Proof.Gen.ReferenceIdeal
import proofs.«409984_j14121852469802_1_alg».proof.Proof.Gen.Pre_finite_inputs
import proofs.«409984_j14121852469802_1_alg».proof.Proof.KRun
import proofs.«409984_j14121852469802_1_alg».proof.Proof.RRun
import proofs.«409984_j14121852469802_1_alg».proof.Proof.Cross
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.HostR.run m ρ)

/-- Both runs end with the result at one function of the arguments. -/
theorem algebraic : Cert.algebraic_KernelIdeal_ReferenceIdeal := by
  intro m ρ m' ρ' hpre hagree
  refine ⟨fun c => Cert.KernelIdeal.HostK.kAll (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.HostK.result_eq m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.HostR.run m' ρ')
    obtain ⟨h0, h1, h2, h3, h4, h5, h6, h7, h8, h9, h10, h11, h12, h13, h14⟩ := hagree c
    rw [h0, h1, h2, h3, h4, h5, h6, h7, h8, h9, h10, h11, h12, h13, h14]
    exact (Cert.Cross.kAll_eq_refAll _ _ _ _ _ _ _ _ _ _ _ _ _ _ _
      (Cert.KernelIdeal.HostK.isNode_of_pre _ _ _ _ _ _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
